-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x32 : Shape := ⟨2, ![4, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩

class Facts : Prop where
  slices_S2x1600000_S1x1600000_0_0 : S2x1600000.Slices ![0, 0] S1x1600000
  shapeCasts_S1x1600000_S1600000 : S1x1600000.ShapeCasts S1600000
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v1 : IVec S1600000 32) (main_v30 : IVec S_ 1) (main_v33 : IVec S64 1) (main_c_11 : IVec S_ 1) : IVec S_ 1 :=
  let main_v34 : IVec S_ 1 := (fun x v => Host.reduce IntOp.andi x v reducesTo_S64_S_d0 h_S_) main_v33 main_c_11
  let main_v35 : IVec S_ 1 := andi main_v30 main_v34
  let main_c_12 : IVec S_ 32 := constantI S_ 32 0#32
  let main_v36 : IVec S1600000 32 := broadcastInDim S1600000 ![] bcast_S_S1600000 main_c_12
  let main_v37 : IVec S1600000 1 := cmpi .sge main_v1 main_v36
  let main_c_13 : IVec S_ 32 := constantI S_ 32 100000#32
  let main_v38 : IVec S1600000 32 := broadcastInDim S1600000 ![] bcast_S_S1600000 main_c_13
  let main_v39 : IVec S1600000 1 := cmpi .slt main_v1 main_v38
  let main_v40 : IVec S1600000 1 := andi main_v37 main_v39
  let main_c_14 : IVec S_ 1 := constantI S_ 1 1#1
  let main_v41 : IVec S_ 1 := (fun x v => Host.reduce IntOp.andi x v reducesTo_S1600000_S_d0 h_S_) main_v40 main_c_14
  let main_v42 : IVec S_ 1 := andi main_v35 main_v41
  main_v42

def fn_part1 {F : FTy → Type} [FloatOps F] (main_arg5 : FVec F S64 .f32) (main_arg6 : FVec F S64x64 .f32) (main_arg7 : FVec F S64 .f32) (main_v1 : IVec S1600000 32) (main_v15 : IVec S_ 1) (main_v16 : FVec F S32x64 .f32) (main_cst_4 : FVec F S_ .f32) : IVec S_ 1 :=
  let main_v17 : FVec F S32x64 .f32 := broadcastInDim S32x64 ![] bcast_S_S32x64 main_cst_4
  let main_v18 : IVec S32x64 1 := cmpf .olt main_v16 main_v17
  let main_c_5 : IVec S_ 1 := constantI S_ 1 1#1
  let main_v19 : IVec S_ 1 := (fun x v => Host.reduce IntOp.andi x v reducesTo_S32x64_S_d0_1 h_S_) main_v18 main_c_5
  let main_v20 : IVec S_ 1 := andi main_v15 main_v19
  let main_v21 : FVec F S64 .f32 := Host.absf main_arg5
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  let main_v26 : FVec F S64x64 .f32 := Host.absf main_arg6
  let main_cst_8 : FVec F S_ .f32 := constant S_ .f32 0x7F800000#32
  let main_v27 : FVec F S64x64 .f32 := broadcastInDim S64x64 ![] bcast_S_S64x64 main_cst_8
  let main_v28 : IVec S64x64 1 := cmpf .olt main_v26 main_v27
  let main_c_9 : IVec S_ 1 := constantI S_ 1 1#1
  let main_v29 : IVec S_ 1 := (fun x v => Host.reduce IntOp.andi x v reducesTo_S64x64_S_d0_1 h_S_) main_v28 main_c_9
  let main_v30 : IVec S_ 1 := andi main_v25 main_v29
  let main_v31 : FVec F S64 .f32 := Host.absf main_arg7
  let main_cst_10 : FVec F S_ .f32 := constant S_ .f32 0x7F800000#32
  let main_v32 : FVec F S64 .f32 := broadcastInDim S64 ![] bcast_S_S64 main_cst_10
  let main_v33 : IVec S64 1 := cmpf .olt main_v31 main_v32
  let main_c_11 : IVec S_ 1 := constantI S_ 1 1#1
  fn_part2 (F := F) main_v1 main_v30 main_v33 main_c_11

def fn {F : FTy → Type} [FloatOps F] (main_arg0 : FVec F S100000x4 .f32) (main_arg1 : IVec S2x1600000 32) (main_arg2 : FVec F S4x32 .f32) (main_arg3 : FVec F S32 .f32) (main_arg4 : FVec F S32x64 .f32) (main_arg5 : FVec F S64 .f32) (main_arg6 : FVec F S64x64 .f32) (main_arg7 : FVec F S64 .f32) : IVec S_ 1 :=
  let main_v0 : IVec S1x1600000 32 := (extractStridedSlice S1x1600000 ![0, 0] · slices_S2x1600000_S1x1600000_0_0) main_arg1
  let main_v1 : IVec S1600000 32 := shapeCast S1600000 main_v0 shapeCasts_S1x1600000_S1600000
  let main_v2 : FVec F S100000x4 .f32 := Host.absf main_arg0
  let main_cst : FVec F S_ .f32 := constant S_ .f32 0x7F800000#32
  let main_v3 : FVec F S100000x4 .f32 := broadcastInDim S100000x4 ![] bcast_S_S100000x4 main_cst
  let main_v4 : IVec S100000x4 1 := cmpf .olt main_v2 main_v3
  let main_c : IVec S_ 1 := constantI S_ 1 1#1
  let main_v5 : IVec S_ 1 := (fun x v => Host.reduce IntOp.andi x v reducesTo_S100000x4_S_d0_1 h_S_) main_v4 main_c
  let main_v6 : FVec F S4x32 .f32 := Host.absf main_arg2
  let main_cst_0 : FVec F S_ .f32 := constant S_ .f32 0x7F800000#32
  let main_v7 : FVec F S4x32 .f32 := broadcastInDim S4x32 ![] bcast_S_S4x32 main_cst_0
  let main_v8 : IVec S4x32 1 := cmpf .olt main_v6 main_v7
  let main_c_1 : IVec S_ 1 := constantI S_ 1 1#1
  let main_v9 : IVec S_ 1 := (fun x v => Host.reduce IntOp.andi x v reducesTo_S4x32_S_d0_1 h_S_) main_v8 main_c_1
  let main_v10 : IVec S_ 1 := andi main_v5 main_v9
  let main_v11 : FVec F S32 .f32 := Host.absf main_arg3
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  let main_v16 : FVec F S32x64 .f32 := Host.absf main_arg4
  let main_cst_4 : FVec F S_ .f32 := constant S_ .f32 0x7F800000#32
  fn_part1 (F := F) main_arg5 main_arg6 main_arg7 main_v1 main_v15 main_v16 main_cst_4
-- ==== Kernel.lean ====
abbrev S100000x4 : Shape := ⟨2, ![100000, 4]⟩
abbrev S2x1600000 : Shape := ⟨2, ![2, 1600000]⟩
abbrev S4x32 : Shape := ⟨2, ![4, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1 : Shape := ⟨1, ![1]⟩
abbrev S1x1 : Shape := ⟨2, ![1, 1]⟩
abbrev S1700000x4 : Shape := ⟨2, ![1700000, 4]⟩
abbrev S1x32 : Shape := ⟨2, ![1, 32]⟩
abbrev S100000x32 : Shape := ⟨2, ![100000, 32]⟩
abbrev S5000x4 : Shape := ⟨2, ![5000, 4]⟩
abbrev S5000x32 : Shape := ⟨2, ![5000, 32]⟩
abbrev S1700000x32 : Shape := ⟨2, ![1700000, 32]⟩
abbrev S1x64 : Shape := ⟨2, ![1, 64]⟩
abbrev S100000x64 : Shape := ⟨2, ![100000, 64]⟩
abbrev S5000x64 : Shape := ⟨2, ![5000, 64]⟩
abbrev S1700000x64 : Shape := ⟨2, ![1700000, 64]⟩

abbrev nBuf : Space → Nat
  | .hbm => 146
  | .vmem => 18
  | .smem => 0
  | _ => 0

abbrev hbmTy0_0 (i : Nat) : BufTy := match i % 128 with
  | 0 => ⟨S100000x4, .f32⟩
  | 1 => ⟨S2x1600000, .i32⟩
  | 2 => ⟨S4x32, .f32⟩
  | 3 => ⟨S32, .f32⟩
  | 4 => ⟨S32x64, .f32⟩
  | 5 => ⟨S64, .f32⟩
  | 6 => ⟨S64x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1, .i32⟩
  | 59 => ⟨S_, .i32⟩
  | 60 => ⟨S1700000x1, .i32⟩
  | 61 => ⟨S1700000x1, .i1⟩
  | 62 => ⟨S1x1, .i32⟩
  | 63 => ⟨S1700000x1, .i32⟩
  | 64 => ⟨S1700000x1, .i1⟩
  | 65 => ⟨S1700000x1, .i1⟩
  | 66 => ⟨S_, .i1⟩
  | 67 => ⟨S1700000, .i1⟩
  | 68 => ⟨S1700000x4, .f32⟩
  | 69 => ⟨S1700000x4, .i1⟩
  | 70 => ⟨S_, .f32⟩
  | 71 => ⟨S1700000x4, .f32⟩
  | 72 => ⟨S1700000x4, .f32⟩
  | 73 => ⟨S1700000x1, .f32⟩
  | 74 => ⟨S1700000x4, .f32⟩
  | 75 => ⟨S1700000x4, .f32⟩
  | 76 => ⟨S_, .f32⟩
  | 77 => ⟨S100000x4, .f32⟩
  | 78 => ⟨S1700000x1, .i32⟩
  | 79 => ⟨S100000x4, .f32⟩
  | 80 => ⟨S1x32, .f32⟩
  | 81 => ⟨S100000x32, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1, .i32⟩
  | 91 => ⟨S_, .i32⟩
  | 92 => ⟨S1700000x1, .i32⟩
  | 93 => ⟨S1700000x1, .i1⟩
  | 94 => ⟨S1x1, .i32⟩
  | 95 => ⟨S1700000x1, .i32⟩
  | 96 => ⟨S1700000x1, .i1⟩
  | 97 => ⟨S1700000x1, .i1⟩
  | 98 => ⟨S_, .i1⟩
  | 99 => ⟨S1700000, .i1⟩
  | 100 => ⟨S1700000x32, .f32⟩
  | 101 => ⟨S1700000x32, .i1⟩
  | 102 => ⟨S_, .f32⟩
  | 103 => ⟨S1700000x32, .f32⟩
  | 104 => ⟨S1700000x32, .f32⟩
  | 105 => ⟨S1700000x1, .f32⟩
  | 106 => ⟨S1700000x32, .f32⟩
  | 107 => ⟨S1700000x32, .f32⟩
  | 108 => ⟨S_, .f32⟩
  | 109 => ⟨S100000x32, .f32⟩
  | 110 => ⟨S1700000x1, .i32⟩
  | 111 => ⟨S100000x32, .f32⟩
  | 112 => ⟨S1x64, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1, .i32⟩
  | 123 => ⟨S_, .i32⟩
  | 124 => ⟨S1700000x1, .i32⟩
  | 125 => ⟨S1700000x1, .i1⟩
  | 126 => ⟨S1x1, .i32⟩
  | 127 => ⟨S1700000x1, .i32⟩
  | _ => ⟨S100000x4, .f32⟩

abbrev hbmTy0_1 (i : Nat) : BufTy := match i % 128 with
  | 0 => ⟨S1700000x1, .i1⟩
  | 1 => ⟨S1700000x1, .i1⟩
  | 2 => ⟨S_, .i1⟩
  | 3 => ⟨S1700000, .i1⟩
  | 4 => ⟨S1700000x64, .f32⟩
  | 5 => ⟨S1700000x64, .i1⟩
  | 6 => ⟨S_, .f32⟩
  | 7 => ⟨S1700000x64, .f32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64, .f32⟩
  | 17 => ⟨S100000x64, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S32x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_8 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_cst_9 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x4_0 : S1700000.BroadcastsInDim S1700000x4 (![0] : Fin 1 → Fin S1700000x4.rank)
  bcast_S_S1700000x4 : S_.BroadcastsInDim S1700000x4 (![] : Fin 0 → Fin S1700000x4.rank)
  bcast_S1700000x1_S1700000x4_0_1 : S1700000x1.BroadcastsInDim S1700000x4 (![0, 1] : Fin 2 → Fin S1700000x4.rank)
  bcast_S_S100000x4 : S_.BroadcastsInDim S100000x4 (![] : Fin 0 → Fin S100000x4.rank)
  shapeCasts_S32_S1x32 : S32.ShapeCasts S1x32
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  inb_S4x32_S4x32_0_0 : ∀ a, (![0, 0] : Fin 2 → Nat) a + S4x32.size a ≤ S4x32.size a
  h_S4x32 : 0 < S4x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S1700000_S1700000x32_0 : S1700000.BroadcastsInDim S1700000x32 (![0] : Fin 1 → Fin S1700000x32.rank)
  bcast_S_S1700000x32 : S_.BroadcastsInDim S1700000x32 (![] : Fin 0 → Fin S1700000x32.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x4_S1700000x1_S1700000x4_1_0_n_n_0_1_14_wf : GatherDims.WF S100000x4 S1700000x1 S1700000x4 [1] [0] [] [0] [] 1 ![1, 4]
  scatter_S100000x4_S1700000x1_S1700000x4_1_0_0_1_wf : ScatterDims.WF S100000x4 S1700000x1 S1700000x4 [1] [0] [0] 1
  dot_S5000x4_S4x32_S5000x32_1_0_0_1_n_n_wf : DotDims.WF S5000x4 S4x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x4_S1700000x1_S1700000x4_1_0_n_n_0_1_14 : GatherDims S100000x4 S1700000x1 S1700000x4 where
  offsetDims := [1]
  collapsedSliceDims := [0]
  operandBatchingDims := []
  startIndicesBatchingDims := []
  startIndexMap := [0]
  indexVectorDim := 1
  sliceSizes := ![1, 4]
  wf := gather_S100000x4_S1700000x1_S1700000x4_1_0_n_n_0_1_14_wf
def scatter_S100000x4_S1700000x1_S1700000x4_1_0_0_1 : ScatterDims S100000x4 S1700000x1 S1700000x4 where
  updateWindowDims := [1]
  insertedWindowDims := [0]
  scatterDimsToOperandDims := [0]
  indexVectorDim := 1
  wf := scatter_S100000x4_S1700000x1_S1700000x4_1_0_0_1_wf
def dot_S5000x4_S4x32_S5000x32_1_0_0_1_n_n : DotDims S5000x4 S4x32 S5000x32 where
  lhsContracting := [1]
  rhsContracting := [0]
  lhsNonContracting := [0]
  rhsNonContracting := [1]
  lhsBatch := []
  rhsBatch := []
  wf := dot_S5000x4_S4x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v37) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x32 : Shape := ⟨2, ![4, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x32, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x32, .f32⟩
  | .hbm, ⟨60, _⟩ => ⟨S1700000x1, .f32⟩
  | .hbm, ⟨61, _⟩ => ⟨S1700000x32, .f32⟩
  | .hbm, ⟨62, _⟩ => ⟨S1700000x32, .f32⟩
  | .hbm, ⟨63, _⟩ => ⟨S_, .f32⟩
  | .hbm, ⟨64, _⟩ => ⟨S100000x32, .f32⟩
  | .hbm, ⟨65, _⟩ => ⟨S1700000x1, .i32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S100000x32, .f32⟩
  | .hbm, ⟨72, _⟩ => ⟨S100000x32, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x32_S100000x32_1_0_0_1_n_n_wf : DotDims.WF S100000x4 S4x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x32_S100000x32_1_0_0_1_n_n : DotDims S100000x4 S4x32 S100000x32 where
  lhsContracting := [1]
  rhsContracting := [0]
  lhsNonContracting := [0]
  rhsNonContracting := [1]
  lhsBatch := []
  rhsBatch := []
  wf := dot_S100000x4_S4x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibGcnAlgebra.lean ====
/-
  A graph-convolution layer over the extended reals, in its two arrangements, and why they agree on real data.

  Nodes are `Fin N`, edges `Fin E`; edge `e` reads node `s e` and is added into every node `i` whose number is the
  integer `d e` (an edge whose `d e` is no node's number is added nowhere); `n e` is the edge's weight. With features
  `h : Fin N → Fin K → EReal`, a weight matrix `W` and a bias `b`:

    aggregate first:  out i j = (∑ k, (0 + ∑ e → i, h (s e) k * n e) * W k j) + b j          (`kPre`)
    transform first:  out i j = (0 + ∑ e → i, (∑ k, h (s e) k * W k j) * n e) + b j          (`rPre`)

  Over the reals the two are one double sum, `∑ e → i, ∑ k, h (s e) k * n e * W k j`, by distributivity and an exchange of
  the two finite sums. On the extended reals distributivity fails at the infinities, so the equality is stated for
  data that take real values only; a layer of real data is again real, and so is its positive part, which carries the
  equality through a stack of layers.
-/
import Idealize.ShloMosaic.PureOps.Ideal

noncomputable section

namespace Cert.Gcn

open scoped BigOperators

/-- `f` takes real values only (no `⊤`, no `⊥`). -/
def Real2 {α β : Type} (f : α → β → EReal) : Prop := ∀ a b, ∃ r : ℝ, f a b = (r : EReal)
/-- `f` takes real values only. -/
def Real1 {α : Type} (f : α → EReal) : Prop := ∀ a, ∃ r : ℝ, f a = (r : EReal)

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N E K J : ℕ}

/-- The edges added into node `i`: those whose target number `d e` is `i`. -/
def into (d : Fin E → ℤ) (i : Fin N) : Finset (Fin E) := Finset.univ.filter fun e => d e = (i.val : ℤ)

/-- Aggregation: node `i`'s feature `k` is zero plus the weighted features of the edges into `i`. -/
def agg (h : Fin N → Fin K → EReal) (s : Fin E → Fin N) (d : Fin E → ℤ) (n : Fin E → EReal) : Fin N → Fin K → EReal :=
  fun i k => 0 + ∑ e ∈ into d i, h (s e) k * n e

/-- The dense transform: rows times `W`, plus the bias. -/
def lin (a : Fin N → Fin K → EReal) (W : Fin K → Fin J → EReal) (b : Fin J → EReal) : Fin N → Fin J → EReal :=
  fun i j => (∑ k, a i k * W k j) + b j

/-- Aggregate first, then transform. -/
def kPre (h : Fin N → Fin K → EReal) (s : Fin E → Fin N) (d : Fin E → ℤ) (n : Fin E → EReal)
    (W : Fin K → Fin J → EReal) (b : Fin J → EReal) : Fin N → Fin J → EReal :=
  lin (agg h s d n) W b

/-- Transform first, then aggregate. -/
def rPre (h : Fin N → Fin K → EReal) (s : Fin E → Fin N) (d : Fin E → ℤ) (n : Fin E → EReal)
    (W : Fin K → Fin J → EReal) (b : Fin J → EReal) : Fin N → Fin J → EReal :=
  fun i j => (0 + ∑ e ∈ into d i, (∑ k, h (s e) k * W k j) * n e) + b j

/-- The positive part, entry by entry. -/
def relu (f : Fin N → Fin J → EReal) : Fin N → Fin J → EReal := fun i j => max (f i j) 0

/-- The transform-first sum of real data is the coercion of the real double sum. -/
theorem rSum_coe (hr : Fin N → Fin K → ℝ) (s : Fin E → Fin N) (d : Fin E → ℤ) (nr : Fin E → ℝ) (Wr : Fin K → Fin J → ℝ)
    (i : Fin N) (j : Fin J) :
    (0 + ∑ e ∈ into d i, (∑ k, ((hr (s e) k : ℝ) : EReal) * ((Wr k j : ℝ) : EReal)) * ((nr e : ℝ) : EReal))
      = ((∑ e ∈ into d i, (∑ k, hr (s e) k * Wr k j) * nr e : ℝ) : EReal) := by
  rw [zero_add, coe_sum]
  refine Finset.sum_congr rfl fun e _ => ?_
  rw [EReal.coe_mul, coe_sum]
  rfl

/-- The aggregate-first sum of real data is the coercion of the real double sum. -/
theorem kSum_coe (hr : Fin N → Fin K → ℝ) (s : Fin E → Fin N) (d : Fin E → ℤ) (nr : Fin E → ℝ) (Wr : Fin K → Fin J → ℝ)
    (i : Fin N) (j : Fin J) :
    (∑ k, (0 + ∑ e ∈ into d i, ((hr (s e) k : ℝ) : EReal) * ((nr e : ℝ) : EReal)) * ((Wr k j : ℝ) : EReal))
      = ((∑ k, (∑ e ∈ into d i, hr (s e) k * nr e) * Wr k j : ℝ) : EReal) := by
  rw [coe_sum]
  refine Finset.sum_congr rfl fun k _ => ?_
  rw [EReal.coe_mul, coe_sum, zero_add]
  rfl

/-- Over the reals the two arrangements are one double sum. -/
theorem real_exchange (hr : Fin N → Fin K → ℝ) (s : Fin E → Fin N) (d : Fin E → ℤ) (nr : Fin E → ℝ) (Wr : Fin K → Fin J → ℝ)
    (i : Fin N) (j : Fin J) :
    (∑ k, (∑ e ∈ into d i, hr (s e) k * nr e) * Wr k j) = ∑ e ∈ into d i, (∑ k, hr (s e) k * Wr k j) * nr e := by
  simp only [Finset.sum_mul]
  rw [Finset.sum_comm]
  refine Finset.sum_congr rfl fun e _ => Finset.sum_congr rfl fun k _ => ?_
  ring

/-- On real data, aggregating first and transforming first give the same layer. -/
theorem kPre_eq_rPre {h : Fin N → Fin K → EReal} {s : Fin E → Fin N} {d : Fin E → ℤ} {n : Fin E → EReal}
    {W : Fin K → Fin J → EReal} {b : Fin J → EReal} (hh : Real2 h) (hW : Real2 W) (hn : Real1 n) :
    kPre h s d n W b = rPre h s d n W b := by
  choose hr hhr using hh
  choose Wr hWr using hW
  choose nr hnr using hn
  funext i j
  show (∑ k, (0 + ∑ e ∈ into d i, h (s e) k * n e) * W k j) + b j
      = (0 + ∑ e ∈ into d i, (∑ k, h (s e) k * W k j) * n e) + b j
  simp only [hhr, hWr, hnr]
  rw [kSum_coe hr s d nr Wr i j, rSum_coe hr s d nr Wr i j, real_exchange hr s d nr Wr i j]

/-- A transform-first layer of real data is real. -/
theorem rPre_real {h : Fin N → Fin K → EReal} {s : Fin E → Fin N} {d : Fin E → ℤ} {n : Fin E → EReal}
    {W : Fin K → Fin J → EReal} {b : Fin J → EReal} (hh : Real2 h) (hW : Real2 W) (hn : Real1 n) (hb : Real1 b) :
    Real2 (rPre h s d n W b) := by
  choose hr hhr using hh
  choose Wr hWr using hW
  choose nr hnr using hn
  choose br hbr using hb
  intro i j
  refine ⟨(∑ e ∈ into d i, (∑ k, hr (s e) k * Wr k j) * nr e) + br j, ?_⟩
  show (0 + ∑ e ∈ into d i, (∑ k, h (s e) k * W k j) * n e) + b j = _
  simp only [hhr, hWr, hnr, hbr]
  rw [rSum_coe hr s d nr Wr i j, EReal.coe_add]

/-- The positive part of a real array is real. -/
theorem relu_real {f : Fin N → Fin J → EReal} (hf : Real2 f) : Real2 (relu f) := by
  intro i j
  obtain ⟨r, hr⟩ := hf i j
  refine ⟨max r 0, ?_⟩
  show max (f i j) 0 = _
  rw [hr]
  rcases le_total r 0 with h | h
  · rw [max_eq_right h, max_eq_right (by exact_mod_cast h)]; rfl
  · rw [max_eq_left h, max_eq_left (by exact_mod_cast h)]

/-- Three layers, the first two followed by the positive part, aggregating first. -/
def kNet {K0 K1 K2 K3 : ℕ} (x : Fin N → Fin K0 → EReal) (s : Fin E → Fin N) (d : Fin E → ℤ) (n : Fin E → EReal)
    (W1 : Fin K0 → Fin K1 → EReal) (b1 : Fin K1 → EReal) (W2 : Fin K1 → Fin K2 → EReal) (b2 : Fin K2 → EReal)
    (W3 : Fin K2 → Fin K3 → EReal) (b3 : Fin K3 → EReal) : Fin N → Fin K3 → EReal :=
  kPre (relu (kPre (relu (kPre x s d n W1 b1)) s d n W2 b2)) s d n W3 b3

/-- Three layers, the first two followed by the positive part, transforming first. -/
def rNet {K0 K1 K2 K3 : ℕ} (x : Fin N → Fin K0 → EReal) (s : Fin E → Fin N) (d : Fin E → ℤ) (n : Fin E → EReal)
    (W1 : Fin K0 → Fin K1 → EReal) (b1 : Fin K1 → EReal) (W2 : Fin K1 → Fin K2 → EReal) (b2 : Fin K2 → EReal)
    (W3 : Fin K2 → Fin K3 → EReal) (b3 : Fin K3 → EReal) : Fin N → Fin K3 → EReal :=
  rPre (relu (rPre (relu (rPre x s d n W1 b1)) s d n W2 b2)) s d n W3 b3

/-- On real inputs, weights, biases and edge weights the two three-layer stacks agree: layer by layer the two
    arrangements agree on real features, and each layer's output is real again. -/
theorem kNet_eq_rNet {K0 K1 K2 K3 : ℕ} {x : Fin N → Fin K0 → EReal} {s : Fin E → Fin N} {d : Fin E → ℤ} {n : Fin E → EReal}
    {W1 : Fin K0 → Fin K1 → EReal} {b1 : Fin K1 → EReal} {W2 : Fin K1 → Fin K2 → EReal} {b2 : Fin K2 → EReal}
    {W3 : Fin K2 → Fin K3 → EReal} {b3 : Fin K3 → EReal}
    (hx : Real2 x) (hn : Real1 n) (hW1 : Real2 W1) (hb1 : Real1 b1) (hW2 : Real2 W2) (hb2 : Real1 b2) (hW3 : Real2 W3) :
    kNet x s d n W1 b1 W2 b2 W3 b3 = rNet x s d n W1 b1 W2 b2 W3 b3 := by
  unfold kNet rNet
  have h1 : Real2 (relu (rPre x s d n W1 b1)) := relu_real (rPre_real hx hW1 hn hb1)
  have h2 : Real2 (relu (rPre (relu (rPre x s d n W1 b1)) s d n W2 b2)) := relu_real (rPre_real h1 hW2 hn hb2)
  rw [kPre_eq_rPre hx hW1 hn, kPre_eq_rPre h1 hW2 hn, kPre_eq_rPre h2 hW3 hn]

end Cert.Gcn

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.GcnIdx.lean ====
/-
  The graph's data as the layer formulas take them, read off the edge array.

  Both programs build, from the `2 × 1600000` edge array, the source ids `src` and target ids `dst` of the 1700000 edges
  (the given edges followed by one self-loop per node) and the edge weights `norm = dinv[src] * dinv[dst]`, by the same
  operations. Here they are named once, through the reference's stages: for edge `e`

  * `sIdx x1 e`: the row a gather by `src` reads — `src e` with a negative id counted from the end (`wrapW`), read as a
    signed integer and clamped into `[0, 99999]`;
  * `dInt x1 e`: the signed value of `dst e`, the node the edge is added into (no node when it is out of range);
  * `nrm x1 e`: the edge's weight.
-/
import proofs.«431274_j7035156431050_4_alg».proof.Proof.RefRead
import proofs.«431274_j7035156431050_4_alg».proof.Proof.LibGcnAlgebra
import proofs.«431274_j7035156431050_4_alg».proof.Proof.LibRowGatherScatter

noncomputable section

namespace Cert.Gcn

open Cert.ReferenceIdeal Cert.ReferenceIdeal.Read Idealize.ShloMosaic Idealize.ShloMosaic.ValueIdx

/-- A rank-2 array as a function of its two coordinates. -/
def cur {A B : ℕ} (v : (⟨2, ![A, B]⟩ : Shape).Idx → EReal) : Fin A → Fin B → EReal := fun p q => v (ix2 p q)
/-- A rank-1 array as a function of its coordinate. -/
def cur1 {A : ℕ} (v : (⟨1, ![A]⟩ : Shape).Idx → EReal) : Fin A → EReal := fun p => v (ix1 p)

/-- numpy's reading of a node id: a negative id counts from the end of the 100000 nodes. -/
def wrapW (v : BitVec 32) : BitVec 32 := Scalar.select (IntOp.cmpi .slt v 0#32) (IntOp.addi v 100000#32) v

/-- The row a gather by the source ids reads for edge `e`. -/
def sIdx (x1 : IVec S2x1600000 32) (e : Fin 1700000) : Fin 100000 :=
  ⟨min (wrapW (val_main_v3 (F := Ideal) x1 (ix1 e))).toInt.toNat (100000 - 1), by omega⟩

/-- The node edge `e` is added into, as a signed integer. -/
def dInt (x1 : IVec S2x1600000 32) (e : Fin 1700000) : ℤ := (val_main_v6 (F := Ideal) x1 (ix1 e)).toInt

/-- Edge `e`'s weight. -/
def nrm (x1 : IVec S2x1600000 32) (e : Fin 1700000) : EReal := val_main_v30 (F := Ideal) x1 (ix1 e)

/-- Row `(e, 0)` of an index column names edge `e`. -/
theorem col_idx {n : ℕ} (f : (⟨2, ![n, 1]⟩ : Shape).Idx → (⟨1, ![n]⟩ : Shape).Idx)
    (hf : ∀ i a, ((f i) a).val = (i 0).val) (e : Fin n) : f (ix2 e (0 : Fin 1)) = ix1 e :=
  funext fun a => match a with | ⟨0, _⟩ => Fin.ext (hf _ _)

end Cert.Gcn

end
-- ==== Proof.RefLayer1.lean ====
/-
  The reference's layer 1, before its positive part, is the transform-first layer formula `rPre` of the inputs:
  stage by stage — the product with the weights, the rows gathered by the source ids, the edge weights broadcast over
  the columns, the accumulating scatter by the target ids from zero, the bias broadcast over the rows.
-/
import proofs.«431274_j7035156431050_4_alg».proof.Proof.GcnIdx

noncomputable section

namespace Cert.ReferenceIdeal.RefValue

open Cert.ReferenceIdeal Cert.ReferenceIdeal.Read Cert.Gcn Idealize.ShloMosaic Idealize.ShloMosaic.ValueIdx
open scoped BigOperators

/-! ## Layer 1 -/

section L1
variable (x0 : FVec Ideal S100000x4 .f32) (x1 : IVec S2x1600000 32) (x2 : FVec Ideal S4x32 .f32) (x3 : FVec Ideal S32 .f32)

/-- The bias, broadcast over the rows. -/
theorem l1_bias (i : Fin 100000) (j : Fin 32) : val_main_v46 (F := Ideal) x3 (ix2 i j) = cur1 x3 j := by
  rw [val_main_v46_apply, val_main_v45_apply]
  exact congrArg x3 (funext fun a => match a with | ⟨0, _⟩ => rfl)

/-- The scatter's operand is zero. -/
theorem l1_zero (i : Fin 100000) (j : Fin 32) : (val_main_v42 (F := Ideal) (ix2 i j) : EReal) = (0 : EReal) := by
  rw [val_main_v42_apply, val_main_cst_9_apply]; exact Ideal.ofBits_zero_f32

/-- The target of edge `e`, as the scatter reads it. -/
theorem l1_dst (e : Fin 1700000) : (val_main_v43 (F := Ideal) x1 (ix2 e (0 : Fin 1))).toInt = dInt x1 e := by
  rw [val_main_v43_apply, col_idx idx_main_v43 (fun _ a => match a with | ⟨0, _⟩ => rfl) e]
  rfl

/-- The edge weight, broadcast over the columns. -/
theorem l1_nrm (e : Fin 1700000) (j : Fin 32) : val_main_v40 (F := Ideal) x1 (ix2 e j) = nrm x1 e := by
  rw [val_main_v40_apply, val_main_v39_apply]
  exact congrArg (val_main_v30 (F := Ideal) x1) (funext fun a => match a with | ⟨0, _⟩ => rfl)

/-- The gather's start index for edge `e` is the wrapped source id. -/
theorem l1_src (e : Fin 1700000) :
    val_main_v37 (F := Ideal) x1 (ix2 e (0 : Fin 1)) = wrapW (val_main_v3 (F := Ideal) x1 (ix1 e)) := by
  rw [val_main_v37_apply, col_idx idx_main_v37 (fun _ a => match a with | ⟨0, _⟩ => rfl) e,
    val_main_v36_apply, val_main_v33_apply, val_main_v35_apply, val_main_v32_apply, val_main_v34_apply,
    val_main_c_7_apply, val_main_c_8_apply]
  rfl

/-- The gathered row of `x @ W1` for edge `e`. -/
theorem l1_gather (e : Fin 1700000) (j : Fin 32) :
    val_main_v38 (F := Ideal) x0 x1 x2 (ix2 e j) = val_main_v31 (F := Ideal) x0 x2 (ix2 (sIdx x1 e) j) := by
  have wfg : GatherDims.WF ⟨2, ![100000, 32]⟩ ⟨2, ![1700000, 1]⟩ ⟨2, ![1700000, 32]⟩ [1] [0] [] [0] [] 1 ![1, 32] :=
    gather_S100000x32_S1700000x1_S1700000x32_1_0_n_n_0_1_132.wf
  have hdg : gather_S100000x32_S1700000x1_S1700000x32_1_0_n_n_0_1_132 = rowGatherDims 100000 1700000 32 wfg := rfl
  unfold val_main_v38
  rw [hdg, gather_rows_apply (N := 100000) (by norm_num)]
  refine congrArg (fun r : Fin 100000 => val_main_v31 (F := Ideal) x0 x2 (ix2 r j)) (Fin.ext ?_)
  show min (val_main_v37 (F := Ideal) x1 (ix2 e (0 : Fin 1))).toInt.toNat (100000 - 1)
    = min (wrapW (val_main_v3 (F := Ideal) x1 (ix1 e))).toInt.toNat (100000 - 1)
  rw [l1_src]

/-- One entry of `x @ W1`. -/
theorem l1_dot (r : Fin 100000) (j : Fin 32) :
    val_main_v31 (F := Ideal) x0 x2 (ix2 r j) = ∑ k, cur x0 r k * cur x2 k j := by
  rw [val_main_v31_apply]
  refine Finset.sum_congr rfl fun k _ => ?_
  have el : lidx_main_v31 (ix2 r j) k = ix2 r k := funext fun a => match a with | ⟨0, _⟩ => rfl | ⟨1, _⟩ => rfl
  have er : ridx_main_v31 (ix2 r j) k = ix2 k j := funext fun a => match a with | ⟨0, _⟩ => rfl | ⟨1, _⟩ => rfl
  rw [el, er]
  rfl

/-- One edge's update at column `j`. -/
theorem l1_upd (e : Fin 1700000) (j : Fin 32) :
    val_main_v41 (F := Ideal) x0 x1 x2 (ix2 e j) = (∑ k, cur x0 (sIdx x1 e) k * cur x2 k j) * nrm x1 e := by
  rw [val_main_v41_apply]
  show val_main_v38 (F := Ideal) x0 x1 x2 (ix2 e j) * val_main_v40 (F := Ideal) x1 (ix2 e j) = _
  rw [l1_gather, l1_nrm, l1_dot]

/-- The scatter's sum over the edges into `i`, term by term. -/
theorem l1_sum (i : Fin 100000) (j : Fin 32) :
    (∑ e ∈ Finset.univ.filter (fun e : Fin 1700000 => (val_main_v43 (F := Ideal) x1 (ix2 e (0 : Fin 1))).toInt = (i.val : ℤ)),
        (val_main_v41 (F := Ideal) x0 x1 x2 (ix2 e j) : EReal))
      = ∑ e ∈ into (dInt x1) i, (∑ k, cur x0 (sIdx x1 e) k * cur x2 k j) * nrm x1 e := by
  unfold into
  exact Finset.sum_congr (Finset.filter_congr fun e _ => by rw [l1_dst]) fun e _ => l1_upd x0 x1 x2 e j

/-- What the accumulating scatter leaves at `(i, j)`: zero plus the updates of the edges into `i`. -/
theorem l1_scatter (i : Fin 100000) (j : Fin 32) :
    val_main_v44 (F := Ideal) x0 x1 x2 (ix2 i j)
      = 0 + ∑ e ∈ into (dInt x1) i, (∑ k, cur x0 (sIdx x1 e) k * cur x2 k j) * nrm x1 e := by
  have wfs : ScatterDims.WF ⟨2, ![100000, 32]⟩ ⟨2, ![1700000, 1]⟩ ⟨2, ![1700000, 32]⟩ [1] [0] [0] 1 :=
    scatter_S100000x32_S1700000x1_S1700000x32_1_0_0_1.wf
  have hds : scatter_S100000x32_S1700000x1_S1700000x32_1_0_0_1 = rowScatterDims 100000 1700000 32 wfs := rfl
  -- the stage is the ideal accumulating scatter at the row-scatter dimension numbers
  have h1 : val_main_v44 (F := Ideal) x0 x1 x2 (ix2 i j)
      = Ideal.hostScatterAdd (rowScatterDims 100000 1700000 32 wfs) (val_main_v42 (F := Ideal)) (val_main_v43 (F := Ideal) x1)
          (val_main_v41 (F := Ideal) x0 x1 x2) (ix2 i j) := by
    rw [val_main_v44, Host.scatterAdd, Ideal.hostScatterAdd_def, hds]
  rw [h1, scatterAdd_rows_apply, l1_zero, l1_sum]

/-- Layer 1 before its positive part: `segment_sum((x @ W1)[src] * norm, dst) + b1` is `rPre` of the inputs. -/
theorem layer1 (i : Fin 100000) (j : Fin 32) :
    val_main_v47 (F := Ideal) x0 x1 x2 x3 (ix2 i j)
      = rPre (cur x0) (sIdx x1) (dInt x1) (nrm x1) (cur x2) (cur1 x3) i j := by
  rw [val_main_v47_apply]
  show val_main_v44 (F := Ideal) x0 x1 x2 (ix2 i j) + val_main_v46 (F := Ideal) x3 (ix2 i j) = _
  rw [l1_scatter, l1_bias]
  unfold rPre
  with_reducible rfl

end L1

end Cert.ReferenceIdeal.RefValue

end
-- ==== Proof.RefLayer2.lean ====
/-
  The reference's layer 2, before its positive part, is the transform-first layer formula `rPre` of the previous layer's positive part:
  stage by stage — the product with the weights, the rows gathered by the source ids, the edge weights broadcast over
  the columns, the accumulating scatter by the target ids from zero, the bias broadcast over the rows.
-/
import proofs.«431274_j7035156431050_4_alg».proof.Proof.GcnIdx

noncomputable section

namespace Cert.ReferenceIdeal.RefValue

open Cert.ReferenceIdeal Cert.ReferenceIdeal.Read Cert.Gcn Idealize.ShloMosaic Idealize.ShloMosaic.ValueIdx
open scoped BigOperators

/-! ## Layer 2 -/

section L2
variable (x0 : FVec Ideal S100000x4 .f32) (x1 : IVec S2x1600000 32) (x2 : FVec Ideal S4x32 .f32) (x3 : FVec Ideal S32 .f32)
  (x4 : FVec Ideal S32x64 .f32) (x5 : FVec Ideal S64 .f32)

/-- The bias, broadcast over the rows. -/
theorem l2_bias (i : Fin 100000) (j : Fin 64) : val_main_v64 (F := Ideal) x5 (ix2 i j) = cur1 x5 j := by
  rw [val_main_v64_apply, val_main_v63_apply]
  exact congrArg x5 (funext fun a => match a with | ⟨0, _⟩ => rfl)

/-- The scatter's operand is zero. -/
theorem l2_zero (i : Fin 100000) (j : Fin 64) : (val_main_v60 (F := Ideal) (ix2 i j) : EReal) = (0 : EReal) := by
  rw [val_main_v60_apply, val_main_cst_12_apply]; exact Ideal.ofBits_zero_f32

/-- The target of edge `e`, as the scatter reads it. -/
theorem l2_dst (e : Fin 1700000) : (val_main_v61 (F := Ideal) x1 (ix2 e (0 : Fin 1))).toInt = dInt x1 e := by
  rw [val_main_v61_apply, col_idx idx_main_v61 (fun _ a => match a with | ⟨0, _⟩ => rfl) e]
  rfl

/-- The edge weight, broadcast over the columns. -/
theorem l2_nrm (e : Fin 1700000) (j : Fin 64) : val_main_v58 (F := Ideal) x1 (ix2 e j) = nrm x1 e := by
  rw [val_main_v58_apply, val_main_v57_apply]
  exact congrArg (val_main_v30 (F := Ideal) x1) (funext fun a => match a with | ⟨0, _⟩ => rfl)

/-- The gather's start index for edge `e` is the wrapped source id. -/
theorem l2_src (e : Fin 1700000) :
    val_main_v55 (F := Ideal) x1 (ix2 e (0 : Fin 1)) = wrapW (val_main_v3 (F := Ideal) x1 (ix1 e)) := by
  rw [val_main_v55_apply, col_idx idx_main_v55 (fun _ a => match a with | ⟨0, _⟩ => rfl) e,
    val_main_v54_apply, val_main_v51_apply, val_main_v53_apply, val_main_v50_apply, val_main_v52_apply,
    val_main_c_10_apply, val_main_c_11_apply]
  rfl

/-- The gathered row of `x @ W1` for edge `e`. -/
theorem l2_gather (e : Fin 1700000) (j : Fin 64) :
    val_main_v56 (F := Ideal) x0 x1 x2 x3 x4 (ix2 e j) = val_main_v49 (F := Ideal) x0 x1 x2 x3 x4 (ix2 (sIdx x1 e) j) := by
  have wfg : GatherDims.WF ⟨2, ![100000, 64]⟩ ⟨2, ![1700000, 1]⟩ ⟨2, ![1700000, 64]⟩ [1] [0] [] [0] [] 1 ![1, 64] :=
    gather_S100000x64_S1700000x1_S1700000x64_1_0_n_n_0_1_164.wf
  have hdg : gather_S100000x64_S1700000x1_S1700000x64_1_0_n_n_0_1_164 = rowGatherDims 100000 1700000 64 wfg := rfl
  unfold val_main_v56
  rw [hdg, gather_rows_apply (N := 100000) (by norm_num)]
  refine congrArg (fun r : Fin 100000 => val_main_v49 (F := Ideal) x0 x1 x2 x3 x4 (ix2 r j)) (Fin.ext ?_)
  show min (val_main_v55 (F := Ideal) x1 (ix2 e (0 : Fin 1))).toInt.toNat (100000 - 1)
    = min (wrapW (val_main_v3 (F := Ideal) x1 (ix1 e))).toInt.toNat (100000 - 1)
  rw [l2_src]

/-- One entry of `x @ W1`. -/
theorem l2_dot (r : Fin 100000) (j : Fin 64) :
    val_main_v49 (F := Ideal) x0 x1 x2 x3 x4 (ix2 r j) = ∑ k, cur (val_main_v48 (F := Ideal) x0 x1 x2 x3) r k * cur x4 k j := by
  rw [val_main_v49_apply]
  refine Finset.sum_congr rfl fun k _ => ?_
  have el : lidx_main_v49 (ix2 r j) k = ix2 r k := funext fun a => match a with | ⟨0, _⟩ => rfl | ⟨1, _⟩ => rfl
  have er : ridx_main_v49 (ix2 r j) k = ix2 k j := funext fun a => match a with | ⟨0, _⟩ => rfl | ⟨1, _⟩ => rfl
  rw [el, er]
  rfl

/-- One edge's update at column `j`. -/
theorem l2_upd (e : Fin 1700000) (j : Fin 64) :
    val_main_v59 (F := Ideal) x0 x1 x2 x3 x4 (ix2 e j) = (∑ k, cur (val_main_v48 (F := Ideal) x0 x1 x2 x3) (sIdx x1 e) k * cur x4 k j) * nrm x1 e := by
  rw [val_main_v59_apply]
  show val_main_v56 (F := Ideal) x0 x1 x2 x3 x4 (ix2 e j) * val_main_v58 (F := Ideal) x1 (ix2 e j) = _
  rw [l2_gather, l2_nrm, l2_dot]

/-- The scatter's sum over the edges into `i`, term by term. -/
theorem l2_sum (i : Fin 100000) (j : Fin 64) :
    (∑ e ∈ Finset.univ.filter (fun e : Fin 1700000 => (val_main_v61 (F := Ideal) x1 (ix2 e (0 : Fin 1))).toInt = (i.val : ℤ)),
        (val_main_v59 (F := Ideal) x0 x1 x2 x3 x4 (ix2 e j) : EReal))
      = ∑ e ∈ into (dInt x1) i, (∑ k, cur (val_main_v48 (F := Ideal) x0 x1 x2 x3) (sIdx x1 e) k * cur x4 k j) * nrm x1 e := by
  unfold into
  exact Finset.sum_congr (Finset.filter_congr fun e _ => by rw [l2_dst]) fun e _ => l2_upd x0 x1 x2 x3 x4 e j

/-- What the accumulating scatter leaves at `(i, j)`: zero plus the updates of the edges into `i`. -/
theorem l2_scatter (i : Fin 100000) (j : Fin 64) :
    val_main_v62 (F := Ideal) x0 x1 x2 x3 x4 (ix2 i j)
      = 0 + ∑ e ∈ into (dInt x1) i, (∑ k, cur (val_main_v48 (F := Ideal) x0 x1 x2 x3) (sIdx x1 e) k * cur x4 k j) * nrm x1 e := by
  have wfs : ScatterDims.WF ⟨2, ![100000, 64]⟩ ⟨2, ![1700000, 1]⟩ ⟨2, ![1700000, 64]⟩ [1] [0] [0] 1 :=
    scatter_S100000x64_S1700000x1_S1700000x64_1_0_0_1.wf
  have hds : scatter_S100000x64_S1700000x1_S1700000x64_1_0_0_1 = rowScatterDims 100000 1700000 64 wfs := rfl
  -- the stage is the ideal accumulating scatter at the row-scatter dimension numbers
  have h1 : val_main_v62 (F := Ideal) x0 x1 x2 x3 x4 (ix2 i j)
      = Ideal.hostScatterAdd (rowScatterDims 100000 1700000 64 wfs) (val_main_v60 (F := Ideal)) (val_main_v61 (F := Ideal) x1)
          (val_main_v59 (F := Ideal) x0 x1 x2 x3 x4) (ix2 i j) := by
    rw [val_main_v62, Host.scatterAdd, Ideal.hostScatterAdd_def, hds]
  rw [h1, scatterAdd_rows_apply, l2_zero, l2_sum]

/-- Layer 1 before its positive part: `segment_sum((x @ W1)[src] * norm, dst) + b1` is `rPre` of the inputs. -/
theorem layer2 (i : Fin 100000) (j : Fin 64) :
    val_main_v65 (F := Ideal) x0 x1 x2 x3 x4 x5 (ix2 i j)
      = rPre (cur (val_main_v48 (F := Ideal) x0 x1 x2 x3)) (sIdx x1) (dInt x1) (nrm x1) (cur x4) (cur1 x5) i j := by
  rw [val_main_v65_apply]
  show val_main_v62 (F := Ideal) x0 x1 x2 x3 x4 (ix2 i j) + val_main_v64 (F := Ideal) x5 (ix2 i j) = _
  rw [l2_scatter, l2_bias]
  unfold rPre
  with_reducible rfl

end L2

end Cert.ReferenceIdeal.RefValue

end
-- ==== Proof.RefLayer3.lean ====
/-
  The reference's layer 3, before its positive part, is the transform-first layer formula `rPre` of the previous layer's positive part:
  stage by stage — the product with the weights, the rows gathered by the source ids, the edge weights broadcast over
  the columns, the accumulating scatter by the target ids from zero, the bias broadcast over the rows.
-/
import proofs.«431274_j7035156431050_4_alg».proof.Proof.GcnIdx

noncomputable section

namespace Cert.ReferenceIdeal.RefValue

open Cert.ReferenceIdeal Cert.ReferenceIdeal.Read Cert.Gcn Idealize.ShloMosaic Idealize.ShloMosaic.ValueIdx
open scoped BigOperators

/-! ## Layer 3 -/

section L3
variable (x0 : FVec Ideal S100000x4 .f32) (x1 : IVec S2x1600000 32) (x2 : FVec Ideal S4x32 .f32) (x3 : FVec Ideal S32 .f32)
  (x4 : FVec Ideal S32x64 .f32) (x5 : FVec Ideal S64 .f32) (x6 : FVec Ideal S64x64 .f32) (x7 : FVec Ideal S64 .f32)

/-- The bias, broadcast over the rows. -/
theorem l3_bias (i : Fin 100000) (j : Fin 64) : val_main_v82 (F := Ideal) x7 (ix2 i j) = cur1 x7 j := by
  rw [val_main_v82_apply, val_main_v81_apply]
  exact congrArg x7 (funext fun a => match a with | ⟨0, _⟩ => rfl)

/-- The scatter's operand is zero. -/
theorem l3_zero (i : Fin 100000) (j : Fin 64) : (val_main_v78 (F := Ideal) (ix2 i j) : EReal) = (0 : EReal) := by
  rw [val_main_v78_apply, val_main_cst_15_apply]; exact Ideal.ofBits_zero_f32

/-- The target of edge `e`, as the scatter reads it. -/
theorem l3_dst (e : Fin 1700000) : (val_main_v79 (F := Ideal) x1 (ix2 e (0 : Fin 1))).toInt = dInt x1 e := by
  rw [val_main_v79_apply, col_idx idx_main_v79 (fun _ a => match a with | ⟨0, _⟩ => rfl) e]
  rfl

/-- The edge weight, broadcast over the columns. -/
theorem l3_nrm (e : Fin 1700000) (j : Fin 64) : val_main_v76 (F := Ideal) x1 (ix2 e j) = nrm x1 e := by
  rw [val_main_v76_apply, val_main_v75_apply]
  exact congrArg (val_main_v30 (F := Ideal) x1) (funext fun a => match a with | ⟨0, _⟩ => rfl)

/-- The gather's start index for edge `e` is the wrapped source id. -/
theorem l3_src (e : Fin 1700000) :
    val_main_v73 (F := Ideal) x1 (ix2 e (0 : Fin 1)) = wrapW (val_main_v3 (F := Ideal) x1 (ix1 e)) := by
  rw [val_main_v73_apply, col_idx idx_main_v73 (fun _ a => match a with | ⟨0, _⟩ => rfl) e,
    val_main_v72_apply, val_main_v69_apply, val_main_v71_apply, val_main_v68_apply, val_main_v70_apply,
    val_main_c_13_apply, val_main_c_14_apply]
  rfl

/-- The gathered row of `x @ W1` for edge `e`. -/
theorem l3_gather (e : Fin 1700000) (j : Fin 64) :
    val_main_v74 (F := Ideal) x0 x1 x2 x3 x4 x5 x6 (ix2 e j) = val_main_v67 (F := Ideal) x0 x1 x2 x3 x4 x5 x6 (ix2 (sIdx x1 e) j) := by
  have wfg : GatherDims.WF ⟨2, ![100000, 64]⟩ ⟨2, ![1700000, 1]⟩ ⟨2, ![1700000, 64]⟩ [1] [0] [] [0] [] 1 ![1, 64] :=
    gather_S100000x64_S1700000x1_S1700000x64_1_0_n_n_0_1_164.wf
  have hdg : gather_S100000x64_S1700000x1_S1700000x64_1_0_n_n_0_1_164 = rowGatherDims 100000 1700000 64 wfg := rfl
  unfold val_main_v74
  rw [hdg, gather_rows_apply (N := 100000) (by norm_num)]
  refine congrArg (fun r : Fin 100000 => val_main_v67 (F := Ideal) x0 x1 x2 x3 x4 x5 x6 (ix2 r j)) (Fin.ext ?_)
  show min (val_main_v73 (F := Ideal) x1 (ix2 e (0 : Fin 1))).toInt.toNat (100000 - 1)
    = min (wrapW (val_main_v3 (F := Ideal) x1 (ix1 e))).toInt.toNat (100000 - 1)
  rw [l3_src]

/-- One entry of `x @ W1`. -/
theorem l3_dot (r : Fin 100000) (j : Fin 64) :
    val_main_v67 (F := Ideal) x0 x1 x2 x3 x4 x5 x6 (ix2 r j) = ∑ k, cur (val_main_v66 (F := Ideal) x0 x1 x2 x3 x4 x5) r k * cur x6 k j := by
  rw [val_main_v67_apply]
  refine Finset.sum_congr rfl fun k _ => ?_
  have el : lidx_main_v67 (ix2 r j) k = ix2 r k := funext fun a => match a with | ⟨0, _⟩ => rfl | ⟨1, _⟩ => rfl
  have er : ridx_main_v67 (ix2 r j) k = ix2 k j := funext fun a => match a with | ⟨0, _⟩ => rfl | ⟨1, _⟩ => rfl
  rw [el, er]
  rfl

/-- One edge's update at column `j`. -/
theorem l3_upd (e : Fin 1700000) (j : Fin 64) :
    val_main_v77 (F := Ideal) x0 x1 x2 x3 x4 x5 x6 (ix2 e j) = (∑ k, cur (val_main_v66 (F := Ideal) x0 x1 x2 x3 x4 x5) (sIdx x1 e) k * cur x6 k j) * nrm x1 e := by
  rw [val_main_v77_apply]
  show val_main_v74 (F := Ideal) x0 x1 x2 x3 x4 x5 x6 (ix2 e j) * val_main_v76 (F := Ideal) x1 (ix2 e j) = _
  rw [l3_gather, l3_nrm, l3_dot]

/-- The scatter's sum over the edges into `i`, term by term. -/
theorem l3_sum (i : Fin 100000) (j : Fin 64) :
    (∑ e ∈ Finset.univ.filter (fun e : Fin 1700000 => (val_main_v79 (F := Ideal) x1 (ix2 e (0 : Fin 1))).toInt = (i.val : ℤ)),
        (val_main_v77 (F := Ideal) x0 x1 x2 x3 x4 x5 x6 (ix2 e j) : EReal))
      = ∑ e ∈ into (dInt x1) i, (∑ k, cur (val_main_v66 (F := Ideal) x0 x1 x2 x3 x4 x5) (sIdx x1 e) k * cur x6 k j) * nrm x1 e := by
  unfold into
  exact Finset.sum_congr (Finset.filter_congr fun e _ => by rw [l3_dst]) fun e _ => l3_upd x0 x1 x2 x3 x4 x5 x6 e j

/-- What the accumulating scatter leaves at `(i, j)`: zero plus the updates of the edges into `i`. -/
theorem l3_scatter (i : Fin 100000) (j : Fin 64) :
    val_main_v80 (F := Ideal) x0 x1 x2 x3 x4 x5 x6 (ix2 i j)
      = 0 + ∑ e ∈ into (dInt x1) i, (∑ k, cur (val_main_v66 (F := Ideal) x0 x1 x2 x3 x4 x5) (sIdx x1 e) k * cur x6 k j) * nrm x1 e := by
  have wfs : ScatterDims.WF ⟨2, ![100000, 64]⟩ ⟨2, ![1700000, 1]⟩ ⟨2, ![1700000, 64]⟩ [1] [0] [0] 1 :=
    scatter_S100000x64_S1700000x1_S1700000x64_1_0_0_1.wf
  have hds : scatter_S100000x64_S1700000x1_S1700000x64_1_0_0_1 = rowScatterDims 100000 1700000 64 wfs := rfl
  -- the stage is the ideal accumulating scatter at the row-scatter dimension numbers
  have h1 : val_main_v80 (F := Ideal) x0 x1 x2 x3 x4 x5 x6 (ix2 i j)
      = Ideal.hostScatterAdd (rowScatterDims 100000 1700000 64 wfs) (val_main_v78 (F := Ideal)) (val_main_v79 (F := Ideal) x1)
          (val_main_v77 (F := Ideal) x0 x1 x2 x3 x4 x5 x6) (ix2 i j) := by
    rw [val_main_v80, Host.scatterAdd, Ideal.hostScatterAdd_def, hds]
  rw [h1, scatterAdd_rows_apply, l3_zero, l3_sum]

/-- Layer 1 before its positive part: `segment_sum((x @ W1)[src] * norm, dst) + b1` is `rPre` of the inputs. -/
theorem layer3 (i : Fin 100000) (j : Fin 64) :
    val_main_v83 (F := Ideal) x0 x1 x2 x3 x4 x5 x6 x7 (ix2 i j)
      = rPre (cur (val_main_v66 (F := Ideal) x0 x1 x2 x3 x4 x5)) (sIdx x1) (dInt x1) (nrm x1) (cur x6) (cur1 x7) i j := by
  rw [val_main_v83_apply]
  show val_main_v80 (F := Ideal) x0 x1 x2 x3 x4 x5 x6 (ix2 i j) + val_main_v82 (F := Ideal) x7 (ix2 i j) = _
  rw [l3_scatter, l3_bias]
  unfold rPre
  with_reducible rfl

end L3

end Cert.ReferenceIdeal.RefValue

end
-- ==== Proof.RefValue.lean ====
/-
  The reference's result is the transform-first three-layer stack `rNet` of the inputs and the graph data:
  each layer before its positive part is `rPre` of the layer below (the three layer modules), and the positive part
  between two layers is the maximum with zero, entry by entry.
-/
import proofs.«431274_j7035156431050_4_alg».proof.Proof.RefLayer1
import proofs.«431274_j7035156431050_4_alg».proof.Proof.RefLayer2
import proofs.«431274_j7035156431050_4_alg».proof.Proof.RefLayer3

noncomputable section

namespace Cert.ReferenceIdeal.RefValue

open Cert.ReferenceIdeal Cert.ReferenceIdeal.Read Cert.Gcn Idealize.ShloMosaic Idealize.ShloMosaic.ValueIdx
open scoped BigOperators

variable (x0 : FVec Ideal S100000x4 .f32) (x1 : IVec S2x1600000 32) (x2 : FVec Ideal S4x32 .f32) (x3 : FVec Ideal S32 .f32)
  (x4 : FVec Ideal S32x64 .f32) (x5 : FVec Ideal S64 .f32) (x6 : FVec Ideal S64x64 .f32) (x7 : FVec Ideal S64 .f32)

/-- The maximum with the zero constant, at the ideal values. -/
theorem max_zero_bits (A : EReal) :
    FloatOps.maximumf (F := Ideal) (φ := .f32) A (FloatOps.ofBits (F := Ideal) .f32 0x00000000#32) = max A 0 := by
  show max A (Ideal.ofBits .f32 0x00000000#32) = max A 0
  rw [Ideal.ofBits_zero_f32]

/-- Layer 1's output is the positive part of its pre-activation. -/
theorem relu1 : cur (val_main_v48 (F := Ideal) x0 x1 x2 x3)
    = relu (rPre (cur x0) (sIdx x1) (dInt x1) (nrm x1) (cur x2) (cur1 x3)) := by
  funext p q
  show val_main_v48 (F := Ideal) x0 x1 x2 x3 (ix2 p q)
    = max (rPre (cur x0) (sIdx x1) (dInt x1) (nrm x1) (cur x2) (cur1 x3) p q) 0
  rw [val_main_v48_apply, layer1, val_main_call1_v0_apply, val_main_call1_cst_apply]
  generalize rPre (cur x0) (sIdx x1) (dInt x1) (nrm x1) (cur x2) (cur1 x3) p q = A
  exact max_zero_bits A

/-- Layer 2's output is the positive part of its pre-activation. -/
theorem relu2 : cur (val_main_v66 (F := Ideal) x0 x1 x2 x3 x4 x5)
    = relu (rPre (cur (val_main_v48 (F := Ideal) x0 x1 x2 x3)) (sIdx x1) (dInt x1) (nrm x1) (cur x4) (cur1 x5)) := by
  funext p q
  show val_main_v66 (F := Ideal) x0 x1 x2 x3 x4 x5 (ix2 p q)
    = max (rPre (cur (val_main_v48 (F := Ideal) x0 x1 x2 x3)) (sIdx x1) (dInt x1) (nrm x1) (cur x4) (cur1 x5) p q) 0
  rw [val_main_v66_apply, layer2, val_main_call2_v0_apply, val_main_call2_cst_apply]
  generalize rPre (cur (val_main_v48 (F := Ideal) x0 x1 x2 x3)) (sIdx x1) (dInt x1) (nrm x1) (cur x4) (cur1 x5) p q = A
  exact max_zero_bits A

/-- THE REFERENCE'S VALUE: entry `(i, j)` of its result is the transform-first stack of the inputs. -/
theorem ref_value (i : Fin 100000) (j : Fin 64) :
    val_main_v83 (F := Ideal) x0 x1 x2 x3 x4 x5 x6 x7 (ix2 i j)
      = rNet (cur x0) (sIdx x1) (dInt x1) (nrm x1) (cur x2) (cur1 x3) (cur x4) (cur1 x5) (cur x6) (cur1 x7) i j := by
  rw [layer3, relu2, relu1]
  rfl

end Cert.ReferenceIdeal.RefValue

end
-- ==== Proof.LibReduceAndAll.lean ====
/-
  The converse of reading a `jnp.all` back: a `stablehlo.reduce` by `and` over `i1` words is 1 at a result index
  as soon as its initial value is 1 and every operand element that reduces into that index is 1 — a left fold of `and`
  that starts at 1 and meets only 1s stays at 1.
-/
import Idealize.ShloMosaic.Lib.ReduceAll

namespace Cert.Gcn

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

variable {s t u : Shape} {axes : List (Fin s.rank)}

/-- A reduce by `and` from 1 whose operand is 1 at every index reducing into `j` is 1 at `j`. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  rw [List.mem_filter] at hi
  simpa using hi.2

end Cert.Gcn
-- ==== Proof.KHostCommon.lean ====
/-
  What the kernel's `jnp.take` computes before it gathers, for all three layers: the start indices (a node id, a negative
  one counted from the end, as a column) and the mask of the edges whose wrapped id names a node. Read at one edge:
  the column holds `wrapW` of the edge's id, and the mask is 1 as soon as that lies in `[0, 99999]`.
-/
import proofs.«431274_j7035156431050_4_alg».proof.Proof.Gen.KernelIdeal.Frame
import proofs.«431274_j7035156431050_4_alg».proof.Proof.GcnIdx
import proofs.«431274_j7035156431050_4_alg».proof.Proof.LibReduceAndAll
import Idealize.ShloMosaic.Lib.StableHlo.Run
import Idealize.ShloMosaic.Lib.Pipeline.Value

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo

/-- The start indices of a gather by node ids: a negative id counted from the end, as a column. -/
def wrapB (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- Which edges' wrapped ids name a node: `0 ≤ id ≤ 99999`, reduced over the column's one entry. -/
def inRange (src : IVec S1700000 32) : IVec S1700000 1 :=
  Host.reduce IntOp.andi
    (andi (cmpi .sge (wrapB src) (broadcastInDim S1700000x1 ![] bcast_S_S1700000x1 (constantI S_ 32 0#32)))
      (cmpi .sle (wrapB src) (broadcastInDim S1700000x1 ![0, 1] bcast_S1x1_S1700000x1_0_1
        (broadcastInDim S1x1 ![1] bcast_S1_S1x1_1 (constantI S1 32 99999#32)))))
    (constantI S_ 1 1#1) reducesTo_S1700000x1_S1700000_d1 h_S_

/-- The column's entry for edge `e` is the wrapped id. -/
theorem wrapB_apply (src : IVec S1700000 32) (e : Fin 1700000) :
    wrapB src (ix2 e (0 : Fin 1)) = wrapW (src (ix1 e)) := by
  unfold wrapB
  rw [broadcastInDim_apply _ bcast_S1700000_S1700000x1_0 _ (ix2 e (0 : Fin 1)) (ix1 e) (fun a => match a with
    | ⟨0, _⟩ => by show e.val = if (1700000 : Nat) = 1 then 0 else e.val; rw [if_neg (by decide)])]
  show Scalar.select (IntOp.cmpi .slt (src (ix1 e)) (broadcastInDim S1700000 ![] bcast_S_S1700000 (constantI S_ 32 0#32) (ix1 e)))
      (IntOp.addi (src (ix1 e)) (broadcastInDim S1700000 ![] bcast_S_S1700000 (constantI S_ 32 100000#32) (ix1 e))) (src (ix1 e)) = _
  rw [broadcastInDim_apply _ bcast_S_S1700000 (constantI S_ 32 0#32) (ix1 e) ix0 (fun a => a.elim0),
    broadcastInDim_apply _ bcast_S_S1700000 (constantI S_ 32 100000#32) (ix1 e) ix0 (fun a => a.elim0)]
  rfl

/-- The mask is 1 at an edge whose wrapped id lies in `[0, 99999]`. -/
theorem inRange_apply (src : IVec S1700000 32) (e : Fin 1700000)
    (h0 : 0 ≤ (wrapW (src (ix1 e))).toInt) (h1 : (wrapW (src (ix1 e))).toInt ≤ 99999) :
    inRange src (ix1 e) = 1#1 := by
  unfold inRange
  refine reduce_andi_of_all _ _ _ _ _ rfl (fun i hi => ?_)
  obtain ⟨p, q, rfl⟩ : ∃ (p : Fin 1700000) (q : Fin 1), i = ix2 p q := ⟨i 0, i 1, eq_ix2 i⟩
  have hp : p = e := by
    have h := congrArg (fun j : S1700000.Idx => (j 0).val) hi
    exact Fin.ext ((Shape.ReducesTo.drop_apply_val_of_eq reducesTo_S1700000x1_S1700000_d1 (ix2 p q) 0 0).symm.trans h)
  have hq : q = 0 := Subsingleton.elim _ _
  subst hp hq
  show IntOp.andi
      (IntOp.cmpi .sge (wrapB src (ix2 p (0 : Fin 1))) (broadcastInDim S1700000x1 ![] bcast_S_S1700000x1 (constantI S_ 32 0#32) (ix2 p (0 : Fin 1))))
      (IntOp.cmpi .sle (wrapB src (ix2 p (0 : Fin 1))) (broadcastInDim S1700000x1 ![0, 1] bcast_S1x1_S1700000x1_0_1
        (broadcastInDim S1x1 ![1] bcast_S1_S1x1_1 (constantI S1 32 99999#32)) (ix2 p (0 : Fin 1)))) = 1#1
  rw [wrapB_apply, broadcastInDim_apply _ bcast_S_S1700000x1 (constantI S_ 32 0#32) (ix2 p (0 : Fin 1)) ix0 (fun a => a.elim0),
    broadcastInDim_apply _ bcast_S1x1_S1700000x1_0_1 _ (ix2 p (0 : Fin 1)) (ix2 (0 : Fin 1) (0 : Fin 1)) (fun a => match a with
      | ⟨0, _⟩ => by show (0 : ℕ) = if (1 : Nat) = 1 then 0 else p.val; rw [if_pos rfl]
      | ⟨1, _⟩ => by show (0 : ℕ) = if (1 : Nat) = 1 then 0 else 0; rw [if_pos rfl]),
    broadcastInDim_apply _ bcast_S1_S1x1_1 (constantI S1 32 99999#32) (ix2 (0 : Fin 1) (0 : Fin 1)) (ix1 (0 : Fin 1)) (fun a => match a with
      | ⟨0, _⟩ => by show (0 : ℕ) = if (1 : Nat) = 1 then 0 else 0; rw [if_pos rfl])]
  rw [IntOp.andi_eq_one, IntOp.cmpi_sge, IntOp.cmpi_sle]
  exact ⟨h0, h1⟩

/-- The contents after two stretches in a row: the second from what the first leaves. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, StableHlo.after_cons, StableHlo.after_cons, ih]

end Cert.KernelIdeal.Hand

end
-- ==== Proof.KHost0.lean ====
/-
  The host operations in front of the first dense layer: `jnp.take` of the feature rows by the source ids, the product
  with the edge weights, the accumulating scatter by the target ids, and the bias as a row.

  As terms of the buffers the two stretches find (`takeT0`, `aggT0`), and read at one entry: under the mask's range
  facts the take at `(e, k)` is the features' entry `k` of the row edge `e`'s wrapped id names (no fill there), and the
  aggregate at `(i, k)` is zero plus the sum, over the edges whose target is `i`, of the taken entry times the edge's
  weight.
-/
import proofs.«431274_j7035156431050_4_alg».proof.Proof.KHostCommon

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open scoped BigOperators

/-! ## The two stretches as terms -/

/-- `jnp.take(h, src, axis=0)`: the gathered rows where the wrapped id names a node, a NaN elsewhere. -/
def takeT0 (h : FVec Ideal S100000x4 .f32) (src : IVec S1700000 32) : FVec Ideal S1700000x4 .f32 :=
  select (broadcastInDim S1700000x4 ![0] bcast_S1700000_S1700000x4_0 (inRange src))
    (Host.gather gather_S100000x4_S1700000x1_S1700000x4_1_0_n_n_0_1_14 h (wrapB src))
    (broadcastInDim S1700000x4 ![] bcast_S_S1700000x4 (constant (F := Ideal) S_ .f32 0x7FC00000#32))

/-- `segment_sum(take * norm[:, None], dst)`: the accumulating scatter, from zero, of the weighted rows. -/
def aggT0 (take : FVec Ideal S1700000x4 .f32) (dst : IVec S1700000 32) (norm : FVec Ideal S1700000 .f32) : FVec Ideal S100000x4 .f32 :=
  Host.scatterAdd scatter_S100000x4_S1700000x1_S1700000x4_1_0_0_1
    (broadcastInDim S100000x4 ![] bcast_S_S100000x4 (constant (F := Ideal) S_ .f32 0x00000000#32))
    (broadcastInDim S1700000x1 ![0] bcast_S1700000_S1700000x1_0 dst)
    (mulf take (broadcastInDim S1700000x4 ![0, 1] bcast_S1700000x1_S1700000x4_0_1
      (broadcastInDim S1700000x1 ![0] bcast_S1700000_S1700000x1_0 norm)))

/-- The take's first operations: the wrapped source ids as a column. -/
abbrev take0_l1 : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1700000, .i32⟩) (broadcastInDim S1700000 ![] bcast_S_S1700000),
    StableHlo.TRef.binary (.of main_v3 : StableHlo.TRef sig ⟨S1700000, .i32⟩) (.of main_call1_v0 : StableHlo.TRef sig ⟨S1700000, .i32⟩) (.of main_call1_v1 : StableHlo.TRef sig ⟨S1700000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1700000, .i32⟩) (broadcastInDim S1700000 ![] bcast_S_S1700000),
    StableHlo.TRef.binary (.of main_v3 : StableHlo.TRef sig ⟨S1700000, .i32⟩) (.of main_call1_v2 : StableHlo.TRef sig ⟨S1700000, .i32⟩) (.of main_call1_v3 : StableHlo.TRef sig ⟨S1700000, .i32⟩) addi,
    StableHlo.TRef.ternary (.of main_call1_v1 : StableHlo.TRef sig ⟨S1700000, .i1⟩) (.of main_call1_v3 : StableHlo.TRef sig ⟨S1700000, .i32⟩) (.of main_v3 : StableHlo.TRef sig ⟨S1700000, .i32⟩) (.of main_call1_v4 : StableHlo.TRef sig ⟨S1700000, .i32⟩) select,
    StableHlo.TRef.unary main_call1_call0.v0 (.of main_call1_v5 : StableHlo.TRef sig ⟨S1700000x1, .i32⟩) (broadcastInDim S1700000x1 ![0] bcast_S1700000_S1700000x1_0) ]

/-- Its next operations: which wrapped ids name a node. -/
abbrev take0_l2 : List (HloOp τ sig (Elt Ideal)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1700000x1, .i32⟩) (broadcastInDim S1700000x1 ![] bcast_S_S1700000x1),
    StableHlo.TRef.binary (.of main_call1_v5 : StableHlo.TRef sig ⟨S1700000x1, .i32⟩) (.of main_call1_v6 : StableHlo.TRef sig ⟨S1700000x1, .i32⟩) (.of main_call1_v7 : StableHlo.TRef sig ⟨S1700000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1700000x1, .i32⟩) (broadcastInDim S1700000x1 ![0, 1] bcast_S1x1_S1700000x1_0_1),
    StableHlo.TRef.binary (.of main_call1_v5 : StableHlo.TRef sig ⟨S1700000x1, .i32⟩) (.of main_call1_v9 : StableHlo.TRef sig ⟨S1700000x1, .i32⟩) (.of main_call1_v10 : StableHlo.TRef sig ⟨S1700000x1, .i1⟩) (cmpi .sle),
    StableHlo.TRef.binary (.of main_call1_v7 : StableHlo.TRef sig ⟨S1700000x1, .i1⟩) (.of main_call1_v10 : StableHlo.TRef sig ⟨S1700000x1, .i1⟩) (.of main_call1_v11 : StableHlo.TRef sig ⟨S1700000x1, .i1⟩) andi,
    StableHlo.TRef.nullary (.of main_call1_c_3 : StableHlo.TRef sig ⟨S_, .i1⟩) (constantI S_ 1 1#1),
    StableHlo.TRef.binary (.of main_call1_v11 : StableHlo.TRef sig ⟨S1700000x1, .i1⟩) (.of main_call1_c_3 : StableHlo.TRef sig ⟨S_, .i1⟩) (.of main_call1_v12 : StableHlo.TRef sig ⟨S1700000, .i1⟩) (fun x v => Host.reduce IntOp.andi x v reducesTo_S1700000x1_S1700000_d1 h_S_) ]

/-- Its last operations: the gather, the fill value and the selection. -/
abbrev take0_l3 : List (HloOp τ sig (Elt Ideal)) :=
  [ StableHlo.TRef.binary (.of main_arg0 : StableHlo.TRef sig ⟨S100000x4, .f32⟩) (.of main_call1_v5 : StableHlo.TRef sig ⟨S1700000x1, .i32⟩) (.of main_call1_v13 : StableHlo.TRef sig ⟨S1700000x4, .f32⟩) (fun x i => Host.gather gather_S100000x4_S1700000x1_S1700000x4_1_0_n_n_0_1_14 x i),
    StableHlo.TRef.unary (.of main_call1_v12 : StableHlo.TRef sig ⟨S1700000, .i1⟩) (.of main_call1_v14 : StableHlo.TRef sig ⟨S1700000x4, .i1⟩) (broadcastInDim S1700000x4 ![0] bcast_S1700000_S1700000x4_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S1700000x4, .f32⟩) (broadcastInDim S1700000x4 ![] bcast_S_S1700000x4),
    StableHlo.TRef.ternary (.of main_call1_v14 : StableHlo.TRef sig ⟨S1700000x4, .i1⟩) (.of main_call1_v13 : StableHlo.TRef sig ⟨S1700000x4, .f32⟩) (.of main_call1_v15 : StableHlo.TRef sig ⟨S1700000x4, .f32⟩) (.of main_v31 : StableHlo.TRef sig ⟨S1700000x4, .f32⟩) select ]

/-- The first operations leave the wrapped ids' column. -/
theorem take0_col (V : Valuation τ sig (Elt Ideal)) :
    StableHlo.after take0_l1 V (Proc.devRef .tc main_call1_v5) = wrapB (V (Proc.devRef .tc main_v3)) := by
  after_results
  delta wrapB
  rfl
theorem take0_l1_feat (V : Valuation τ sig (Elt Ideal)) :
    StableHlo.after take0_l1 V (Proc.devRef .tc main_arg0) = V (Proc.devRef .tc main_arg0) := by after_results

attribute [local irreducible] Host.reduce in
/-- The next operations leave the mask of the column they find. -/
theorem take0_mask (V : Valuation τ sig (Elt Ideal)) :
    StableHlo.after take0_l2 V (Proc.devRef .tc main_call1_v12)
      = Host.reduce IntOp.andi
          (andi (cmpi .sge (V (Proc.devRef .tc main_call1_v5)) (broadcastInDim S1700000x1 ![] bcast_S_S1700000x1 (constantI S_ 32 0#32)))
            (cmpi .sle (V (Proc.devRef .tc main_call1_v5)) (broadcastInDim S1700000x1 ![0, 1] bcast_S1x1_S1700000x1_0_1
              (broadcastInDim S1x1 ![1] bcast_S1_S1x1_1 (constantI S1 32 99999#32)))))
          (constantI S_ 1 1#1) reducesTo_S1700000x1_S1700000_d1 h_S_ := by
  after_results
  rfl
theorem take0_l2_col (V : Valuation τ sig (Elt Ideal)) :
    StableHlo.after take0_l2 V (Proc.devRef .tc main_call1_v5) = V (Proc.devRef .tc main_call1_v5) := by after_results
theorem take0_l2_feat (V : Valuation τ sig (Elt Ideal)) :
    StableHlo.after take0_l2 V (Proc.devRef .tc main_arg0) = V (Proc.devRef .tc main_arg0) := by after_results

attribute [local irreducible] Host.gather in
/-- The last operations select, by the mask they find, between the gathered rows and the fill. -/
theorem take0_sel (V : Valuation τ sig (Elt Ideal)) :
    StableHlo.after take0_l3 V (Proc.devRef .tc main_v31)
      = select (broadcastInDim S1700000x4 ![0] bcast_S1700000_S1700000x4_0 (V (Proc.devRef .tc main_call1_v12)))
          (Host.gather gather_S100000x4_S1700000x1_S1700000x4_1_0_n_n_0_1_14 (V (Proc.devRef .tc main_arg0)) (V (Proc.devRef .tc main_call1_v5)))
          (broadcastInDim S1700000x4 ![] bcast_S_S1700000x4 (constant (F := Ideal) S_ .f32 0x7FC00000#32)) := by
  after_results
  rfl

/-- The take stretch leaves `takeT0` of the features and the source ids it finds. -/
theorem take0_term (V : Valuation τ sig (Elt Ideal)) :
    StableHlo.after (hostOps0_3 (F := Ideal)) V (Proc.devRef .tc main_v31)
      = takeT0 (V (Proc.devRef .tc main_arg0)) (V (Proc.devRef .tc main_v3)) := by
  have hl : (hostOps0_3 (F := Ideal)) = take0_l1 ++ (take0_l2 ++ take0_l3) := rfl
  rw [hl, after_append, after_append, take0_sel, take0_mask, take0_l2_col, take0_col, take0_l2_feat, take0_l1_feat]
  rfl

/-- The aggregation stretch leaves `aggT0` of the taken rows, the target ids and the edge weights it finds. -/
theorem agg0_term (V : Valuation τ sig (Elt Ideal)) :
    StableHlo.after (hostOps0_4 (F := Ideal)) V (Proc.devRef .tc main_v37)
      = aggT0 (V (Proc.devRef .tc main_v31)) (V (Proc.devRef .tc main_v6)) (V (Proc.devRef .tc main_v30)) := by
  delta aggT0
  after_results

/-- … and the bias as a `1 × 32` row. -/
theorem bias0_term (V : Valuation τ sig (Elt Ideal)) :
    StableHlo.after (hostOps0_4 (F := Ideal)) V (Proc.devRef .tc main_v38)
      = shapeCast S1x32 (V (Proc.devRef .tc main_arg3)) shapeCasts_S32_S1x32 := by
  after_results
  rfl

/-! ## Read at one entry -/

/-- The bias row's entry `(0, j)` is the bias's entry `j`. -/
theorem biasRow0_apply (b : FVec Ideal S32 .f32) (j : Fin 32) :
    cur (shapeCast S1x32 b shapeCasts_S32_S1x32) (0 : Fin 1) j = cur1 b j :=
  shapeCast_apply b shapeCasts_S32_S1x32 (ix2 (0 : Fin 1) j) (ix1 j)
    (by rewrite [Shape.rowMajor_val_one, Shape.rowMajor_val_two]; show j.val = 0 * 32 + j.val; omega)

/-- THE TAKE AT `(e, k)`, where edge `e`'s wrapped id names a node: the features' row of that id. -/
theorem takeT0_apply (h : FVec Ideal S100000x4 .f32) (src : IVec S1700000 32) (e : Fin 1700000) (k : Fin 4)
    (h0 : 0 ≤ (wrapW (src (ix1 e))).toInt) (h1 : (wrapW (src (ix1 e))).toInt ≤ 99999) :
    takeT0 h src (ix2 e k) = h (ix2 ⟨min (wrapW (src (ix1 e))).toInt.toNat (100000 - 1), by omega⟩ k) := by
  have wfg : GatherDims.WF ⟨2, ![100000, 4]⟩ ⟨2, ![1700000, 1]⟩ ⟨2, ![1700000, 4]⟩ [1] [0] [] [0] [] 1 ![1, 4] :=
    gather_S100000x4_S1700000x1_S1700000x4_1_0_n_n_0_1_14.wf
  have hdg : gather_S100000x4_S1700000x1_S1700000x4_1_0_n_n_0_1_14 = rowGatherDims 100000 1700000 4 wfg := rfl
  have hm : broadcastInDim S1700000x4 ![0] bcast_S1700000_S1700000x4_0 (inRange src) (ix2 e k) = 1#1 := by
    rw [broadcastInDim_apply _ bcast_S1700000_S1700000x4_0 (inRange src) (ix2 e k) (ix1 e) (fun a => match a with
      | ⟨0, _⟩ => by show e.val = if (1700000 : Nat) = 1 then 0 else e.val; rw [if_neg (by decide)])]
    exact inRange_apply src e h0 h1
  unfold takeT0
  show Scalar.select (broadcastInDim S1700000x4 ![0] bcast_S1700000_S1700000x4_0 (inRange src) (ix2 e k))
      (Host.gather gather_S100000x4_S1700000x1_S1700000x4_1_0_n_n_0_1_14 h (wrapB src) (ix2 e k))
      (broadcastInDim S1700000x4 ![] bcast_S_S1700000x4 (constant (F := Ideal) S_ .f32 0x7FC00000#32) (ix2 e k)) = _
  rw [hm, select_one, hdg, gather_rows_apply (N := 100000) (by norm_num)]
  refine congrArg (fun r : Fin 100000 => h (ix2 r k)) (Fin.ext ?_)
  show min (wrapB src (ix2 e (0 : Fin 1))).toInt.toNat (100000 - 1) = min (wrapW (src (ix1 e))).toInt.toNat (100000 - 1)
  rw [wrapB_apply]

/-- THE AGGREGATE AT `(i, k)`: zero plus the weighted taken entries of the edges whose target is `i`. -/
theorem aggT0_apply (take : FVec Ideal S1700000x4 .f32) (dst : IVec S1700000 32) (norm : FVec Ideal S1700000 .f32)
    (i : Fin 100000) (k : Fin 4) :
    aggT0 take dst norm (ix2 i k)
      = 0 + ∑ e ∈ into (fun e : Fin 1700000 => (dst (ix1 e)).toInt) i, cur take e k * cur1 norm e := by
  have wfs : ScatterDims.WF ⟨2, ![100000, 4]⟩ ⟨2, ![1700000, 1]⟩ ⟨2, ![1700000, 4]⟩ [1] [0] [0] 1 :=
    scatter_S100000x4_S1700000x1_S1700000x4_1_0_0_1.wf
  have hds : scatter_S100000x4_S1700000x1_S1700000x4_1_0_0_1 = rowScatterDims 100000 1700000 4 wfs := rfl
  -- the operand is zero
  have hz : (broadcastInDim S100000x4 ![] bcast_S_S100000x4 (constant (F := Ideal) S_ .f32 0x00000000#32) (ix2 i k) : EReal) = (0 : EReal) := by
    rw [broadcastInDim_apply _ bcast_S_S100000x4 _ (ix2 i k) ix0 (fun a => a.elim0)]
    exact Ideal.ofBits_zero_f32
  -- the target of edge e, as the scatter reads it
  have hd : ∀ e : Fin 1700000, (broadcastInDim S1700000x1 ![0] bcast_S1700000_S1700000x1_0 dst (ix2 e (0 : Fin 1))).toInt = (dst (ix1 e)).toInt := by
    intro e
    rw [broadcastInDim_apply _ bcast_S1700000_S1700000x1_0 dst (ix2 e (0 : Fin 1)) (ix1 e) (fun a => match a with
      | ⟨0, _⟩ => by show e.val = if (1700000 : Nat) = 1 then 0 else e.val; rw [if_neg (by decide)])]
  -- one edge's update at column k
  have hu : ∀ e : Fin 1700000, (mulf take (broadcastInDim S1700000x4 ![0, 1] bcast_S1700000x1_S1700000x4_0_1
      (broadcastInDim S1700000x1 ![0] bcast_S1700000_S1700000x1_0 norm)) (ix2 e k) : EReal) = cur take e k * cur1 norm e := by
    intro e
    show take (ix2 e k) * broadcastInDim S1700000x4 ![0, 1] bcast_S1700000x1_S1700000x4_0_1
      (broadcastInDim S1700000x1 ![0] bcast_S1700000_S1700000x1_0 norm) (ix2 e k) = _
    rw [broadcastInDim_apply _ bcast_S1700000x1_S1700000x4_0_1 _ (ix2 e k) (ix2 e (0 : Fin 1)) (fun a => match a with
        | ⟨0, _⟩ => by show e.val = if (1700000 : Nat) = 1 then 0 else e.val; rw [if_neg (by decide)]
        | ⟨1, _⟩ => by show (0 : ℕ) = if (1 : Nat) = 1 then 0 else k.val; rw [if_pos rfl]),
      broadcastInDim_apply _ bcast_S1700000_S1700000x1_0 norm (ix2 e (0 : Fin 1)) (ix1 e) (fun a => match a with
        | ⟨0, _⟩ => by show e.val = if (1700000 : Nat) = 1 then 0 else e.val; rw [if_neg (by decide)])]
    rfl
  -- the two sums run over the same edges and have the same terms
  have hsum : (∑ e ∈ Finset.univ.filter (fun e : Fin 1700000 =>
        (broadcastInDim S1700000x1 ![0] bcast_S1700000_S1700000x1_0 dst (ix2 e (0 : Fin 1))).toInt = (i.val : ℤ)),
        (mulf take (broadcastInDim S1700000x4 ![0, 1] bcast_S1700000x1_S1700000x4_0_1
          (broadcastInDim S1700000x1 ![0] bcast_S1700000_S1700000x1_0 norm)) (ix2 e k) : EReal))
      = ∑ e ∈ into (fun e : Fin 1700000 => (dst (ix1 e)).toInt) i, cur take e k * cur1 norm e := by
    unfold into
    exact Finset.sum_congr (Finset.filter_congr fun e _ => by rw [hd e]) fun e _ => hu e
  -- the term is the ideal accumulating scatter at the row-scatter dimension numbers
  have h1 : aggT0 take dst norm (ix2 i k)
      = Ideal.hostScatterAdd (rowScatterDims 100000 1700000 4 wfs)
          (broadcastInDim S100000x4 ![] bcast_S_S100000x4 (constant (F := Ideal) S_ .f32 0x00000000#32))
          (broadcastInDim S1700000x1 ![0] bcast_S1700000_S1700000x1_0 dst)
          (mulf take (broadcastInDim S1700000x4 ![0, 1] bcast_S1700000x1_S1700000x4_0_1
            (broadcastInDim S1700000x1 ![0] bcast_S1700000_S1700000x1_0 norm))) (ix2 i k) := by
    rw [aggT0, Host.scatterAdd, Ideal.hostScatterAdd_def, hds]
  rw [h1, scatterAdd_rows_apply, hz, hsum]

end Cert.KernelIdeal.Hand

end
-- ==== Proof.KPayload0.lean ====
/-
  The first dense layer's block computation, read at one entry: for a block `x0` of 5000 aggregated rows, the weights
  `x1` and the bias row `x2`, entry `(p, q)` of what the body stores is
  `max (∑ k, x0 (p, k) * x1 (k, q) + x2 (0, q)) 0` — the product into a zero accumulator is the plain sum over the
  one contracted axis, the bias row is broadcast over the block's rows, and the positive part is the maximum with zero.
-/
import proofs.«431274_j7035156431050_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The product's index maps, axis by axis -/

theorem lhs0_0 (i : S5000x32.Idx) (q : dot_S5000x4_S4x32_S5000x32_1_0_0_1_n_n.contr.Idx) :
    (dot_S5000x4_S4x32_S5000x32_1_0_0_1_n_n.lhsIdx i q 0).val = (i 0).val := by
  unfold DotDims.lhsIdx
  rw [dif_neg (show ¬(0 : Fin S5000x4.rank) ∈ dot_S5000x4_S4x32_S5000x32_1_0_0_1_n_n.lhsBatch by decide), dif_pos (show (0 : Fin S5000x4.rank) ∈ dot_S5000x4_S4x32_S5000x32_1_0_0_1_n_n.lhsNonContracting by decide)]
  rfl
theorem lhs0_1 (i : S5000x32.Idx) (q : dot_S5000x4_S4x32_S5000x32_1_0_0_1_n_n.contr.Idx) :
    (dot_S5000x4_S4x32_S5000x32_1_0_0_1_n_n.lhsIdx i q 1).val = (q ⟨0, by decide⟩).val :=
  dot_S5000x4_S4x32_S5000x32_1_0_0_1_n_n.lhsIdx_val_of_single rfl i q
theorem rhs0_0 (i : S5000x32.Idx) (q : dot_S5000x4_S4x32_S5000x32_1_0_0_1_n_n.contr.Idx) :
    (dot_S5000x4_S4x32_S5000x32_1_0_0_1_n_n.rhsIdx i q 0).val = (q ⟨0, by decide⟩).val :=
  dot_S5000x4_S4x32_S5000x32_1_0_0_1_n_n.rhsIdx_val_of_single rfl i q
theorem rhs0_1 (i : S5000x32.Idx) (q : dot_S5000x4_S4x32_S5000x32_1_0_0_1_n_n.contr.Idx) :
    (dot_S5000x4_S4x32_S5000x32_1_0_0_1_n_n.rhsIdx i q 1).val = (i 1).val := by
  unfold DotDims.rhsIdx
  rw [dif_neg (show ¬(1 : Fin S4x32.rank) ∈ dot_S5000x4_S4x32_S5000x32_1_0_0_1_n_n.rhsBatch by decide), dif_pos (show (1 : Fin S4x32.rank) ∈ dot_S5000x4_S4x32_S5000x32_1_0_0_1_n_n.rhsNonContracting by decide)]
  rfl

/-- The block product into a zero accumulator, at `(p, q)`: the sum over the contracted axis. -/
theorem mm0_apply (l : FVec Ideal S5000x4 .f32) (r : FVec Ideal S4x32 .f32) (p : Fin 5000) (q : Fin 32) :
    matmul (F := Ideal) dot_S5000x4_S4x32_S5000x32_1_0_0_1_n_n (some .fp32) l r (constant (F := Ideal) S5000x32 .f32 0x00000000#32) (ix2 p q)
      = ∑ k : Fin 4, l (ix2 p k) * r (ix2 k q) := by
  show FloatOps.matmul (F := Ideal) dot_S5000x4_S4x32_S5000x32_1_0_0_1_n_n (some .fp32) l r (constant (F := Ideal) S5000x32 .f32 0x00000000#32) (ix2 p q) = _
  rw [Ideal.matmul_constant_zero_apply, ← Equiv.sum_comp (ValueIdx.contrEquiv1 dot_S5000x4_S4x32_S5000x32_1_0_0_1_n_n 4 rfl rfl).symm]
  refine Finset.sum_congr rfl fun k _ => ?_
  have hk := ValueIdx.contrEquiv1_symm_val dot_S5000x4_S4x32_S5000x32_1_0_0_1_n_n 4 rfl rfl k
  have el : dot_S5000x4_S4x32_S5000x32_1_0_0_1_n_n.lhsIdx (ix2 p q) ((ValueIdx.contrEquiv1 dot_S5000x4_S4x32_S5000x32_1_0_0_1_n_n 4 rfl rfl).symm k) = ix2 p k := funext fun a => Fin.ext (by
    match a with
    | ⟨0, _⟩ => exact lhs0_0 _ _
    | ⟨1, _⟩ => exact (lhs0_1 _ _).trans hk)
  have er : dot_S5000x4_S4x32_S5000x32_1_0_0_1_n_n.rhsIdx (ix2 p q) ((ValueIdx.contrEquiv1 dot_S5000x4_S4x32_S5000x32_1_0_0_1_n_n 4 rfl rfl).symm k) = ix2 k q := funext fun a => Fin.ext (by
    match a with
    | ⟨0, _⟩ => exact (rhs0_0 _ _).trans hk
    | ⟨1, _⟩ => exact rhs0_1 _ _)
  rw [el, er]

/-- THE BLOCK'S STORED VALUE AT `(p, q)`. -/
theorem pay0_apply (x0 : Vec Ideal S5000x4 .f32) (x1 : Vec Ideal S4x32 .f32) (x2 : Vec Ideal S1x32 .f32) (p : Fin 5000) (q : Fin 32) :
    k0_pay1 (F := Ideal) x0 x1 x2 (ix2 p q)
      = max ((∑ k : Fin 4, x0 (ix2 p k) * x1 (ix2 k q)) + x2 (ix2 (0 : Fin 1) q)) 0 := by
  unfold k0_pay1
  show max (matmul (F := Ideal) dot_S5000x4_S4x32_S5000x32_1_0_0_1_n_n (some .fp32) (shapeCast S5000x4 x0 _) x1 (constant (F := Ideal) S5000x32 .f32 0x00000000#32) (ix2 p q)
      + broadcastTo S5000x32 (shapeCast S1x32 x2 _) _ (ix2 p q)) (Ideal.ofBits .f32 0x00000000#32) = _
  rw [shapeCast_self, shapeCast_self, mm0_apply, Ideal.ofBits_zero_f32,
    broadcastTo_apply x2 _ (ix2 p q) (ix2 (0 : Fin 1) q) (fun a => match a with
      | ⟨0, _⟩ => by show (0 : ℕ) = if (1 : ℕ) = 1 then 0 else p.val; rw [if_pos rfl]
      | ⟨1, _⟩ => by show q.val = if (32 : ℕ) = 1 then 0 else q.val; rw [if_neg (by decide)])]

end Cert.KernelIdeal.Hand

end
-- ==== Proof.KRegion0.lean ====
/-
  The first dense layer's output array after its pallas_call, as ONE function of the arrays the call finds:
  `G0 a w b (i, j) = max (∑ k, a (i, k) * w (k, j) + b (0, j)) 0`. Point `t` of the grid computes rows
  `[5000 t, 5000 t + 5000)` from the same rows of `a`, all of `w` and the bias row, so what it writes back is
  its block of `G0`; the twenty blocks tile the array.
-/
import proofs.«431274_j7035156431050_4_alg».proof.Proof.Gen.KernelIdeal.Frame
import proofs.«431274_j7035156431050_4_alg».proof.Proof.KPayload0

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

theorem hz0 : (![0, 0] : Fin 2 → Nat) = fun _ => 0 := funext fun a => by fin_cases a <;> rfl

/-- The dense layer as one function of the whole arrays. -/
def G0 (a : S100000x4.Idx → EReal) (w : S4x32.Idx → EReal) (b : S1x32.Idx → EReal) : S100000x32.Idx → EReal :=
  fun i => max ((∑ k : Fin 4, a (ix2 ⟨(i 0).val, idx2_lt0 i⟩ k) * w (ix2 k ⟨(i 1).val, idx2_lt1 i⟩))
    + b (ix2 (0 : Fin 1) ⟨(i 1).val, idx2_lt1 i⟩)) 0

/-- A block's stored entry is the whole-array function's, once the block's entries are the arrays' at the matching
    indices. -/
theorem pay0_block (A : S100000x4.Idx → EReal) (W : S4x32.Idx → EReal) (B : S1x32.Idx → EReal)
    (x0 : Vec Ideal S5000x4 .f32) (x1 : Vec Ideal S4x32 .f32) (x2 : Vec Ideal S1x32 .f32)
    (i : S100000x32.Idx) (p : Fin 5000) (q : Fin 32)
    (h0 : ∀ k : Fin 4, x0 (ix2 p k) = A (ix2 ⟨(i 0).val, idx2_lt0 i⟩ k))
    (h1 : ∀ k : Fin 4, x1 (ix2 k q) = W (ix2 k ⟨(i 1).val, idx2_lt1 i⟩))
    (h2 : x2 (ix2 (0 : Fin 1) q) = B (ix2 (0 : Fin 1) ⟨(i 1).val, idx2_lt1 i⟩)) :
    k0_pay1 (F := Ideal) x0 x1 x2 (ix2 p q) = G0 A W B i := by
  rw [pay0_apply]
  unfold G0
  simp only [h0, h1, h2]

variable (V : (c : Dev nD) → (b : Ref sig .tc) → Buf (Elt Ideal) ((c : Thread nD τ).loc b))

/-- The printed index maps, decided over the grid: the features' and the output's blocks are block row `t`, the
    weights' and the bias's the one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

/-- WHAT POINT `t` WRITES BACK is block `t` of `G0` of the arrays as the call finds them. -/
theorem flushed0_eq (c : Dev nD) (t : Fin cfg0.N) :
    (dat0 (F := Ideal) V c).flushed 3 t
      = ((cfg0.win 3).blk t).view.read (Elt Ideal) (G0 (V c main_v37) (V c main_arg2) (V c main_v38)) := by
  show (cfg0.win 3).cut (grid0.coords t) ((dat0 (F := Ideal) V c).after 3 t) = _
  rw [after0_3]
  unfold out0_3
  rw [View.canon_unit_zero hz0]
  simp only [View.ld_unit_zero (S := S5000x4) hz0, View.ld_unit_zero (S := S4x32) hz0, View.ld_unit_zero (S := S1x32) hz0]
  obtain ⟨e00, e01, e10, e11, e20, e21, e30, e31⟩ := idx_facts0 t
  funext j
  obtain ⟨p, q, rfl⟩ : ∃ (p : Fin 5000) (q : Fin 32), j = ix2 p q := ⟨j 0, j 1, eq_ix2 j⟩
  refine pay0_block (V c main_v37) (V c main_arg2) (V c main_v38) (iblk0 V c 0 t) (iblk0 V c 1 t) (iblk0 V c 2 t)
    (((cfg0.win 3).blk t).view.emb (ix2 p q)) p q (fun k => ?_) (fun k => ?_) ?_
  · show V c main_v37 (((cfg0.win 0).blk t).view.emb (ix2 p k)) = V c main_v37 _
    refine congrArg (V c main_v37) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 4 + 1 * k.val = k.val; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 4 + 1 * k.val = k.val; omega
    | ⟨1, _⟩ => show win0_1.index t (1 : Fin 2) * 32 + 1 * q.val = win0_3.index t (1 : Fin 2) * 32 + 1 * q.val; omega
  · show V c main_v38 (((cfg0.win 2).blk t).view.emb (ix2 (0 : Fin 1) q)) = V c main_v38 _
    refine congrArg (V c main_v38) (funext fun a => Fin.ext ?_)
    match a with
    | ⟨0, _⟩ => show win0_2.index t (0 : Fin 2) * 1 + 1 * 0 = 0; omega
    | ⟨1, _⟩ => show win0_2.index t (1 : Fin 2) * 32 + 1 * q.val = win0_3.index t (1 : Fin 2) * 32 + 1 * q.val; omega

/-- An index of the array is in point `t`'s block iff each coordinate is in the block's range on its axis. -/
theorem mem_blk0 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v39).slice (win0_3.rect t)).set ↔ _
  rw [View.set_slice_whole, Rect.mem_set_unit]
  exact Iff.rfl

/-- The blocks tile the array: row `r` is in the block of point `r / 5000`. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- THE ARRAY after the call: `G0` of the arrays the call finds. -/
theorem region0_value (c : Dev nD) :
    (dat0 (F := Ideal) V c).arrAt 3 cfg0.N = G0 (V c main_v37) (V c main_arg2) (V c main_v38) :=
  (dat0 (F := Ideal) V c).arrAt_eq_of_cover 3 _ (fun t _ => flushed0_eq V c t) cover0

end Cert.KernelIdeal.Hand

end
-- ==== Proof.KCarry.lean ====
/-
  Buffers that nothing writes between two boundaries of the fold: the source ids, the target ids and the edge weights
  are computed once and read by all three layers; the weights and biases are arguments. Each is carried, step by step,
  across the host stretches that do not write it and the pallas_calls none of whose arrays it is.
-/
import proofs.«431274_j7035156431050_4_alg».proof.Proof.Gen.KernelIdeal.Frame
import Idealize.ShloMosaic.PureOps.Ideal
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

/-- A host stretch that does not write a buffer leaves it: every operation's written reference is another one. -/
macro "skip_ops " ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes, StableHlo.quaternary_writes,
     StableHlo.reshape_writes, StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg)

set_option maxHeartbeats 2000000 in
theorem carry_main_v3_1_3 (c : Dev nD) :
    W3 (F := Ideal) m ρ c (Proc.devRef .tc main_v3) = W1 (F := Ideal) m ρ c (Proc.devRef .tc main_v3) :=
  calc W3 (F := Ideal) m ρ c (Proc.devRef .tc main_v3)
    _ = W2 (F := Ideal) m ρ c (Proc.devRef .tc main_v3) := by skip_ops hostOps0_2
    _ = W1 (F := Ideal) m ρ c (Proc.devRef .tc main_v3) := by skip_ops hostOps0_1

set_option maxHeartbeats 2000000 in
theorem carry_main_v3_3_6 (c : Dev nD) :
    W6 (F := Ideal) m ρ c (Proc.devRef .tc main_v3) = W3 (F := Ideal) m ρ c (Proc.devRef .tc main_v3) :=
  calc W6 (F := Ideal) m ρ c (Proc.devRef .tc main_v3)
    _ = W5 (F := Ideal) m ρ c (Proc.devRef .tc main_v3) := W6_of_ne m ρ c main_v3 (by decide)
    _ = W4 (F := Ideal) m ρ c (Proc.devRef .tc main_v3) := by skip_ops hostOps0_4
    _ = W3 (F := Ideal) m ρ c (Proc.devRef .tc main_v3) := by skip_ops hostOps0_3

set_option maxHeartbeats 2000000 in
theorem carry_main_v3_6_9 (c : Dev nD) :
    W9 (F := Ideal) m ρ c (Proc.devRef .tc main_v3) = W6 (F := Ideal) m ρ c (Proc.devRef .tc main_v3) :=
  calc W9 (F := Ideal) m ρ c (Proc.devRef .tc main_v3)
    _ = W8 (F := Ideal) m ρ c (Proc.devRef .tc main_v3) := W9_of_ne m ρ c main_v3 (by decide)
    _ = W7 (F := Ideal) m ρ c (Proc.devRef .tc main_v3) := by skip_ops hostOps1_1
    _ = W6 (F := Ideal) m ρ c (Proc.devRef .tc main_v3) := by skip_ops hostOps1

set_option maxHeartbeats 2000000 in
theorem carry_main_v6_1_3 (c : Dev nD) :
    W3 (F := Ideal) m ρ c (Proc.devRef .tc main_v6) = W1 (F := Ideal) m ρ c (Proc.devRef .tc main_v6) :=
  calc W3 (F := Ideal) m ρ c (Proc.devRef .tc main_v6)
    _ = W2 (F := Ideal) m ρ c (Proc.devRef .tc main_v6) := by skip_ops hostOps0_2
    _ = W1 (F := Ideal) m ρ c (Proc.devRef .tc main_v6) := by skip_ops hostOps0_1

set_option maxHeartbeats 2000000 in
theorem carry_main_v6_3_4 (c : Dev nD) :
    W4 (F := Ideal) m ρ c (Proc.devRef .tc main_v6) = W3 (F := Ideal) m ρ c (Proc.devRef .tc main_v6) :=
  calc W4 (F := Ideal) m ρ c (Proc.devRef .tc main_v6)
    _ = W3 (F := Ideal) m ρ c (Proc.devRef .tc main_v6) := by skip_ops hostOps0_3

set_option maxHeartbeats 2000000 in
theorem carry_main_v6_4_7 (c : Dev nD) :
    W7 (F := Ideal) m ρ c (Proc.devRef .tc main_v6) = W4 (F := Ideal) m ρ c (Proc.devRef .tc main_v6) :=
  calc W7 (F := Ideal) m ρ c (Proc.devRef .tc main_v6)
    _ = W6 (F := Ideal) m ρ c (Proc.devRef .tc main_v6) := by skip_ops hostOps1
    _ = W5 (F := Ideal) m ρ c (Proc.devRef .tc main_v6) := W6_of_ne m ρ c main_v6 (by decide)
    _ = W4 (F := Ideal) m ρ c (Proc.devRef .tc main_v6) := by skip_ops hostOps0_4

set_option maxHeartbeats 2000000 in
theorem carry_main_v6_7_10 (c : Dev nD) :
    W10 (F := Ideal) m ρ c (Proc.devRef .tc main_v6) = W7 (F := Ideal) m ρ c (Proc.devRef .tc main_v6) :=
  calc W10 (F := Ideal) m ρ c (Proc.devRef .tc main_v6)
    _ = W9 (F := Ideal) m ρ c (Proc.devRef .tc main_v6) := by skip_ops hostOps2
    _ = W8 (F := Ideal) m ρ c (Proc.devRef .tc main_v6) := W9_of_ne m ρ c main_v6 (by decide)
    _ = W7 (F := Ideal) m ρ c (Proc.devRef .tc main_v6) := by skip_ops hostOps1_1

set_option maxHeartbeats 2000000 in
theorem carry_main_v30_3_4 (c : Dev nD) :
    W4 (F := Ideal) m ρ c (Proc.devRef .tc main_v30) = W3 (F := Ideal) m ρ c (Proc.devRef .tc main_v30) :=
  calc W4 (F := Ideal) m ρ c (Proc.devRef .tc main_v30)
    _ = W3 (F := Ideal) m ρ c (Proc.devRef .tc main_v30) := by skip_ops hostOps0_3

set_option maxHeartbeats 2000000 in
theorem carry_main_v30_4_7 (c : Dev nD) :
    W7 (F := Ideal) m ρ c (Proc.devRef .tc main_v30) = W4 (F := Ideal) m ρ c (Proc.devRef .tc main_v30) :=
  calc W7 (F := Ideal) m ρ c (Proc.devRef .tc main_v30)
    _ = W6 (F := Ideal) m ρ c (Proc.devRef .tc main_v30) := by skip_ops hostOps1
    _ = W5 (F := Ideal) m ρ c (Proc.devRef .tc main_v30) := W6_of_ne m ρ c main_v30 (by decide)
    _ = W4 (F := Ideal) m ρ c (Proc.devRef .tc main_v30) := by skip_ops hostOps0_4

set_option maxHeartbeats 2000000 in
theorem carry_main_v30_7_10 (c : Dev nD) :
    W10 (F := Ideal) m ρ c (Proc.devRef .tc main_v30) = W7 (F := Ideal) m ρ c (Proc.devRef .tc main_v30) :=
  calc W10 (F := Ideal) m ρ c (Proc.devRef .tc main_v30)
    _ = W9 (F := Ideal) m ρ c (Proc.devRef .tc main_v30) := by skip_ops hostOps2
    _ = W8 (F := Ideal) m ρ c (Proc.devRef .tc main_v30) := W9_of_ne m ρ c main_v30 (by decide)
    _ = W7 (F := Ideal) m ρ c (Proc.devRef .tc main_v30) := by skip_ops hostOps1_1

set_option maxHeartbeats 2000000 in
theorem carry_main_v3_1_2 (c : Dev nD) :
    W2 (F := Ideal) m ρ c (Proc.devRef .tc main_v3) = W1 (F := Ideal) m ρ c (Proc.devRef .tc main_v3) :=
  calc W2 (F := Ideal) m ρ c (Proc.devRef .tc main_v3)
    _ = W1 (F := Ideal) m ρ c (Proc.devRef .tc main_v3) := by skip_ops hostOps0_1

set_option maxHeartbeats 2000000 in
theorem carry_main_v6_1_2 (c : Dev nD) :
    W2 (F := Ideal) m ρ c (Proc.devRef .tc main_v6) = W1 (F := Ideal) m ρ c (Proc.devRef .tc main_v6) :=
  calc W2 (F := Ideal) m ρ c (Proc.devRef .tc main_v6)
    _ = W1 (F := Ideal) m ρ c (Proc.devRef .tc main_v6) := by skip_ops hostOps0_1

set_option maxHeartbeats 2000000 in
theorem carry_main_arg0_0_3 (c : Dev nD) :
    W3 (F := Ideal) m ρ c (Proc.devRef .tc main_arg0) = W0 (F := Ideal) m ρ c (Proc.devRef .tc main_arg0) :=
  calc W3 (F := Ideal) m ρ c (Proc.devRef .tc main_arg0)
    _ = W2 (F := Ideal) m ρ c (Proc.devRef .tc main_arg0) := by skip_ops hostOps0_2
    _ = W1 (F := Ideal) m ρ c (Proc.devRef .tc main_arg0) := by skip_ops hostOps0_1
    _ = W0 (F := Ideal) m ρ c (Proc.devRef .tc main_arg0) := by skip_ops hostOps0

set_option maxHeartbeats 2000000 in
theorem carry_main_arg3_0_4 (c : Dev nD) :
    W4 (F := Ideal) m ρ c (Proc.devRef .tc main_arg3) = W0 (F := Ideal) m ρ c (Proc.devRef .tc main_arg3) :=
  calc W4 (F := Ideal) m ρ c (Proc.devRef .tc main_arg3)
    _ = W3 (F := Ideal) m ρ c (Proc.devRef .tc main_arg3) := by skip_ops hostOps0_3
    _ = W2 (F := Ideal) m ρ c (Proc.devRef .tc main_arg3) := by skip_ops hostOps0_2
    _ = W1 (F := Ideal) m ρ c (Proc.devRef .tc main_arg3) := by skip_ops hostOps0_1
    _ = W0 (F := Ideal) m ρ c (Proc.devRef .tc main_arg3) := by skip_ops hostOps0

set_option maxHeartbeats 2000000 in
theorem carry_main_arg2_0_5 (c : Dev nD) :
    W5 (F := Ideal) m ρ c (Proc.devRef .tc main_arg2) = W0 (F := Ideal) m ρ c (Proc.devRef .tc main_arg2) :=
  calc W5 (F := Ideal) m ρ c (Proc.devRef .tc main_arg2)
    _ = W4 (F := Ideal) m ρ c (Proc.devRef .tc main_arg2) := by skip_ops hostOps0_4
    _ = W3 (F := Ideal) m ρ c (Proc.devRef .tc main_arg2) := by skip_ops hostOps0_3
    _ = W2 (F := Ideal) m ρ c (Proc.devRef .tc main_arg2) := by skip_ops hostOps0_2
    _ = W1 (F := Ideal) m ρ c (Proc.devRef .tc main_arg2) := by skip_ops hostOps0_1
    _ = W0 (F := Ideal) m ρ c (Proc.devRef .tc main_arg2) := by skip_ops hostOps0

set_option maxHeartbeats 2000000 in
theorem carry_main_arg5_0_7 (c : Dev nD) :
    W7 (F := Ideal) m ρ c (Proc.devRef .tc main_arg5) = W0 (F := Ideal) m ρ c (Proc.devRef .tc main_arg5) :=
  calc W7 (F := Ideal) m ρ c (Proc.devRef .tc main_arg5)
    _ = W6 (F := Ideal) m ρ c (Proc.devRef .tc main_arg5) := by skip_ops hostOps1
    _ = W5 (F := Ideal) m ρ c (Proc.devRef .tc main_arg5) := W6_of_ne m ρ c main_arg5 (by decide)
    _ = W4 (F := Ideal) m ρ c (Proc.devRef .tc main_arg5) := by skip_ops hostOps0_4
    _ = W3 (F := Ideal) m ρ c (Proc.devRef .tc main_arg5) := by skip_ops hostOps0_3
    _ = W2 (F := Ideal) m ρ c (Proc.devRef .tc main_arg5) := by skip_ops hostOps0_2
    _ = W1 (F := Ideal) m ρ c (Proc.devRef .tc main_arg5) := by skip_ops hostOps0_1
    _ = W0 (F := Ideal) m ρ c (Proc.devRef .tc main_arg5) := by skip_ops hostOps0

set_option maxHeartbeats 2000000 in
theorem carry_main_arg4_0_8 (c : Dev nD) :
    W8 (F := Ideal) m ρ c (Proc.devRef .tc main_arg4) = W0 (F := Ideal) m ρ c (Proc.devRef .tc main_arg4) :=
  calc W8 (F := Ideal) m ρ c (Proc.devRef .tc main_arg4)
    _ = W7 (F := Ideal) m ρ c (Proc.devRef .tc main_arg4) := by skip_ops hostOps1_1
    _ = W6 (F := Ideal) m ρ c (Proc.devRef .tc main_arg4) := by skip_ops hostOps1
    _ = W5 (F := Ideal) m ρ c (Proc.devRef .tc main_arg4) := W6_of_ne m ρ c main_arg4 (by decide)
    _ = W4 (F := Ideal) m ρ c (Proc.devRef .tc main_arg4) := by skip_ops hostOps0_4
    _ = W3 (F := Ideal) m ρ c (Proc.devRef .tc main_arg4) := by skip_ops hostOps0_3
    _ = W2 (F := Ideal) m ρ c (Proc.devRef .tc main_arg4) := by skip_ops hostOps0_2
    _ = W1 (F := Ideal) m ρ c (Proc.devRef .tc main_arg4) := by skip_ops hostOps0_1
    _ = W0 (F := Ideal) m ρ c (Proc.devRef .tc main_arg4) := by skip_ops hostOps0

set_option maxHeartbeats 2000000 in
theorem carry_main_arg7_0_10 (c : Dev nD) :
    W10 (F := Ideal) m ρ c (Proc.devRef .tc main_arg7) = W0 (F := Ideal) m ρ c (Proc.devRef .tc main_arg7) :=
  calc W10 (F := Ideal) m ρ c (Proc.devRef .tc main_arg7)
    _ = W9 (F := Ideal) m ρ c (Proc.devRef .tc main_arg7) := by skip_ops hostOps2
    _ = W8 (F := Ideal) m ρ c (Proc.devRef .tc main_arg7) := W9_of_ne m ρ c main_arg7 (by decide)
    _ = W7 (F := Ideal) m ρ c (Proc.devRef .tc main_arg7) := by skip_ops hostOps1_1
    _ = W6 (F := Ideal) m ρ c (Proc.devRef .tc main_arg7) := by skip_ops hostOps1
    _ = W5 (F := Ideal) m ρ c (Proc.devRef .tc main_arg7) := W6_of_ne m ρ c main_arg7 (by decide)
    _ = W4 (F := Ideal) m ρ c (Proc.devRef .tc main_arg7) := by skip_ops hostOps0_4
    _ = W3 (F := Ideal) m ρ c (Proc.devRef .tc main_arg7) := by skip_ops hostOps0_3
    _ = W2 (F := Ideal) m ρ c (Proc.devRef .tc main_arg7) := by skip_ops hostOps0_2
    _ = W1 (F := Ideal) m ρ c (Proc.devRef .tc main_arg7) := by skip_ops hostOps0_1
    _ = W0 (F := Ideal) m ρ c (Proc.devRef .tc main_arg7) := by skip_ops hostOps0

set_option maxHeartbeats 2000000 in
theorem carry_main_arg6_0_11 (c : Dev nD) :
    W11 (F := Ideal) m ρ c (Proc.devRef .tc main_arg6) = W0 (F := Ideal) m ρ c (Proc.devRef .tc main_arg6) :=
  calc W11 (F := Ideal) m ρ c (Proc.devRef .tc main_arg6)
    _ = W10 (F := Ideal) m ρ c (Proc.devRef .tc main_arg6) := by skip_ops hostOps2_1
    _ = W9 (F := Ideal) m ρ c (Proc.devRef .tc main_arg6) := by skip_ops hostOps2
    _ = W8 (F := Ideal) m ρ c (Proc.devRef .tc main_arg6) := W9_of_ne m ρ c main_arg6 (by decide)
    _ = W7 (F := Ideal) m ρ c (Proc.devRef .tc main_arg6) := by skip_ops hostOps1_1
    _ = W6 (F := Ideal) m ρ c (Proc.devRef .tc main_arg6) := by skip_ops hostOps1
    _ = W5 (F := Ideal) m ρ c (Proc.devRef .tc main_arg6) := W6_of_ne m ρ c main_arg6 (by decide)
    _ = W4 (F := Ideal) m ρ c (Proc.devRef .tc main_arg6) := by skip_ops hostOps0_4
    _ = W3 (F := Ideal) m ρ c (Proc.devRef .tc main_arg6) := by skip_ops hostOps0_3
    _ = W2 (F := Ideal) m ρ c (Proc.devRef .tc main_arg6) := by skip_ops hostOps0_2
    _ = W1 (F := Ideal) m ρ c (Proc.devRef .tc main_arg6) := by skip_ops hostOps0_1
    _ = W0 (F := Ideal) m ρ c (Proc.devRef .tc main_arg6) := by skip_ops hostOps0

end Cert.KernelIdeal.Hand

end
-- ==== Proof.KPrefix.lean ====
/-
  The kernel computes the graph data exactly as the reference does: after its first three host stretches the buffers of
  the source ids, the target ids and the edge weights hold the reference's stages `val_main_v3`, `val_main_v6`,
  `val_main_v30` of the same edge array — the two programs apply the same operations in the same order there.
  From these, by the carry lemmas, the contents every later stretch finds.
-/
import proofs.«431274_j7035156431050_4_alg».proof.Proof.KHostCommon
import proofs.«431274_j7035156431050_4_alg».proof.Proof.KCarry

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open Cert.ReferenceIdeal.Read (val_main_v3 val_main_v6 val_main_v12 val_main_v14 val_main_v15 val_main_v30 val_main_cst_3)

/-! ## The three stretches, from any contents -/

attribute [local irreducible] Host.scatterAdd Host.gather Host.reduce Host.powf in
set_option maxHeartbeats 2000000 in
theorem pre_v3 (V : Valuation τ sig (Elt Ideal)) :
    StableHlo.after (hostOps0 (F := Ideal)) V (Proc.devRef .tc main_v3) = val_main_v3 (F := Ideal) (V (Proc.devRef .tc main_arg1)) := by
  after_results
  rfl

attribute [local irreducible] Host.scatterAdd Host.gather Host.reduce Host.powf in
set_option maxHeartbeats 2000000 in
theorem pre_v6 (V : Valuation τ sig (Elt Ideal)) :
    StableHlo.after (hostOps0 (F := Ideal)) V (Proc.devRef .tc main_v6) = val_main_v6 (F := Ideal) (V (Proc.devRef .tc main_arg1)) := by
  after_results
  rfl

attribute [local irreducible] Host.scatterAdd Host.gather Host.reduce Host.powf in
set_option maxHeartbeats 2000000 in
theorem pre_v12 (V : Valuation τ sig (Elt Ideal)) :
    StableHlo.after (hostOps0 (F := Ideal)) V (Proc.devRef .tc main_v12) = val_main_v12 (F := Ideal) (V (Proc.devRef .tc main_arg1)) := by
  after_results
  rfl

attribute [local irreducible] Host.scatterAdd Host.gather Host.reduce Host.powf in
set_option maxHeartbeats 2000000 in
theorem pre_v14 (V : Valuation τ sig (Elt Ideal)) :
    StableHlo.after (hostOps0 (F := Ideal)) V (Proc.devRef .tc main_v14) = val_main_v14 (F := Ideal) (V (Proc.devRef .tc main_arg1)) := by
  after_results
  rfl

set_option maxHeartbeats 2000000 in
theorem pre_cst3 (V : Valuation τ sig (Elt Ideal)) :
    StableHlo.after (hostOps0 (F := Ideal)) V (Proc.devRef .tc main_cst_3) = val_main_cst_3 (F := Ideal) := by
  after_results
  rfl

/-- The outlined `where`: the selection between its two operands by its mask, the second a broadcast scalar. -/
theorem where_term (V : Valuation τ sig (Elt Ideal)) :
    StableHlo.after (hostOps0_1 (F := Ideal)) V (Proc.devRef .tc main_v15)
      = select (V (Proc.devRef .tc main_v12)) (V (Proc.devRef .tc main_v14))
          (broadcastInDim S100000 ![] bcast_S_S100000 (id (V (Proc.devRef .tc main_cst_3)))) := by
  after_results
  rfl

/-- The edge weights: the product of the per-node factor gathered at the two ends of each edge. -/
def normT (dinv : FVec Ideal S100000 .f32) (src dst : IVec S1700000 32) : FVec Ideal S1700000 .f32 :=
  mulf (Host.gather gather_S100000_S1700000x1_S1700000_n_0_n_n_0_1_1 dinv (wrapB src))
    (Host.gather gather_S100000_S1700000x1_S1700000_n_0_n_n_0_1_1 dinv (wrapB dst))

attribute [local irreducible] Host.gather in
set_option maxHeartbeats 2000000 in
theorem norm_term (V : Valuation τ sig (Elt Ideal)) :
    StableHlo.after (hostOps0_2 (F := Ideal)) V (Proc.devRef .tc main_v30)
      = normT (V (Proc.devRef .tc main_v15)) (V (Proc.devRef .tc main_v3)) (V (Proc.devRef .tc main_v6)) := by
  after_results
  delta normT wrapB
  rfl

attribute [local irreducible] Host.scatterAdd Host.gather Host.reduce Host.powf in
/-- The reference's stage of the per-node factor is that selection of its own stages. -/
theorem v15_eq (x1 : IVec S2x1600000 32) :
    select (val_main_v12 (F := Ideal) x1) (val_main_v14 (F := Ideal) x1)
        (broadcastInDim S100000 ![] bcast_S_S100000 (id (val_main_cst_3 (F := Ideal))))
      = val_main_v15 (F := Ideal) x1 := rfl

attribute [local irreducible] Host.scatterAdd Host.gather Host.reduce Host.powf in
/-- The reference's stage of the edge weights is that product of its own stages. -/
theorem normT_eq (x1 : IVec S2x1600000 32) :
    normT (val_main_v15 (F := Ideal) x1) (val_main_v3 (F := Ideal) x1) (val_main_v6 (F := Ideal) x1)
      = val_main_v30 (F := Ideal) x1 := rfl

/-! ## At the boundaries of the fold -/

variable (m : (ℓ : Loc nD τ sig) → Buf (Elt Ideal) ℓ) (ρ : Dev nD → PrngReg)

theorem W1_v3 (c : Dev nD) : W1 (F := Ideal) m ρ c (Proc.devRef .tc main_v3)
    = val_main_v3 (F := Ideal) (m ((c : Thread nD τ).loc main_arg1)) := pre_v3 (W0 (F := Ideal) m ρ c)
theorem W1_v6 (c : Dev nD) : W1 (F := Ideal) m ρ c (Proc.devRef .tc main_v6)
    = val_main_v6 (F := Ideal) (m ((c : Thread nD τ).loc main_arg1)) := pre_v6 (W0 (F := Ideal) m ρ c)
theorem W1_v12 (c : Dev nD) : W1 (F := Ideal) m ρ c (Proc.devRef .tc main_v12)
    = val_main_v12 (F := Ideal) (m ((c : Thread nD τ).loc main_arg1)) := pre_v12 (W0 (F := Ideal) m ρ c)
theorem W1_v14 (c : Dev nD) : W1 (F := Ideal) m ρ c (Proc.devRef .tc main_v14)
    = val_main_v14 (F := Ideal) (m ((c : Thread nD τ).loc main_arg1)) := pre_v14 (W0 (F := Ideal) m ρ c)
theorem W1_cst3 (c : Dev nD) : W1 (F := Ideal) m ρ c (Proc.devRef .tc main_cst_3)
    = val_main_cst_3 (F := Ideal) := pre_cst3 (W0 (F := Ideal) m ρ c)

theorem W2_v15 (c : Dev nD) : W2 (F := Ideal) m ρ c (Proc.devRef .tc main_v15)
    = val_main_v15 (F := Ideal) (m ((c : Thread nD τ).loc main_arg1)) := by
  have h := where_term (W1 (F := Ideal) m ρ c)
  rw [W1_v12 m ρ c, W1_v14 m ρ c, W1_cst3 m ρ c, v15_eq] at h
  exact h

theorem W3_v30 (c : Dev nD) : W3 (F := Ideal) m ρ c (Proc.devRef .tc main_v30)
    = val_main_v30 (F := Ideal) (m ((c : Thread nD τ).loc main_arg1)) := by
  have h := norm_term (W2 (F := Ideal) m ρ c)
  rw [W2_v15 m ρ c, carry_main_v3_1_2 m ρ c, W1_v3 m ρ c, carry_main_v6_1_2 m ρ c, W1_v6 m ρ c, normT_eq] at h
  exact h

end Cert.KernelIdeal.Hand

end
-- ==== Proof.KAt.lean ====
/-
  The graph data where each layer reads it: the source ids at the boundary in front of each take, the target ids and the
  edge weights at the boundary in front of each aggregation — the reference's stages of the edge array, carried there.
-/
import proofs.«431274_j7035156431050_4_alg».proof.Proof.KPrefix

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open Cert.ReferenceIdeal.Read (val_main_v3 val_main_v6 val_main_v30)

variable (m : (ℓ : Loc nD τ sig) → Buf (Elt Ideal) ℓ) (ρ : Dev nD → PrngReg) (c : Dev nD)

theorem src_at_3 : W3 (F := Ideal) m ρ c (Proc.devRef .tc main_v3) = val_main_v3 (F := Ideal) (m ((c : Thread nD τ).loc main_arg1)) :=
  (carry_main_v3_1_3 m ρ c).trans (W1_v3 m ρ c)
theorem src_at_6 : W6 (F := Ideal) m ρ c (Proc.devRef .tc main_v3) = val_main_v3 (F := Ideal) (m ((c : Thread nD τ).loc main_arg1)) :=
  (carry_main_v3_3_6 m ρ c).trans (src_at_3 m ρ c)
theorem src_at_9 : W9 (F := Ideal) m ρ c (Proc.devRef .tc main_v3) = val_main_v3 (F := Ideal) (m ((c : Thread nD τ).loc main_arg1)) :=
  (carry_main_v3_6_9 m ρ c).trans (src_at_6 m ρ c)

theorem dst_at_3 : W3 (F := Ideal) m ρ c (Proc.devRef .tc main_v6) = val_main_v6 (F := Ideal) (m ((c : Thread nD τ).loc main_arg1)) :=
  (carry_main_v6_1_3 m ρ c).trans (W1_v6 m ρ c)
theorem dst_at_4 : W4 (F := Ideal) m ρ c (Proc.devRef .tc main_v6) = val_main_v6 (F := Ideal) (m ((c : Thread nD τ).loc main_arg1)) :=
  (carry_main_v6_3_4 m ρ c).trans (dst_at_3 m ρ c)
theorem dst_at_7 : W7 (F := Ideal) m ρ c (Proc.devRef .tc main_v6) = val_main_v6 (F := Ideal) (m ((c : Thread nD τ).loc main_arg1)) :=
  (carry_main_v6_4_7 m ρ c).trans (dst_at_4 m ρ c)
theorem dst_at_10 : W10 (F := Ideal) m ρ c (Proc.devRef .tc main_v6) = val_main_v6 (F := Ideal) (m ((c : Thread nD τ).loc main_arg1)) :=
  (carry_main_v6_7_10 m ρ c).trans (dst_at_7 m ρ c)

theorem nrm_at_4 : W4 (F := Ideal) m ρ c (Proc.devRef .tc main_v30) = val_main_v30 (F := Ideal) (m ((c : Thread nD τ).loc main_arg1)) :=
  (carry_main_v30_3_4 m ρ c).trans (W3_v30 m ρ c)
theorem nrm_at_7 : W7 (F := Ideal) m ρ c (Proc.devRef .tc main_v30) = val_main_v30 (F := Ideal) (m ((c : Thread nD τ).loc main_arg1)) :=
  (carry_main_v30_4_7 m ρ c).trans (nrm_at_4 m ρ c)
theorem nrm_at_10 : W10 (F := Ideal) m ρ c (Proc.devRef .tc main_v30) = val_main_v30 (F := Ideal) (m ((c : Thread nD τ).loc main_arg1)) :=
  (carry_main_v30_7_10 m ρ c).trans (nrm_at_7 m ρ c)

end Cert.KernelIdeal.Hand

end
-- ==== Proof.LibGcnAssemble.lean ====
/-
  Putting a layer together from entrywise facts, over arbitrary finite index types:

  * an array whose entry `(i, k)` is zero plus, over the edges into `i`, a taken entry times the edge's weight, where
    the taken entry of edge `e` is the features' row `s e`, is the aggregate `agg`;
  * an array whose entry `(i, j)` is the positive part of `∑ k, a i k * W k j + b j` with `a` that aggregate is the
    positive part of the aggregate-first layer `kPre` — and the same without the positive part.
-/
import proofs.«431274_j7035156431050_4_alg».proof.Proof.LibGcnAlgebra

noncomputable section

namespace Cert.Gcn

open scoped BigOperators

variable {N E K J : ℕ}

/-- From the entrywise reading of an accumulating scatter of weighted taken rows to the aggregate. -/
theorem agg_of_entries (A : Fin N → Fin K → EReal) (T : Fin E → Fin K → EReal) (dd : Fin E → ℤ) (nn : Fin E → EReal)
    (h : Fin N → Fin K → EReal) (s : Fin E → Fin N) (d : Fin E → ℤ) (n : Fin E → EReal)
    (hA : ∀ i k, A i k = 0 + ∑ e ∈ into dd i, T e k * nn e)
    (hd : ∀ e, dd e = d e) (hn : ∀ e, nn e = n e) (hT : ∀ e k, T e k = h (s e) k) :
    A = agg h s d n := by
  have hd' : dd = d := funext hd
  have hn' : nn = n := funext hn
  subst hd' hn'
  funext i k
  rw [hA]
  simp only [hT]
  rfl

/-- From the entrywise reading of a dense layer with a positive part to `relu (kPre …)`. -/
theorem layer_of_entries_relu (out : Fin N → Fin J → EReal) (a : Fin N → Fin K → EReal) (W : Fin K → Fin J → EReal)
    (b : Fin J → EReal) (h : Fin N → Fin K → EReal) (s : Fin E → Fin N) (d : Fin E → ℤ) (n : Fin E → EReal)
    (hout : ∀ i j, out i j = max ((∑ k, a i k * W k j) + b j) 0) (ha : a = agg h s d n) :
    out = relu (kPre h s d n W b) := by
  subst ha
  funext i j
  rw [hout]
  rfl

/-- From the entrywise reading of a dense layer without a positive part to `kPre …`. -/
theorem layer_of_entries (out : Fin N → Fin J → EReal) (a : Fin N → Fin K → EReal) (W : Fin K → Fin J → EReal)
    (b : Fin J → EReal) (h : Fin N → Fin K → EReal) (s : Fin E → Fin N) (d : Fin E → ℤ) (n : Fin E → EReal)
    (hout : ∀ i j, out i j = (∑ k, a i k * W k j) + b j) (ha : a = agg h s d n) :
    out = kPre h s d n W b := by
  subst ha
  funext i j
  rw [hout]
  rfl

end Cert.Gcn

end
-- ==== Proof.KLayer0.lean ====
/-
  The kernel's first layer as a whole: the array its first pallas_call leaves is the positive part of the aggregate-first
  layer `kPre` of the features it starts from, the graph data and its weights and bias — from the entrywise readings
  of the take, the aggregation, the bias row and the dense block computation, at the contents the fold gives them.
-/
import proofs.«431274_j7035156431050_4_alg».proof.Proof.KHost0
import proofs.«431274_j7035156431050_4_alg».proof.Proof.KRegion0
import proofs.«431274_j7035156431050_4_alg».proof.Proof.KAt
import proofs.«431274_j7035156431050_4_alg».proof.Proof.LibGcnAssemble

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open Cert.ReferenceIdeal.Read (val_main_v3 val_main_v6 val_main_v30)
open scoped BigOperators

section L0

variable (m : (ℓ : Loc nD τ sig) → Buf (Elt Ideal) ℓ) (ρ : Dev nD → PrngReg) (c : Dev nD)
  (hs : ∀ e : Fin 1700000, 0 ≤ (wrapW (val_main_v3 (F := Ideal) (m ((c : Thread nD τ).loc main_arg1)) (ix1 e))).toInt
    ∧ (wrapW (val_main_v3 (F := Ideal) (m ((c : Thread nD τ).loc main_arg1)) (ix1 e))).toInt ≤ 99999)

/-- The features this layer's take reads. -/
theorem l0_feat : W3 (F := Ideal) m ρ c (Proc.devRef .tc main_arg0) = W0 (F := Ideal) m ρ c (Proc.devRef .tc main_arg0) :=
  carry_main_arg0_0_3 m ρ c

include hs in
/-- The taken entry of edge `e`: the features' row of its wrapped, clamped source id. -/
theorem l0_take (e : Fin 1700000) (k : Fin 4) :
    cur (W4 (F := Ideal) m ρ c (Proc.devRef .tc main_v31)) e k
      = cur (W0 (F := Ideal) m ρ c (Proc.devRef .tc main_arg0)) (sIdx (m ((c : Thread nD τ).loc main_arg1)) e) k := by
  show W4 (F := Ideal) m ρ c (Proc.devRef .tc main_v31) (ix2 e k) = _
  have h1 : W4 (F := Ideal) m ρ c (Proc.devRef .tc main_v31)
      = takeT0 (W3 (F := Ideal) m ρ c (Proc.devRef .tc main_arg0)) (W3 (F := Ideal) m ρ c (Proc.devRef .tc main_v3)) :=
    take0_term (W3 (F := Ideal) m ρ c)
  rw [h1, l0_feat m ρ c, src_at_3 m ρ c, takeT0_apply _ _ e k (hs e).1 (hs e).2]
  rfl

/-- The target of edge `e`, as this layer's scatter reads it. -/
theorem l0_dst (e : Fin 1700000) :
    (W4 (F := Ideal) m ρ c (Proc.devRef .tc main_v6) (ix1 e)).toInt = dInt (m ((c : Thread nD τ).loc main_arg1)) e := by
  rw [dst_at_4 m ρ c]
  rfl

/-- The weight of edge `e`, as this layer reads it. -/
theorem l0_nrm (e : Fin 1700000) :
    cur1 (W4 (F := Ideal) m ρ c (Proc.devRef .tc main_v30)) e = nrm (m ((c : Thread nD τ).loc main_arg1)) e := by
  show W4 (F := Ideal) m ρ c (Proc.devRef .tc main_v30) (ix1 e) = _
  rw [nrm_at_4 m ρ c]
  rfl

/-- The aggregate's entries. -/
theorem l0_agg_entries (i : Fin 100000) (k : Fin 4) :
    cur (W5 (F := Ideal) m ρ c (Proc.devRef .tc main_v37)) i k
      = 0 + ∑ e ∈ into (fun e : Fin 1700000 => (W4 (F := Ideal) m ρ c (Proc.devRef .tc main_v6) (ix1 e)).toInt) i,
          cur (W4 (F := Ideal) m ρ c (Proc.devRef .tc main_v31)) e k * cur1 (W4 (F := Ideal) m ρ c (Proc.devRef .tc main_v30)) e := by
  show W5 (F := Ideal) m ρ c (Proc.devRef .tc main_v37) (ix2 i k) = _
  have h1 : W5 (F := Ideal) m ρ c (Proc.devRef .tc main_v37)
      = aggT0 (W4 (F := Ideal) m ρ c (Proc.devRef .tc main_v31)) (W4 (F := Ideal) m ρ c (Proc.devRef .tc main_v6))
          (W4 (F := Ideal) m ρ c (Proc.devRef .tc main_v30)) := agg0_term (W4 (F := Ideal) m ρ c)
  rw [h1, aggT0_apply]

include hs in
/-- The aggregate is `agg` of the features and the graph data. -/
theorem l0_agg :
    cur (W5 (F := Ideal) m ρ c (Proc.devRef .tc main_v37))
      = agg (cur (W0 (F := Ideal) m ρ c (Proc.devRef .tc main_arg0))) (sIdx (m ((c : Thread nD τ).loc main_arg1)))
          (dInt (m ((c : Thread nD τ).loc main_arg1))) (nrm (m ((c : Thread nD τ).loc main_arg1))) :=
  agg_of_entries _ (cur (W4 (F := Ideal) m ρ c (Proc.devRef .tc main_v31)))
    (fun e : Fin 1700000 => (W4 (F := Ideal) m ρ c (Proc.devRef .tc main_v6) (ix1 e)).toInt) (cur1 (W4 (F := Ideal) m ρ c (Proc.devRef .tc main_v30)))
    _ _ _ _ (l0_agg_entries m ρ c) (l0_dst m ρ c) (l0_nrm m ρ c) (l0_take m ρ c hs)

/-- The output's entries: the dense block computation of the aggregate, the weights and the bias. -/
theorem l0_out (i : Fin 100000) (j : Fin 32) :
    cur (W6 (F := Ideal) m ρ c (Proc.devRef .tc main_v39)) i j
      = max ((∑ k : Fin 4, cur (W5 (F := Ideal) m ρ c (Proc.devRef .tc main_v37)) i k
            * cur (W0 (F := Ideal) m ρ c (Proc.devRef .tc main_arg2)) k j)
          + cur1 (W0 (F := Ideal) m ρ c (Proc.devRef .tc main_arg3)) j) 0 := by
  have h1 : W6 (F := Ideal) m ρ c (Proc.devRef .tc main_v39)
      = G0 (V5 (F := Ideal) m ρ c main_v37) (V5 (F := Ideal) m ρ c main_arg2) (V5 (F := Ideal) m ρ c main_v38) :=
    (W6_arr (F := Ideal) m ρ c 3).trans (region0_value (V5 (F := Ideal) m ρ) c)
  have hb : W5 (F := Ideal) m ρ c (Proc.devRef .tc main_v38)
      = shapeCast S1x32 (W4 (F := Ideal) m ρ c (Proc.devRef .tc main_arg3)) shapeCasts_S32_S1x32 := bias0_term (W4 (F := Ideal) m ρ c)
  show W6 (F := Ideal) m ρ c (Proc.devRef .tc main_v39) (ix2 i j) = _
  rw [h1]
  show max ((∑ k : Fin 4, cur (W5 (F := Ideal) m ρ c (Proc.devRef .tc main_v37)) i k * cur (W5 (F := Ideal) m ρ c (Proc.devRef .tc main_arg2)) k j)
      + cur (W5 (F := Ideal) m ρ c (Proc.devRef .tc main_v38)) (0 : Fin 1) j) 0 = _
  rw [carry_main_arg2_0_5 m ρ c, hb, biasRow0_apply, carry_main_arg3_0_4 m ρ c]

include hs in
/-- THE FIRST LAYER: its output array is the positive part of `kPre`. -/
theorem layer0_value :
    cur (W6 (F := Ideal) m ρ c (Proc.devRef .tc main_v39))
      = relu (kPre (cur (W0 (F := Ideal) m ρ c (Proc.devRef .tc main_arg0))) (sIdx (m ((c : Thread nD τ).loc main_arg1)))
          (dInt (m ((c : Thread nD τ).loc main_arg1))) (nrm (m ((c : Thread nD τ).loc main_arg1)))
          (cur (W0 (F := Ideal) m ρ c (Proc.devRef .tc main_arg2))) (cur1 (W0 (F := Ideal) m ρ c (Proc.devRef .tc main_arg3)))) :=
  layer_of_entries_relu _ _ _ _ _ _ _ _ (l0_out m ρ c) (l0_agg m ρ c hs)

end L0

end Cert.KernelIdeal.Hand

end
-- ==== Proof.KHost1.lean ====
/-
  The host operations in front of the second dense layer: `jnp.take` of the feature rows by the source ids, the product
  with the edge weights, the accumulating scatter by the target ids, and the bias as a row.

  As terms of the buffers the two stretches find (`takeT1`, `aggT1`), and read at one entry: under the mask's range
  facts the take at `(e, k)` is the features' entry `k` of the row edge `e`'s wrapped id names (no fill there), and the
  aggregate at `(i, k)` is zero plus the sum, over the edges whose target is `i`, of the taken entry times the edge's
  weight.
-/
import proofs.«431274_j7035156431050_4_alg».proof.Proof.KHostCommon

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open scoped BigOperators

/-! ## The two stretches as terms -/

/-- `jnp.take(h, src, axis=0)`: the gathered rows where the wrapped id names a node, a NaN elsewhere. -/
def takeT1 (h : FVec Ideal S100000x32 .f32) (src : IVec S1700000 32) : FVec Ideal S1700000x32 .f32 :=
  select (broadcastInDim S1700000x32 ![0] bcast_S1700000_S1700000x32_0 (inRange src))
    (Host.gather gather_S100000x32_S1700000x1_S1700000x32_1_0_n_n_0_1_132 h (wrapB src))
    (broadcastInDim S1700000x32 ![] bcast_S_S1700000x32 (constant (F := Ideal) S_ .f32 0x7FC00000#32))

/-- `segment_sum(take * norm[:, None], dst)`: the accumulating scatter, from zero, of the weighted rows. -/
def aggT1 (take : FVec Ideal S1700000x32 .f32) (dst : IVec S1700000 32) (norm : FVec Ideal S1700000 .f32) : FVec Ideal S100000x32 .f32 :=
  Host.scatterAdd scatter_S100000x32_S1700000x1_S1700000x32_1_0_0_1
    (broadcastInDim S100000x32 ![] bcast_S_S100000x32 (constant (F := Ideal) S_ .f32 0x00000000#32))
    (broadcastInDim S1700000x1 ![0] bcast_S1700000_S1700000x1_0 dst)
    (mulf take (broadcastInDim S1700000x32 ![0, 1] bcast_S1700000x1_S1700000x32_0_1
      (broadcastInDim S1700000x1 ![0] bcast_S1700000_S1700000x1_0 norm)))

/-- The take's first operations: the wrapped source ids as a column. -/
abbrev take1_l1 : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1700000, .i32⟩) (broadcastInDim S1700000 ![] bcast_S_S1700000),
    StableHlo.TRef.binary (.of main_v3 : StableHlo.TRef sig ⟨S1700000, .i32⟩) (.of main_call2_v0 : StableHlo.TRef sig ⟨S1700000, .i32⟩) (.of main_call2_v1 : StableHlo.TRef sig ⟨S1700000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S1700000, .i32⟩) (broadcastInDim S1700000 ![] bcast_S_S1700000),
    StableHlo.TRef.binary (.of main_v3 : StableHlo.TRef sig ⟨S1700000, .i32⟩) (.of main_call2_v2 : StableHlo.TRef sig ⟨S1700000, .i32⟩) (.of main_call2_v3 : StableHlo.TRef sig ⟨S1700000, .i32⟩) addi,
    StableHlo.TRef.ternary (.of main_call2_v1 : StableHlo.TRef sig ⟨S1700000, .i1⟩) (.of main_call2_v3 : StableHlo.TRef sig ⟨S1700000, .i32⟩) (.of main_v3 : StableHlo.TRef sig ⟨S1700000, .i32⟩) (.of main_call2_v4 : StableHlo.TRef sig ⟨S1700000, .i32⟩) select,
    StableHlo.TRef.unary main_call2_call0.v0 (.of main_call2_v5 : StableHlo.TRef sig ⟨S1700000x1, .i32⟩) (broadcastInDim S1700000x1 ![0] bcast_S1700000_S1700000x1_0) ]

/-- Its next operations: which wrapped ids name a node. -/
abbrev take1_l2 : List (HloOp τ sig (Elt Ideal)) :=
  [ StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1700000x1, .i32⟩) (broadcastInDim S1700000x1 ![] bcast_S_S1700000x1),
    StableHlo.TRef.binary (.of main_call2_v5 : StableHlo.TRef sig ⟨S1700000x1, .i32⟩) (.of main_call2_v6 : StableHlo.TRef sig ⟨S1700000x1, .i32⟩) (.of main_call2_v7 : StableHlo.TRef sig ⟨S1700000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1700000x1, .i32⟩) (broadcastInDim S1700000x1 ![0, 1] bcast_S1x1_S1700000x1_0_1),
    StableHlo.TRef.binary (.of main_call2_v5 : StableHlo.TRef sig ⟨S1700000x1, .i32⟩) (.of main_call2_v9 : StableHlo.TRef sig ⟨S1700000x1, .i32⟩) (.of main_call2_v10 : StableHlo.TRef sig ⟨S1700000x1, .i1⟩) (cmpi .sle),
    StableHlo.TRef.binary (.of main_call2_v7 : StableHlo.TRef sig ⟨S1700000x1, .i1⟩) (.of main_call2_v10 : StableHlo.TRef sig ⟨S1700000x1, .i1⟩) (.of main_call2_v11 : StableHlo.TRef sig ⟨S1700000x1, .i1⟩) andi,
    StableHlo.TRef.nullary (.of main_call2_c_3 : StableHlo.TRef sig ⟨S_, .i1⟩) (constantI S_ 1 1#1),
    StableHlo.TRef.binary (.of main_call2_v11 : StableHlo.TRef sig ⟨S1700000x1, .i1⟩) (.of main_call2_c_3 : StableHlo.TRef sig ⟨S_, .i1⟩) (.of main_call2_v12 : StableHlo.TRef sig ⟨S1700000, .i1⟩) (fun x v => Host.reduce IntOp.andi x v reducesTo_S1700000x1_S1700000_d1 h_S_) ]

/-- Its last operations: the gather, the fill value and the selection. -/
abbrev take1_l3 : List (HloOp τ sig (Elt Ideal)) :=
  [ StableHlo.TRef.binary (.of main_v39 : StableHlo.TRef sig ⟨S100000x32, .f32⟩) (.of main_call2_v5 : StableHlo.TRef sig ⟨S1700000x1, .i32⟩) (.of main_call2_v13 : StableHlo.TRef sig ⟨S1700000x32, .f32⟩) (fun x i => Host.gather gather_S100000x32_S1700000x1_S1700000x32_1_0_n_n_0_1_132 x i),
    StableHlo.TRef.unary (.of main_call2_v12 : StableHlo.TRef sig ⟨S1700000, .i1⟩) (.of main_call2_v14 : StableHlo.TRef sig ⟨S1700000x32, .i1⟩) (broadcastInDim S1700000x32 ![0] bcast_S1700000_S1700000x32_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S1700000x32, .f32⟩) (broadcastInDim S1700000x32 ![] bcast_S_S1700000x32),
    StableHlo.TRef.ternary (.of main_call2_v14 : StableHlo.TRef sig ⟨S1700000x32, .i1⟩) (.of main_call2_v13 : StableHlo.TRef sig ⟨S1700000x32, .f32⟩) (.of main_call2_v15 : StableHlo.TRef sig ⟨S1700000x32, .f32⟩) (.of main_v40 : StableHlo.TRef sig ⟨S1700000x32, .f32⟩) select ]

/-- The first operations leave the wrapped ids' column. -/
theorem take1_col (V : Valuation τ sig (Elt Ideal)) :
    StableHlo.after take1_l1 V (Proc.devRef .tc main_call2_v5) = wrapB (V (Proc.devRef .tc main_v3)) := by
  after_results
  delta wrapB
  rfl
theorem take1_l1_feat (V : Valuation τ sig (Elt Ideal)) :
    StableHlo.after take1_l1 V (Proc.devRef .tc main_v39) = V (Proc.devRef .tc main_v39) := by after_results

attribute [local irreducible] Host.reduce in
/-- The next operations leave the mask of the column they find. -/
theorem take1_mask (V : Valuation τ sig (Elt Ideal)) :
    StableHlo.after take1_l2 V (Proc.devRef .tc main_call2_v12)
      = Host.reduce IntOp.andi
          (andi (cmpi .sge (V (Proc.devRef .tc main_call2_v5)) (broadcastInDim S1700000x1 ![] bcast_S_S1700000x1 (constantI S_ 32 0#32)))
            (cmpi .sle (V (Proc.devRef .tc main_call2_v5)) (broadcastInDim S1700000x1 ![0, 1] bcast_S1x1_S1700000x1_0_1
              (broadcastInDim S1x1 ![1] bcast_S1_S1x1_1 (constantI S1 32 99999#32)))))
          (constantI S_ 1 1#1) reducesTo_S1700000x1_S1700000_d1 h_S_ := by
  after_results
  rfl
theorem take1_l2_col (V : Valuation τ sig (Elt Ideal)) :
    StableHlo.after take1_l2 V (Proc.devRef .tc main_call2_v5) = V (Proc.devRef .tc main_call2_v5) := by after_results
theorem take1_l2_feat (V : Valuation τ sig (Elt Ideal)) :
    StableHlo.after take1_l2 V (Proc.devRef .tc main_v39) = V (Proc.devRef .tc main_v39) := by after_results

attribute [local irreducible] Host.gather in
/-- The last operations select, by the mask they find, between the gathered rows and the fill. -/
theorem take1_sel (V : Valuation τ sig (Elt Ideal)) :
    StableHlo.after take1_l3 V (Proc.devRef .tc main_v40)
      = select (broadcastInDim S1700000x32 ![0] bcast_S1700000_S1700000x32_0 (V (Proc.devRef .tc main_call2_v12)))
          (Host.gather gather_S100000x32_S1700000x1_S1700000x32_1_0_n_n_0_1_132 (V (Proc.devRef .tc main_v39)) (V (Proc.devRef .tc main_call2_v5)))
          (broadcastInDim S1700000x32 ![] bcast_S_S1700000x32 (constant (F := Ideal) S_ .f32 0x7FC00000#32)) := by
  after_results
  rfl

/-- The take stretch leaves `takeT1` of the features and the source ids it finds. -/
theorem take1_term (V : Valuation τ sig (Elt Ideal)) :
    StableHlo.after (hostOps1 (F := Ideal)) V (Proc.devRef .tc main_v40)
      = takeT1 (V (Proc.devRef .tc main_v39)) (V (Proc.devRef .tc main_v3)) := by
  have hl : (hostOps1 (F := Ideal)) = take1_l1 ++ (take1_l2 ++ take1_l3) := rfl
  rw [hl, after_append, after_append, take1_sel, take1_mask, take1_l2_col, take1_col, take1_l2_feat, take1_l1_feat]
  rfl

/-- The aggregation stretch leaves `aggT1` of the taken rows, the target ids and the edge weights it finds. -/
theorem agg1_term (V : Valuation τ sig (Elt Ideal)) :
    StableHlo.after (hostOps1_1 (F := Ideal)) V (Proc.devRef .tc main_v46)
      = aggT1 (V (Proc.devRef .tc main_v40)) (V (Proc.devRef .tc main_v6)) (V (Proc.devRef .tc main_v30)) := by
  delta aggT1
  after_results

/-- … and the bias as a `1 × 64` row. -/
theorem bias1_term (V : Valuation τ sig (Elt Ideal)) :
    StableHlo.after (hostOps1_1 (F := Ideal)) V (Proc.devRef .tc main_v47)
      = shapeCast S1x64 (V (Proc.devRef .tc main_arg5)) shapeCasts_S64_S1x64 := by
  after_results
  rfl

/-! ## Read at one entry -/

/-- The bias row's entry `(0, j)` is the bias's entry `j`. -/
theorem biasRow1_apply (b : FVec Ideal S64 .f32) (j : Fin 64) :
    cur (shapeCast S1x64 b shapeCasts_S64_S1x64) (0 : Fin 1) j = cur1 b j :=
  shapeCast_apply b shapeCasts_S64_S1x64 (ix2 (0 : Fin 1) j) (ix1 j)
    (by rewrite [Shape.rowMajor_val_one, Shape.rowMajor_val_two]; show j.val = 0 * 64 + j.val; omega)

/-- THE TAKE AT `(e, k)`, where edge `e`'s wrapped id names a node: the features' row of that id. -/
theorem takeT1_apply (h : FVec Ideal S100000x32 .f32) (src : IVec S1700000 32) (e : Fin 1700000) (k : Fin 32)
    (h0 : 0 ≤ (wrapW (src (ix1 e))).toInt) (h1 : (wrapW (src (ix1 e))).toInt ≤ 99999) :
    takeT1 h src (ix2 e k) = h (ix2 ⟨min (wrapW (src (ix1 e))).toInt.toNat (100000 - 1), by omega⟩ k) := by
  have wfg : GatherDims.WF ⟨2, ![100000, 32]⟩ ⟨2, ![1700000, 1]⟩ ⟨2, ![1700000, 32]⟩ [1] [0] [] [0] [] 1 ![1, 32] :=
    gather_S100000x32_S1700000x1_S1700000x32_1_0_n_n_0_1_132.wf
  have hdg : gather_S100000x32_S1700000x1_S1700000x32_1_0_n_n_0_1_132 = rowGatherDims 100000 1700000 32 wfg := rfl
  have hm : broadcastInDim S1700000x32 ![0] bcast_S1700000_S1700000x32_0 (inRange src) (ix2 e k) = 1#1 := by
    rw [broadcastInDim_apply _ bcast_S1700000_S1700000x32_0 (inRange src) (ix2 e k) (ix1 e) (fun a => match a with
      | ⟨0, _⟩ => by show e.val = if (1700000 : Nat) = 1 then 0 else e.val; rw [if_neg (by decide)])]
    exact inRange_apply src e h0 h1
  unfold takeT1
  show Scalar.select (broadcastInDim S1700000x32 ![0] bcast_S1700000_S1700000x32_0 (inRange src) (ix2 e k))
      (Host.gather gather_S100000x32_S1700000x1_S1700000x32_1_0_n_n_0_1_132 h (wrapB src) (ix2 e k))
      (broadcastInDim S1700000x32 ![] bcast_S_S1700000x32 (constant (F := Ideal) S_ .f32 0x7FC00000#32) (ix2 e k)) = _
  rw [hm, select_one, hdg, gather_rows_apply (N := 100000) (by norm_num)]
  refine congrArg (fun r : Fin 100000 => h (ix2 r k)) (Fin.ext ?_)
  show min (wrapB src (ix2 e (0 : Fin 1))).toInt.toNat (100000 - 1) = min (wrapW (src (ix1 e))).toInt.toNat (100000 - 1)
  rw [wrapB_apply]

/-- THE AGGREGATE AT `(i, k)`: zero plus the weighted taken entries of the edges whose target is `i`. -/
theorem aggT1_apply (take : FVec Ideal S1700000x32 .f32) (dst : IVec S1700000 32) (norm : FVec Ideal S1700000 .f32)
    (i : Fin 100000) (k : Fin 32) :
    aggT1 take dst norm (ix2 i k)
      = 0 + ∑ e ∈ into (fun e : Fin 1700000 => (dst (ix1 e)).toInt) i, cur take e k * cur1 norm e := by
  have wfs : ScatterDims.WF ⟨2, ![100000, 32]⟩ ⟨2, ![1700000, 1]⟩ ⟨2, ![1700000, 32]⟩ [1] [0] [0] 1 :=
    scatter_S100000x32_S1700000x1_S1700000x32_1_0_0_1.wf
  have hds : scatter_S100000x32_S1700000x1_S1700000x32_1_0_0_1 = rowScatterDims 100000 1700000 32 wfs := rfl
  -- the operand is zero
  have hz : (broadcastInDim S100000x32 ![] bcast_S_S100000x32 (constant (F := Ideal) S_ .f32 0x00000000#32) (ix2 i k) : EReal) = (0 : EReal) := by
    rw [broadcastInDim_apply _ bcast_S_S100000x32 _ (ix2 i k) ix0 (fun a => a.elim0)]
    exact Ideal.ofBits_zero_f32
  -- the target of edge e, as the scatter reads it
  have hd : ∀ e : Fin 1700000, (broadcastInDim S1700000x1 ![0] bcast_S1700000_S1700000x1_0 dst (ix2 e (0 : Fin 1))).toInt = (dst (ix1 e)).toInt := by
    intro e
    rw [broadcastInDim_apply _ bcast_S1700000_S1700000x1_0 dst (ix2 e (0 : Fin 1)) (ix1 e) (fun a => match a with
      | ⟨0, _⟩ => by show e.val = if (1700000 : Nat) = 1 then 0 else e.val; rw [if_neg (by decide)])]
  -- one edge's update at column k
  have hu : ∀ e : Fin 1700000, (mulf take (broadcastInDim S1700000x32 ![0, 1] bcast_S1700000x1_S1700000x32_0_1
      (broadcastInDim S1700000x1 ![0] bcast_S1700000_S1700000x1_0 norm)) (ix2 e k) : EReal) = cur take e k * cur1 norm e := by
    intro e
    show take (ix2 e k) * broadcastInDim S1700000x32 ![0, 1] bcast_S1700000x1_S1700000x32_0_1
      (broadcastInDim S1700000x1 ![0] bcast_S1700000_S1700000x1_0 norm) (ix2 e k) = _
    rw [broadcastInDim_apply _ bcast_S1700000x1_S1700000x32_0_1 _ (ix2 e k) (ix2 e (0 : Fin 1)) (fun a => match a with
        | ⟨0, _⟩ => by show e.val = if (1700000 : Nat) = 1 then 0 else e.val; rw [if_neg (by decide)]
        | ⟨1, _⟩ => by show (0 : ℕ) = if (1 : Nat) = 1 then 0 else k.val; rw [if_pos rfl]),
      broadcastInDim_apply _ bcast_S1700000_S1700000x1_0 norm (ix2 e (0 : Fin 1)) (ix1 e) (fun a => match a with
        | ⟨0, _⟩ => by show e.val = if (1700000 : Nat) = 1 then 0 else e.val; rw [if_neg (by decide)])]
    rfl
  -- the two sums run over the same edges and have the same terms
  have hsum : (∑ e ∈ Finset.univ.filter (fun e : Fin 1700000 =>
        (broadcastInDim S1700000x1 ![0] bcast_S1700000_S1700000x1_0 dst (ix2 e (0 : Fin 1))).toInt = (i.val : ℤ)),
        (mulf take (broadcastInDim S1700000x32 ![0, 1] bcast_S1700000x1_S1700000x32_0_1
          (broadcastInDim S1700000x1 ![0] bcast_S1700000_S1700000x1_0 norm)) (ix2 e k) : EReal))
      = ∑ e ∈ into (fun e : Fin 1700000 => (dst (ix1 e)).toInt) i, cur take e k * cur1 norm e := by
    unfold into
    exact Finset.sum_congr (Finset.filter_congr fun e _ => by rw [hd e]) fun e _ => hu e
  -- the term is the ideal accumulating scatter at the row-scatter dimension numbers
  have h1 : aggT1 take dst norm (ix2 i k)
      = Ideal.hostScatterAdd (rowScatterDims 100000 1700000 32 wfs)
          (broadcastInDim S100000x32 ![] bcast_S_S100000x32 (constant (F := Ideal) S_ .f32 0x00000000#32))
          (broadcastInDim S1700000x1 ![0] bcast_S1700000_S1700000x1_0 dst)
          (mulf take (broadcastInDim S1700000x32 ![0, 1] bcast_S1700000x1_S1700000x32_0_1
            (broadcastInDim S1700000x1 ![0] bcast_S1700000_S1700000x1_0 norm))) (ix2 i k) := by
    rw [aggT1, Host.scatterAdd, Ideal.hostScatterAdd_def, hds]
  rw [h1, scatterAdd_rows_apply, hz, hsum]

end Cert.KernelIdeal.Hand

end
-- ==== Proof.KPayload1.lean ====
/-
  The second dense layer's block computation, read at one entry: for a block `x0` of 5000 aggregated rows, the weights
  `x1` and the bias row `x2`, entry `(p, q)` of what the body stores is
  `max (∑ k, x0 (p, k) * x1 (k, q) + x2 (0, q)) 0` — the product into a zero accumulator is the plain sum over the
  one contracted axis, the bias row is broadcast over the block's rows, and the positive part is the maximum with zero.
-/
import proofs.«431274_j7035156431050_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The product's index maps, axis by axis -/

theorem lhs1_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs1_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs1_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs1_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The block product into a zero accumulator, at `(p, q)`: the sum over the contracted axis. -/
theorem mm1_apply (l : FVec Ideal S5000x32 .f32) (r : FVec Ideal S32x64 .f32) (p : Fin 5000) (q : Fin 64) :
    matmul (F := Ideal) dot_S5000x32_S32x64_S5000x64_1_0_0_1_n_n (some .fp32) l r (constant (F := Ideal) S5000x64 .f32 0x00000000#32) (ix2 p q)
      = ∑ k : Fin 32, l (ix2 p k) * r (ix2 k q) := by
  show FloatOps.matmul (F := Ideal) dot_S5000x32_S32x64_S5000x64_1_0_0_1_n_n (some .fp32) l r (constant (F := Ideal) S5000x64 .f32 0x00000000#32) (ix2 p q) = _
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ => exact lhs1_0 _ _
    | ⟨1, _⟩ => exact (lhs1_1 _ _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (rhs1_0 _ _).trans hk
    | ⟨1, _⟩ => exact rhs1_1 _ _)
  rw [el, er]

/-- THE BLOCK'S STORED VALUE AT `(p, q)`. -/
theorem pay1_apply (x0 : Vec Ideal S5000x32 .f32) (x1 : Vec Ideal S32x64 .f32) (x2 : Vec Ideal S1x64 .f32) (p : Fin 5000) (q : Fin 64) :
    k1_pay1 (F := Ideal) x0 x1 x2 (ix2 p q)
      = max ((∑ k : Fin 32, x0 (ix2 p k) * x1 (ix2 k q)) + x2 (ix2 (0 : Fin 1) q)) 0 := by
  unfold k1_pay1
  show max (matmul (F := Ideal) dot_S5000x32_S32x64_S5000x64_1_0_0_1_n_n (some .fp32) (shapeCast S5000x32 x0 _) x1 (constant (F := Ideal) S5000x64 .f32 0x00000000#32) (ix2 p q)
      + broadcastTo S5000x64 (shapeCast S1x64 x2 _) _ (ix2 p q)) (Ideal.ofBits .f32 0x00000000#32) = _
  rw [shapeCast_self, shapeCast_self, mm1_apply, Ideal.ofBits_zero_f32,
    broadcastTo_apply x2 _ (ix2 p q) (ix2 (0 : Fin 1) q) (fun a => match a with
      | ⟨0, _⟩ => by show (0 : ℕ) = if (1 : ℕ) = 1 then 0 else p.val; rw [if_pos rfl]
      | ⟨1, _⟩ => by show q.val = if (64 : ℕ) = 1 then 0 else q.val; rw [if_neg (by decide)])]

end Cert.KernelIdeal.Hand

end
-- ==== Proof.KRegion1.lean ====
/-
  The second dense layer's output array after its pallas_call, as ONE function of the arrays the call finds:
  `G1 a w b (i, j) = max (∑ k, a (i, k) * w (k, j) + b (0, j)) 0`. Point `t` of the grid computes rows
  `[5000 t, 5000 t + 5000)` from the same rows of `a`, all of `w` and the bias row, so what it writes back is
  its block of `G1`; the twenty blocks tile the array.
-/
import proofs.«431274_j7035156431050_4_alg».proof.Proof.Gen.KernelIdeal.Frame
import proofs.«431274_j7035156431050_4_alg».proof.Proof.KPayload1

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

theorem hz1 : (![0, 0] : Fin 2 → Nat) = fun _ => 0 := funext fun a => by fin_cases a <;> rfl

/-- The dense layer as one function of the whole arrays. -/
def G1 (a : S100000x32.Idx → EReal) (w : S32x64.Idx → EReal) (b : S1x64.Idx → EReal) : S100000x64.Idx → EReal :=
  fun i => max ((∑ k : Fin 32, a (ix2 ⟨(i 0).val, idx2_lt0 i⟩ k) * w (ix2 k ⟨(i 1).val, idx2_lt1 i⟩))
    + b (ix2 (0 : Fin 1) ⟨(i 1).val, idx2_lt1 i⟩)) 0

/-- A block's stored entry is the whole-array function's, once the block's entries are the arrays' at the matching
    indices. -/
theorem pay1_block (A : S100000x32.Idx → EReal) (W : S32x64.Idx → EReal) (B : S1x64.Idx → EReal)
    (x0 : Vec Ideal S5000x32 .f32) (x1 : Vec Ideal S32x64 .f32) (x2 : Vec Ideal S1x64 .f32)
    (i : S100000x64.Idx) (p : Fin 5000) (q : Fin 64)
    (h0 : ∀ k : Fin 32, x0 (ix2 p k) = A (ix2 ⟨(i 0).val, idx2_lt0 i⟩ k))
    (h1 : ∀ k : Fin 32, x1 (ix2 k q) = W (ix2 k ⟨(i 1).val, idx2_lt1 i⟩))
    (h2 : x2 (ix2 (0 : Fin 1) q) = B (ix2 (0 : Fin 1) ⟨(i 1).val, idx2_lt1 i⟩)) :
    k1_pay1 (F := Ideal) x0 x1 x2 (ix2 p q) = G1 A W B i := by
  rw [pay1_apply]
  unfold G1
  simp only [h0, h1, h2]

variable (V : (c : Dev nD) → (b : Ref sig .tc) → Buf (Elt Ideal) ((c : Thread nD τ).loc b))

/-- The printed index maps, decided over the grid: the features' and the output's blocks are block row `t`, the
    weights' and the bias's the one whole block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row is some point's. -/
theorem idx_onto1 : ∀ q0 : Fin 20, ∃ t : Fin cfg1.N, win1_3.index t = ![q0.val, 0] :=
  (by decide +kernel : ∀ q0 : Fin 20, ∃ t : Fin grid1.N, win1_3.index t = ![q0.val, 0])

/-- WHAT POINT `t` WRITES BACK is block `t` of `G1` of the arrays as the call finds them. -/
theorem flushed1_eq (c : Dev nD) (t : Fin cfg1.N) :
    (dat1 (F := Ideal) V c).flushed 3 t
      = ((cfg1.win 3).blk t).view.read (Elt Ideal) (G1 (V c main_v46) (V c main_arg4) (V c main_v47)) := by
  show (cfg1.win 3).cut (grid1.coords t) ((dat1 (F := Ideal) V c).after 3 t) = _
  rw [after1_3]
  unfold out1_3
  rw [View.canon_unit_zero hz1]
  simp only [View.ld_unit_zero (S := S5000x32) hz1, View.ld_unit_zero (S := S32x64) hz1, View.ld_unit_zero (S := S1x64) hz1]
  obtain ⟨e00, e01, e10, e11, e20, e21, e30, e31⟩ := idx_facts1 t
  funext j
  obtain ⟨p, q, rfl⟩ : ∃ (p : Fin 5000) (q : Fin 64), j = ix2 p q := ⟨j 0, j 1, eq_ix2 j⟩
  refine pay1_block (V c main_v46) (V c main_arg4) (V c main_v47) (iblk1 V c 0 t) (iblk1 V c 1 t) (iblk1 V c 2 t)
    (((cfg1.win 3).blk t).view.emb (ix2 p q)) p q (fun k => ?_) (fun k => ?_) ?_
  · show V c main_v46 (((cfg1.win 0).blk t).view.emb (ix2 p k)) = V c main_v46 _
    refine congrArg (V c main_v46) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 32 + 1 * k.val = k.val; omega
  · show V c main_arg4 (((cfg1.win 1).blk t).view.emb (ix2 k q)) = V c main_arg4 _
    refine congrArg (V c main_arg4) (funext fun a => Fin.ext ?_)
    match a with
    | ⟨0, _⟩ => show win1_1.index t (0 : Fin 2) * 32 + 1 * k.val = k.val; omega
    | ⟨1, _⟩ => show win1_1.index t (1 : Fin 2) * 64 + 1 * q.val = win1_3.index t (1 : Fin 2) * 64 + 1 * q.val; omega
  · show V c main_v47 (((cfg1.win 2).blk t).view.emb (ix2 (0 : Fin 1) q)) = V c main_v47 _
    refine congrArg (V c main_v47) (funext fun a => Fin.ext ?_)
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v48).slice (win1_3.rect t)).set ↔ _
  rw [View.set_slice_whole, Rect.mem_set_unit]
  exact Iff.rfl

/-- The blocks tile the array: row `r` is in the block of point `r / 5000`. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE ARRAY after the call: `G1` of the arrays the call finds. -/
theorem region1_value (c : Dev nD) :
    (dat1 (F := Ideal) V c).arrAt 3 cfg1.N = G1 (V c main_v46) (V c main_arg4) (V c main_v47) :=
  (dat1 (F := Ideal) V c).arrAt_eq_of_cover 3 _ (fun t _ => flushed1_eq V c t) cover1

end Cert.KernelIdeal.Hand

end
-- ==== Proof.KLayer1.lean ====
/-
  The kernel's second layer as a whole: the array its second pallas_call leaves is the positive part of the aggregate-first
  layer `kPre` of the features it starts from, the graph data and its weights and bias — from the entrywise readings
  of the take, the aggregation, the bias row and the dense block computation, at the contents the fold gives them.
-/
import proofs.«431274_j7035156431050_4_alg».proof.Proof.KHost1
import proofs.«431274_j7035156431050_4_alg».proof.Proof.KRegion1
import proofs.«431274_j7035156431050_4_alg».proof.Proof.KAt
import proofs.«431274_j7035156431050_4_alg».proof.Proof.LibGcnAssemble

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open Cert.ReferenceIdeal.Read (val_main_v3 val_main_v6 val_main_v30)
open scoped BigOperators

section L1

variable (m : (ℓ : Loc nD τ sig) → Buf (Elt Ideal) ℓ) (ρ : Dev nD → PrngReg) (c : Dev nD)
  (hs : ∀ e : Fin 1700000, 0 ≤ (wrapW (val_main_v3 (F := Ideal) (m ((c : Thread nD τ).loc main_arg1)) (ix1 e))).toInt
    ∧ (wrapW (val_main_v3 (F := Ideal) (m ((c : Thread nD τ).loc main_arg1)) (ix1 e))).toInt ≤ 99999)

/-- The features this layer's take reads. -/
theorem l1_feat : W6 (F := Ideal) m ρ c (Proc.devRef .tc main_v39) = W6 (F := Ideal) m ρ c (Proc.devRef .tc main_v39) :=
  rfl

include hs in
/-- The taken entry of edge `e`: the features' row of its wrapped, clamped source id. -/
theorem l1_take (e : Fin 1700000) (k : Fin 32) :
    cur (W7 (F := Ideal) m ρ c (Proc.devRef .tc main_v40)) e k
      = cur (W6 (F := Ideal) m ρ c (Proc.devRef .tc main_v39)) (sIdx (m ((c : Thread nD τ).loc main_arg1)) e) k := by
  show W7 (F := Ideal) m ρ c (Proc.devRef .tc main_v40) (ix2 e k) = _
  have h1 : W7 (F := Ideal) m ρ c (Proc.devRef .tc main_v40)
      = takeT1 (W6 (F := Ideal) m ρ c (Proc.devRef .tc main_v39)) (W6 (F := Ideal) m ρ c (Proc.devRef .tc main_v3)) :=
    take1_term (W6 (F := Ideal) m ρ c)
  rw [h1, l1_feat m ρ c, src_at_6 m ρ c, takeT1_apply _ _ e k (hs e).1 (hs e).2]
  rfl

/-- The target of edge `e`, as this layer's scatter reads it. -/
theorem l1_dst (e : Fin 1700000) :
    (W7 (F := Ideal) m ρ c (Proc.devRef .tc main_v6) (ix1 e)).toInt = dInt (m ((c : Thread nD τ).loc main_arg1)) e := by
  rw [dst_at_7 m ρ c]
  rfl

/-- The weight of edge `e`, as this layer reads it. -/
theorem l1_nrm (e : Fin 1700000) :
    cur1 (W7 (F := Ideal) m ρ c (Proc.devRef .tc main_v30)) e = nrm (m ((c : Thread nD τ).loc main_arg1)) e := by
  show W7 (F := Ideal) m ρ c (Proc.devRef .tc main_v30) (ix1 e) = _
  rw [nrm_at_7 m ρ c]
  rfl

/-- The aggregate's entries. -/
theorem l1_agg_entries (i : Fin 100000) (k : Fin 32) :
    cur (W8 (F := Ideal) m ρ c (Proc.devRef .tc main_v46)) i k
      = 0 + ∑ e ∈ into (fun e : Fin 1700000 => (W7 (F := Ideal) m ρ c (Proc.devRef .tc main_v6) (ix1 e)).toInt) i,
          cur (W7 (F := Ideal) m ρ c (Proc.devRef .tc main_v40)) e k * cur1 (W7 (F := Ideal) m ρ c (Proc.devRef .tc main_v30)) e := by
  show W8 (F := Ideal) m ρ c (Proc.devRef .tc main_v46) (ix2 i k) = _
  have h1 : W8 (F := Ideal) m ρ c (Proc.devRef .tc main_v46)
      = aggT1 (W7 (F := Ideal) m ρ c (Proc.devRef .tc main_v40)) (W7 (F := Ideal) m ρ c (Proc.devRef .tc main_v6))
          (W7 (F := Ideal) m ρ c (Proc.devRef .tc main_v30)) := agg1_term (W7 (F := Ideal) m ρ c)
  rw [h1, aggT1_apply]

include hs in
/-- The aggregate is `agg` of the features and the graph data. -/
theorem l1_agg :
    cur (W8 (F := Ideal) m ρ c (Proc.devRef .tc main_v46))
      = agg (cur (W6 (F := Ideal) m ρ c (Proc.devRef .tc main_v39))) (sIdx (m ((c : Thread nD τ).loc main_arg1)))
          (dInt (m ((c : Thread nD τ).loc main_arg1))) (nrm (m ((c : Thread nD τ).loc main_arg1))) :=
  agg_of_entries _ (cur (W7 (F := Ideal) m ρ c (Proc.devRef .tc main_v40)))
    (fun e : Fin 1700000 => (W7 (F := Ideal) m ρ c (Proc.devRef .tc main_v6) (ix1 e)).toInt) (cur1 (W7 (F := Ideal) m ρ c (Proc.devRef .tc main_v30)))
    _ _ _ _ (l1_agg_entries m ρ c) (l1_dst m ρ c) (l1_nrm m ρ c) (l1_take m ρ c hs)

/-- The output's entries: the dense block computation of the aggregate, the weights and the bias. -/
theorem l1_out (i : Fin 100000) (j : Fin 64) :
    cur (W9 (F := Ideal) m ρ c (Proc.devRef .tc main_v48)) i j
      = max ((∑ k : Fin 32, cur (W8 (F := Ideal) m ρ c (Proc.devRef .tc main_v46)) i k
            * cur (W0 (F := Ideal) m ρ c (Proc.devRef .tc main_arg4)) k j)
          + cur1 (W0 (F := Ideal) m ρ c (Proc.devRef .tc main_arg5)) j) 0 := by
  have h1 : W9 (F := Ideal) m ρ c (Proc.devRef .tc main_v48)
      = G1 (V8 (F := Ideal) m ρ c main_v46) (V8 (F := Ideal) m ρ c main_arg4) (V8 (F := Ideal) m ρ c main_v47) :=
    (W9_arr (F := Ideal) m ρ c 3).trans (region1_value (V8 (F := Ideal) m ρ) c)
  have hb : W8 (F := Ideal) m ρ c (Proc.devRef .tc main_v47)
      = shapeCast S1x64 (W7 (F := Ideal) m ρ c (Proc.devRef .tc main_arg5)) shapeCasts_S64_S1x64 := bias1_term (W7 (F := Ideal) m ρ c)
  show W9 (F := Ideal) m ρ c (Proc.devRef .tc main_v48) (ix2 i j) = _
  rw [h1]
  show max ((∑ k : Fin 32, cur (W8 (F := Ideal) m ρ c (Proc.devRef .tc main_v46)) i k * cur (W8 (F := Ideal) m ρ c (Proc.devRef .tc main_arg4)) k j)
      + cur (W8 (F := Ideal) m ρ c (Proc.devRef .tc main_v47)) (0 : Fin 1) j) 0 = _
  rw [carry_main_arg4_0_8 m ρ c, hb, biasRow1_apply, carry_main_arg5_0_7 m ρ c]

include hs in
/-- THE SECOND LAYER: its output array is the positive part of `kPre`. -/
theorem layer1_value :
    cur (W9 (F := Ideal) m ρ c (Proc.devRef .tc main_v48))
      = relu (kPre (cur (W6 (F := Ideal) m ρ c (Proc.devRef .tc main_v39))) (sIdx (m ((c : Thread nD τ).loc main_arg1)))
          (dInt (m ((c : Thread nD τ).loc main_arg1))) (nrm (m ((c : Thread nD τ).loc main_arg1)))
          (cur (W0 (F := Ideal) m ρ c (Proc.devRef .tc main_arg4))) (cur1 (W0 (F := Ideal) m ρ c (Proc.devRef .tc main_arg5)))) :=
  layer_of_entries_relu _ _ _ _ _ _ _ _ (l1_out m ρ c) (l1_agg m ρ c hs)

end L1

end Cert.KernelIdeal.Hand

end
-- ==== Proof.KHost2.lean ====
/-
  The host operations in front of the third dense layer: `jnp.take` of the feature rows by the source ids, the product
  with the edge weights, the accumulating scatter by the target ids, and the bias as a row.

  As terms of the buffers the two stretches find (`takeT2`, `aggT2`), and read at one entry: under the mask's range
  facts the take at `(e, k)` is the features' entry `k` of the row edge `e`'s wrapped id names (no fill there), and the
  aggregate at `(i, k)` is zero plus the sum, over the edges whose target is `i`, of the taken entry times the edge's
  weight.
-/
import proofs.«431274_j7035156431050_4_alg».proof.Proof.KHostCommon

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open scoped BigOperators

/-! ## The two stretches as terms -/

/-- `jnp.take(h, src, axis=0)`: the gathered rows where the wrapped id names a node, a NaN elsewhere. -/
def takeT2 (h : FVec Ideal S100000x64 .f32) (src : IVec S1700000 32) : FVec Ideal S1700000x64 .f32 :=
  select (broadcastInDim S1700000x64 ![0] bcast_S1700000_S1700000x64_0 (inRange src))
    (Host.gather gather_S100000x64_S1700000x1_S1700000x64_1_0_n_n_0_1_164 h (wrapB src))
    (broadcastInDim S1700000x64 ![] bcast_S_S1700000x64 (constant (F := Ideal) S_ .f32 0x7FC00000#32))

/-- `segment_sum(take * norm[:, None], dst)`: the accumulating scatter, from zero, of the weighted rows. -/
def aggT2 (take : FVec Ideal S1700000x64 .f32) (dst : IVec S1700000 32) (norm : FVec Ideal S1700000 .f32) : FVec Ideal S100000x64 .f32 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf take (broadcastInDim S1700000x64 ![0, 1] bcast_S1700000x1_S1700000x64_0_1
      (broadcastInDim S1700000x1 ![0] bcast_S1700000_S1700000x1_0 norm)))

/-- The take's first operations: the wrapped source ids as a column. -/
abbrev take2_l1 : List (HloOp τ sig (Elt Ideal)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1700000, .i32⟩) (broadcastInDim S1700000 ![] bcast_S_S1700000),
    StableHlo.TRef.binary (.of main_v3 : StableHlo.TRef sig ⟨S1700000, .i32⟩) (.of main_call3_v0 : StableHlo.TRef sig ⟨S1700000, .i32⟩) (.of main_call3_v1 : StableHlo.TRef sig ⟨S1700000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1700000, .i32⟩) (broadcastInDim S1700000 ![] bcast_S_S1700000),
    StableHlo.TRef.binary (.of main_v3 : StableHlo.TRef sig ⟨S1700000, .i32⟩) (.of main_call3_v2 : StableHlo.TRef sig ⟨S1700000, .i32⟩) (.of main_call3_v3 : StableHlo.TRef sig ⟨S1700000, .i32⟩) addi,
    StableHlo.TRef.ternary (.of main_call3_v1 : StableHlo.TRef sig ⟨S1700000, .i1⟩) (.of main_call3_v3 : StableHlo.TRef sig ⟨S1700000, .i32⟩) (.of main_v3 : StableHlo.TRef sig ⟨S1700000, .i32⟩) (.of main_call3_v4 : StableHlo.TRef sig ⟨S1700000, .i32⟩) select,
    StableHlo.TRef.unary main_call3_call0.v0 (.of main_call3_v5 : StableHlo.TRef sig ⟨S1700000x1, .i32⟩) (broadcastInDim S1700000x1 ![0] bcast_S1700000_S1700000x1_0) ]

/-- Its next operations: which wrapped ids name a node. -/
abbrev take2_l2 : List (HloOp τ sig (Elt Ideal)) :=
  [ StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1700000x1, .i32⟩) (broadcastInDim S1700000x1 ![] bcast_S_S1700000x1),
    StableHlo.TRef.binary (.of main_call3_v5 : StableHlo.TRef sig ⟨S1700000x1, .i32⟩) (.of main_call3_v6 : StableHlo.TRef sig ⟨S1700000x1, .i32⟩) (.of main_call3_v7 : StableHlo.TRef sig ⟨S1700000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1700000x1, .i32⟩) (broadcastInDim S1700000x1 ![0, 1] bcast_S1x1_S1700000x1_0_1),
    StableHlo.TRef.binary (.of main_call3_v5 : StableHlo.TRef sig ⟨S1700000x1, .i32⟩) (.of main_call3_v9 : StableHlo.TRef sig ⟨S1700000x1, .i32⟩) (.of main_call3_v10 : StableHlo.TRef sig ⟨S1700000x1, .i1⟩) (cmpi .sle),
    StableHlo.TRef.binary (.of main_call3_v7 : StableHlo.TRef sig ⟨S1700000x1, .i1⟩) (.of main_call3_v10 : StableHlo.TRef sig ⟨S1700000x1, .i1⟩) (.of main_call3_v11 : StableHlo.TRef sig ⟨S1700000x1, .i1⟩) andi,
    StableHlo.TRef.nullary (.of main_call3_c_3 : StableHlo.TRef sig ⟨S_, .i1⟩) (constantI S_ 1 1#1),
    StableHlo.TRef.binary (.of main_call3_v11 : StableHlo.TRef sig ⟨S1700000x1, .i1⟩) (.of main_call3_c_3 : StableHlo.TRef sig ⟨S_, .i1⟩) (.of main_call3_v12 : StableHlo.TRef sig ⟨S1700000, .i1⟩) (fun x v => Host.reduce IntOp.andi x v reducesTo_S1700000x1_S1700000_d1 h_S_) ]

/-- Its last operations: the gather, the fill value and the selection. -/
abbrev take2_l3 : List (HloOp τ sig (Elt Ideal)) :=
  [ StableHlo.TRef.binary (.of main_v48 : StableHlo.TRef sig ⟨S100000x64, .f32⟩) (.of main_call3_v5 : StableHlo.TRef sig ⟨S1700000x1, .i32⟩) (.of main_call3_v13 : StableHlo.TRef sig ⟨S1700000x64, .f32⟩) (fun x i => Host.gather gather_S100000x64_S1700000x1_S1700000x64_1_0_n_n_0_1_164 x i),
    StableHlo.TRef.unary (.of main_call3_v12 : StableHlo.TRef sig ⟨S1700000, .i1⟩) (.of main_call3_v14 : StableHlo.TRef sig ⟨S1700000x64, .i1⟩) (broadcastInDim S1700000x64 ![0] bcast_S1700000_S1700000x64_0),
    StableHlo.TRef.nullary (.of main_call3_cst : StableHlo.TRef sig ⟨S_, .f32⟩) (constant (F := Ideal) S_ .f32 0x7FC00000#32),
    StableHlo.TRef.unary (.of main_call3_cst : StableHlo.TRef sig ⟨S_, .f32⟩) (.of main_call3_v15 : StableHlo.TRef sig ⟨S1700000x64, .f32⟩) (broadcastInDim S1700000x64 ![] bcast_S_S1700000x64),
    StableHlo.TRef.ternary (.of main_call3_v14 : StableHlo.TRef sig ⟨S1700000x64, .i1⟩) (.of main_call3_v13 : StableHlo.TRef sig ⟨S1700000x64, .f32⟩) (.of main_call3_v15 : StableHlo.TRef sig ⟨S1700000x64, .f32⟩) (.of main_v49 : StableHlo.TRef sig ⟨S1700000x64, .f32⟩) select ]

/-- The first operations leave the wrapped ids' column. -/
theorem take2_col (V : Valuation τ sig (Elt Ideal)) :
    StableHlo.after take2_l1 V (Proc.devRef .tc main_call3_v5) = wrapB (V (Proc.devRef .tc main_v3)) := by
  after_results
  delta wrapB
  rfl
theorem take2_l1_feat (V : Valuation τ sig (Elt Ideal)) :
    StableHlo.after take2_l1 V (Proc.devRef .tc main_v48) = V (Proc.devRef .tc main_v48) := by after_results

attribute [local irreducible] Host.reduce in
/-- The next operations leave the mask of the column they find. -/
theorem take2_mask (V : Valuation τ sig (Elt Ideal)) :
    StableHlo.after take2_l2 V (Proc.devRef .tc main_call3_v12)
      = Host.reduce IntOp.andi
          (andi (cmpi .sge (V (Proc.devRef .tc main_call3_v5)) (broadcastInDim S1700000x1 ![] bcast_S_S1700000x1 (constantI S_ 32 0#32)))
            (cmpi .sle (V (Proc.devRef .tc main_call3_v5)) (broadcastInDim S1700000x1 ![0, 1] bcast_S1x1_S1700000x1_0_1
              (broadcastInDim S1x1 ![1] bcast_S1_S1x1_1 (constantI S1 32 99999#32)))))
          (constantI S_ 1 1#1) reducesTo_S1700000x1_S1700000_d1 h_S_ := by
  after_results
  rfl
theorem take2_l2_col (V : Valuation τ sig (Elt Ideal)) :
    StableHlo.after take2_l2 V (Proc.devRef .tc main_call3_v5) = V (Proc.devRef .tc main_call3_v5) := by after_results
theorem take2_l2_feat (V : Valuation τ sig (Elt Ideal)) :
    StableHlo.after take2_l2 V (Proc.devRef .tc main_v48) = V (Proc.devRef .tc main_v48) := by after_results

attribute [local irreducible] Host.gather in
/-- The last operations select, by the mask they find, between the gathered rows and the fill. -/
theorem take2_sel (V : Valuation τ sig (Elt Ideal)) :
    StableHlo.after take2_l3 V (Proc.devRef .tc main_v49)
      = select (broadcastInDim S1700000x64 ![0] bcast_S1700000_S1700000x64_0 (V (Proc.devRef .tc main_call3_v12)))
          (Host.gather gather_S100000x64_S1700000x1_S1700000x64_1_0_n_n_0_1_164 (V (Proc.devRef .tc main_v48)) (V (Proc.devRef .tc main_call3_v5)))
          (broadcastInDim S1700000x64 ![] bcast_S_S1700000x64 (constant (F := Ideal) S_ .f32 0x7FC00000#32)) := by
  after_results
  rfl

/-- The take stretch leaves `takeT2` of the features and the source ids it finds. -/
theorem take2_term (V : Valuation τ sig (Elt Ideal)) :
    StableHlo.after (hostOps2 (F := Ideal)) V (Proc.devRef .tc main_v49)
      = takeT2 (V (Proc.devRef .tc main_v48)) (V (Proc.devRef .tc main_v3)) := by
  have hl : (hostOps2 (F := Ideal)) = take2_l1 ++ (take2_l2 ++ take2_l3) := rfl
  rw [hl, after_append, after_append, take2_sel, take2_mask, take2_l2_col, take2_col, take2_l2_feat, take2_l1_feat]
  rfl

/-- The aggregation stretch leaves `aggT2` of the taken rows, the target ids and the edge weights it finds. -/
theorem agg2_term (V : Valuation τ sig (Elt Ideal)) :
    StableHlo.after (hostOps2_1 (F := Ideal)) V (Proc.devRef .tc main_v55)
      = aggT2 (V (Proc.devRef .tc main_v49)) (V (Proc.devRef .tc main_v6)) (V (Proc.devRef .tc main_v30)) := by
  delta aggT2
  after_results

/-- … and the bias as a `1 × 64` row. -/
theorem bias2_term (V : Valuation τ sig (Elt Ideal)) :
    StableHlo.after (hostOps2_1 (F := Ideal)) V (Proc.devRef .tc main_v56)
      = shapeCast S1x64 (V (Proc.devRef .tc main_arg7)) shapeCasts_S64_S1x64 := by
  after_results
  rfl

/-! ## Read at one entry -/

/-- The bias row's entry `(0, j)` is the bias's entry `j`. -/
theorem biasRow2_apply (b : FVec Ideal S64 .f32) (j : Fin 64) :
    cur (shapeCast S1x64 b shapeCasts_S64_S1x64) (0 : Fin 1) j = cur1 b j :=
  shapeCast_apply b shapeCasts_S64_S1x64 (ix2 (0 : Fin 1) j) (ix1 j)
    (by rewrite [Shape.rowMajor_val_one, Shape.rowMajor_val_two]; show j.val = 0 * 64 + j.val; omega)

/-- THE TAKE AT `(e, k)`, where edge `e`'s wrapped id names a node: the features' row of that id. -/
theorem takeT2_apply (h : FVec Ideal S100000x64 .f32) (src : IVec S1700000 32) (e : Fin 1700000) (k : Fin 64)
    (h0 : 0 ≤ (wrapW (src (ix1 e))).toInt) (h1 : (wrapW (src (ix1 e))).toInt ≤ 99999) :
    takeT2 h src (ix2 e k) = h (ix2 ⟨min (wrapW (src (ix1 e))).toInt.toNat (100000 - 1), by omega⟩ k) := by
  have wfg : GatherDims.WF ⟨2, ![100000, 64]⟩ ⟨2, ![1700000, 1]⟩ ⟨2, ![1700000, 64]⟩ [1] [0] [] [0] [] 1 ![1, 64] :=
    gather_S100000x64_S1700000x1_S1700000x64_1_0_n_n_0_1_164.wf
  have hdg : gather_S100000x64_S1700000x1_S1700000x64_1_0_n_n_0_1_164 = rowGatherDims 100000 1700000 64 wfg := rfl
  have hm : broadcastInDim S1700000x64 ![0] bcast_S1700000_S1700000x64_0 (inRange src) (ix2 e k) = 1#1 := by
    rw [broadcastInDim_apply _ bcast_S1700000_S1700000x64_0 (inRange src) (ix2 e k) (ix1 e) (fun a => match a with
      | ⟨0, _⟩ => by show e.val = if (1700000 : Nat) = 1 then 0 else e.val; rw [if_neg (by decide)])]
    exact inRange_apply src e h0 h1
  unfold takeT2
  show Scalar.select (broadcastInDim S1700000x64 ![0] bcast_S1700000_S1700000x64_0 (inRange src) (ix2 e k))
      (Host.gather gather_S100000x64_S1700000x1_S1700000x64_1_0_n_n_0_1_164 h (wrapB src) (ix2 e k))
      (broadcastInDim S1700000x64 ![] bcast_S_S1700000x64 (constant (F := Ideal) S_ .f32 0x7FC00000#32) (ix2 e k)) = _
  rw [hm, select_one, hdg, gather_rows_apply (N := 100000) (by norm_num)]
  refine congrArg (fun r : Fin 100000 => h (ix2 r k)) (Fin.ext ?_)
  show min (wrapB src (ix2 e (0 : Fin 1))).toInt.toNat (100000 - 1) = min (wrapW (src (ix1 e))).toInt.toNat (100000 - 1)
  rw [wrapB_apply]

/-- THE AGGREGATE AT `(i, k)`: zero plus the weighted taken entries of the edges whose target is `i`. -/
theorem aggT2_apply (take : FVec Ideal S1700000x64 .f32) (dst : IVec S1700000 32) (norm : FVec Ideal S1700000 .f32)
    (i : Fin 100000) (k : Fin 64) :
    aggT2 take dst norm (ix2 i k)
      = 0 + ∑ e ∈ into (fun e : Fin 1700000 => (dst (ix1 e)).toInt) i, cur take e k * cur1 norm e := by
  have wfs : ScatterDims.WF ⟨2, ![100000, 64]⟩ ⟨2, ![1700000, 1]⟩ ⟨2, ![1700000, 64]⟩ [1] [0] [0] 1 :=
    scatter_S100000x64_S1700000x1_S1700000x64_1_0_0_1.wf
  have hds : scatter_S100000x64_S1700000x1_S1700000x64_1_0_0_1 = rowScatterDims 100000 1700000 64 wfs := rfl
  -- the operand is zero
  have hz : (broadcastInDim S100000x64 ![] bcast_S_S100000x64 (constant (F := Ideal) S_ .f32 0x00000000#32) (ix2 i k) : EReal) = (0 : EReal) := by
    rw [broadcastInDim_apply _ bcast_S_S100000x64 _ (ix2 i k) ix0 (fun a => a.elim0)]
    exact Ideal.ofBits_zero_f32
  -- the target of edge e, as the scatter reads it
  have hd : ∀ e : Fin 1700000, (broadcastInDim S1700000x1 ![0] bcast_S1700000_S1700000x1_0 dst (ix2 e (0 : Fin 1))).toInt = (dst (ix1 e)).toInt := by
    intro e
    rw [broadcastInDim_apply _ bcast_S1700000_S1700000x1_0 dst (ix2 e (0 : Fin 1)) (ix1 e) (fun a => match a with
      | ⟨0, _⟩ => by show e.val = if (1700000 : Nat) = 1 then 0 else e.val; rw [if_neg (by decide)])]
  -- one edge's update at column k
  have hu : ∀ e : Fin 1700000, (mulf take (broadcastInDim S1700000x64 ![0, 1] bcast_S1700000x1_S1700000x64_0_1
      (broadcastInDim S1700000x1 ![0] bcast_S1700000_S1700000x1_0 norm)) (ix2 e k) : EReal) = cur take e k * cur1 norm e := by
    intro e
    show take (ix2 e k) * broadcastInDim S1700000x64 ![0, 1] bcast_S1700000x1_S1700000x64_0_1
      (broadcastInDim S1700000x1 ![0] bcast_S1700000_S1700000x1_0 norm) (ix2 e k) = _
    rw [broadcastInDim_apply _ bcast_S1700000x1_S1700000x64_0_1 _ (ix2 e k) (ix2 e (0 : Fin 1)) (fun a => match a with
        | ⟨0, _⟩ => by show e.val = if (1700000 : Nat) = 1 then 0 else e.val; rw [if_neg (by decide)]
        | ⟨1, _⟩ => by show (0 : ℕ) = if (1 : Nat) = 1 then 0 else k.val; rw [if_pos rfl]),
      broadcastInDim_apply _ bcast_S1700000_S1700000x1_0 norm (ix2 e (0 : Fin 1)) (ix1 e) (fun a => match a with
        | ⟨0, _⟩ => by show e.val = if (1700000 : Nat) = 1 then 0 else e.val; rw [if_neg (by decide)])]
    rfl
  -- the two sums run over the same edges and have the same terms
  have hsum : (∑ e ∈ Finset.univ.filter (fun e : Fin 1700000 =>
        (broadcastInDim S1700000x1 ![0] bcast_S1700000_S1700000x1_0 dst (ix2 e (0 : Fin 1))).toInt = (i.val : ℤ)),
        (mulf take (broadcastInDim S1700000x64 ![0, 1] bcast_S1700000x1_S1700000x64_0_1
          (broadcastInDim S1700000x1 ![0] bcast_S1700000_S1700000x1_0 norm)) (ix2 e k) : EReal))
      = ∑ e ∈ into (fun e : Fin 1700000 => (dst (ix1 e)).toInt) i, cur take e k * cur1 norm e := by
    unfold into
    exact Finset.sum_congr (Finset.filter_congr fun e _ => by rw [hd e]) fun e _ => hu e
  -- the term is the ideal accumulating scatter at the row-scatter dimension numbers
  have h1 : aggT2 take dst norm (ix2 i k)
      = Ideal.hostScatterAdd (rowScatterDims 100000 1700000 64 wfs)
          (broadcastInDim S100000x64 ![] bcast_S_S100000x64 (constant (F := Ideal) S_ .f32 0x00000000#32))
          (broadcastInDim S1700000x1 ![0] bcast_S1700000_S1700000x1_0 dst)
          (mulf take (broadcastInDim S1700000x64 ![0, 1] bcast_S1700000x1_S1700000x64_0_1
            (broadcastInDim S1700000x1 ![0] bcast_S1700000_S1700000x1_0 norm))) (ix2 i k) := by
    rw [aggT2, Host.scatterAdd, Ideal.hostScatterAdd_def, hds]
  rw [h1, scatterAdd_rows_apply, hz, hsum]

end Cert.KernelIdeal.Hand

end
-- ==== Proof.KPayload2.lean ====
/-
  The third dense layer's block computation, read at one entry: for a block `x0` of 5000 aggregated rows, the weights
  `x1` and the bias row `x2`, entry `(p, q)` of what the body stores is
  `∑ k, x0 (p, k) * x1 (k, q) + x2 (0, q)` — the product into a zero accumulator is the plain sum over the
  one contracted axis and the bias row is broadcast over the block's rows (this layer has no positive part).
-/
import proofs.«431274_j7035156431050_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The product's index maps, axis by axis -/

theorem lhs2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at `(p, q)`: the sum over the contracted axis. -/
theorem mm2_apply (l : FVec Ideal S5000x64 .f32) (r : FVec Ideal S64x64 .f32) (p : Fin 5000) (q : Fin 64) :
    matmul (F := Ideal) dot_S5000x64_S64x64_S5000x64_1_0_0_1_n_n (some .fp32) l r (constant (F := Ideal) S5000x64 .f32 0x00000000#32) (ix2 p q)
      = ∑ k : Fin 64, l (ix2 p k) * r (ix2 k q) := by
  show FloatOps.matmul (F := Ideal) dot_S5000x64_S64x64_S5000x64_1_0_0_1_n_n (some .fp32) l r (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- THE BLOCK'S STORED VALUE AT `(p, q)`. -/
theorem pay2_apply (x0 : Vec Ideal S5000x64 .f32) (x1 : Vec Ideal S64x64 .f32) (x2 : Vec Ideal S1x64 .f32) (p : Fin 5000) (q : Fin 64) :
    k2_pay1 (F := Ideal) x0 x1 x2 (ix2 p q)
      = (∑ k : Fin 64, x0 (ix2 p k) * x1 (ix2 k q)) + x2 (ix2 (0 : Fin 1) q) := by
  unfold k2_pay1
  show matmul (F := Ideal) dot_S5000x64_S64x64_S5000x64_1_0_0_1_n_n (some .fp32) (shapeCast S5000x64 x0 _) x1 (constant (F := Ideal) S5000x64 .f32 0x00000000#32) (ix2 p q)
      + broadcastTo S5000x64 (shapeCast S1x64 x2 _) _ (ix2 p q) = _
  rw [shapeCast_self, shapeCast_self, mm2_apply,
    broadcastTo_apply x2 _ (ix2 p q) (ix2 (0 : Fin 1) q) (fun a => match a with
      | ⟨0, _⟩ => by show (0 : ℕ) = if (1 : ℕ) = 1 then 0 else p.val; rw [if_pos rfl]
      | ⟨1, _⟩ => by show q.val = if (64 : ℕ) = 1 then 0 else q.val; rw [if_neg (by decide)])]

end Cert.KernelIdeal.Hand

end
-- ==== Proof.KRegion2.lean ====
/-
  The third dense layer's output array after its pallas_call, as ONE function of the arrays the call finds:
  `G2 a w b (i, j) = ∑ k, a (i, k) * w (k, j) + b (0, j)`. Point `t` of the grid computes rows
  `[5000 t, 5000 t + 5000)` from the same rows of `a`, all of `w` and the bias row, so what it writes back is
  its block of `G2`; the twenty blocks tile the array.
-/
import proofs.«431274_j7035156431050_4_alg».proof.Proof.Gen.KernelIdeal.Frame
import proofs.«431274_j7035156431050_4_alg».proof.Proof.KPayload2

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

theorem hz2 : (![0, 0] : Fin 2 → Nat) = fun _ => 0 := funext fun a => by fin_cases a <;> rfl

/-- The dense layer as one function of the whole arrays. -/
def G2 (a : S100000x64.Idx → EReal) (w : S64x64.Idx → EReal) (b : S1x64.Idx → EReal) : S100000x64.Idx → EReal :=
  fun i => (∑ k : Fin 64, a (ix2 ⟨(i 0).val, idx2_lt0 i⟩ k) * w (ix2 k ⟨(i 1).val, idx2_lt1 i⟩))
    + b (ix2 (0 : Fin 1) ⟨(i 1).val, idx2_lt1 i⟩)

/-- A block's stored entry is the whole-array function's, once the block's entries are the arrays' at the matching
    indices. -/
theorem pay2_block (A : S100000x64.Idx → EReal) (W : S64x64.Idx → EReal) (B : S1x64.Idx → EReal)
    (x0 : Vec Ideal S5000x64 .f32) (x1 : Vec Ideal S64x64 .f32) (x2 : Vec Ideal S1x64 .f32)
    (i : S100000x64.Idx) (p : Fin 5000) (q : Fin 64)
    (h0 : ∀ k : Fin 64, x0 (ix2 p k) = A (ix2 ⟨(i 0).val, idx2_lt0 i⟩ k))
    (h1 : ∀ k : Fin 64, x1 (ix2 k q) = W (ix2 k ⟨(i 1).val, idx2_lt1 i⟩))
    (h2 : x2 (ix2 (0 : Fin 1) q) = B (ix2 (0 : Fin 1) ⟨(i 1).val, idx2_lt1 i⟩)) :
    k2_pay1 (F := Ideal) x0 x1 x2 (ix2 p q) = G2 A W B i := by
  rw [pay2_apply]
  unfold G2
  simp only [h0, h1, h2]

variable (V : (c : Dev nD) → (b : Ref sig .tc) → Buf (Elt Ideal) ((c : Thread nD τ).loc b))

/-- The printed index maps, decided over the grid: the features' and the output's blocks are block row `t`, the
    weights' and the bias's the one whole block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row is some point's. -/
theorem idx_onto2 : ∀ q0 : Fin 20, ∃ t : Fin cfg2.N, win2_3.index t = ![q0.val, 0] :=
  (by decide +kernel : ∀ q0 : Fin 20, ∃ t : Fin grid2.N, win2_3.index t = ![q0.val, 0])

/-- WHAT POINT `t` WRITES BACK is block `t` of `G2` of the arrays as the call finds them. -/
theorem flushed2_eq (c : Dev nD) (t : Fin cfg2.N) :
    (dat2 (F := Ideal) V c).flushed 3 t
      = ((cfg2.win 3).blk t).view.read (Elt Ideal) (G2 (V c main_v55) (V c main_arg6) (V c main_v56)) := by
  show (cfg2.win 3).cut (grid2.coords t) ((dat2 (F := Ideal) V c).after 3 t) = _
  rw [after2_3]
  unfold out2_3
  rw [View.canon_unit_zero hz2]
  simp only [View.ld_unit_zero (S := S5000x64) hz2, View.ld_unit_zero (S := S64x64) hz2, View.ld_unit_zero (S := S1x64) hz2]
  obtain ⟨e00, e01, e10, e11, e20, e21, e30, e31⟩ := idx_facts2 t
  funext j
  obtain ⟨p, q, rfl⟩ : ∃ (p : Fin 5000) (q : Fin 64), j = ix2 p q := ⟨j 0, j 1, eq_ix2 j⟩
  refine pay2_block (V c main_v55) (V c main_arg6) (V c main_v56) (iblk2 V c 0 t) (iblk2 V c 1 t) (iblk2 V c 2 t)
    (((cfg2.win 3).blk t).view.emb (ix2 p q)) p q (fun k => ?_) (fun k => ?_) ?_
  · show V c main_v55 (((cfg2.win 0).blk t).view.emb (ix2 p k)) = V c main_v55 _
    refine congrArg (V c main_v55) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  · show V c main_arg6 (((cfg2.win 1).blk t).view.emb (ix2 k q)) = V c main_arg6 _
    refine congrArg (V c main_arg6) (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  · show V c main_v56 (((cfg2.win 2).blk t).view.emb (ix2 (0 : Fin 1) q)) = V c main_v56 _
    refine congrArg (V c main_v56) (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v57).slice (win2_3.rect t)).set ↔ _
  rw [View.set_slice_whole, Rect.mem_set_unit]
  exact Iff.rfl

/-- The blocks tile the array: row `r` is in the block of point `r / 5000`. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE ARRAY after the call: `G2` of the arrays the call finds. -/
theorem region2_value (c : Dev nD) :
    (dat2 (F := Ideal) V c).arrAt 3 cfg2.N = G2 (V c main_v55) (V c main_arg6) (V c main_v56) :=
  (dat2 (F := Ideal) V c).arrAt_eq_of_cover 3 _ (fun t _ => flushed2_eq V c t) cover2

end Cert.KernelIdeal.Hand

end
-- ==== Proof.KLayer2.lean ====
/-
  The kernel's third layer as a whole: the array its third pallas_call leaves is the aggregate-first
  layer `kPre` of the features it starts from, the graph data and its weights and bias — from the entrywise readings
  of the take, the aggregation, the bias row and the dense block computation, at the contents the fold gives them.
-/
import proofs.«431274_j7035156431050_4_alg».proof.Proof.KHost2
import proofs.«431274_j7035156431050_4_alg».proof.Proof.KRegion2
import proofs.«431274_j7035156431050_4_alg».proof.Proof.KAt
import proofs.«431274_j7035156431050_4_alg».proof.Proof.LibGcnAssemble

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open Cert.ReferenceIdeal.Read (val_main_v3 val_main_v6 val_main_v30)
open scoped BigOperators

section L2

variable (m : (ℓ : Loc nD τ sig) → Buf (Elt Ideal) ℓ) (ρ : Dev nD → PrngReg) (c : Dev nD)
  (hs : ∀ e : Fin 1700000, 0 ≤ (wrapW (val_main_v3 (F := Ideal) (m ((c : Thread nD τ).loc main_arg1)) (ix1 e))).toInt
    ∧ (wrapW (val_main_v3 (F := Ideal) (m ((c : Thread nD τ).loc main_arg1)) (ix1 e))).toInt ≤ 99999)

/-- The features this layer's take reads. -/
theorem l2_feat : W9 (F := Ideal) m ρ c (Proc.devRef .tc main_v48) = W9 (F := Ideal) m ρ c (Proc.devRef .tc main_v48) :=
  rfl

include hs in
/-- The taken entry of edge `e`: the features' row of its wrapped, clamped source id. -/
theorem l2_take (e : Fin 1700000) (k : Fin 64) :
    cur (W10 (F := Ideal) m ρ c (Proc.devRef .tc main_v49)) e k
      = cur (W9 (F := Ideal) m ρ c (Proc.devRef .tc main_v48)) (sIdx (m ((c : Thread nD τ).loc main_arg1)) e) k := by
  show W10 (F := Ideal) m ρ c (Proc.devRef .tc main_v49) (ix2 e k) = _
  have h1 : W10 (F := Ideal) m ρ c (Proc.devRef .tc main_v49)
      = takeT2 (W9 (F := Ideal) m ρ c (Proc.devRef .tc main_v48)) (W9 (F := Ideal) m ρ c (Proc.devRef .tc main_v3)) :=
    take2_term (W9 (F := Ideal) m ρ c)
  rw [h1, l2_feat m ρ c, src_at_9 m ρ c, takeT2_apply _ _ e k (hs e).1 (hs e).2]
  rfl

/-- The target of edge `e`, as this layer's scatter reads it. -/
theorem l2_dst (e : Fin 1700000) :
    (W10 (F := Ideal) m ρ c (Proc.devRef .tc main_v6) (ix1 e)).toInt = dInt (m ((c : Thread nD τ).loc main_arg1)) e := by
  rw [dst_at_10 m ρ c]
  rfl

/-- The weight of edge `e`, as this layer reads it. -/
theorem l2_nrm (e : Fin 1700000) :
    cur1 (W10 (F := Ideal) m ρ c (Proc.devRef .tc main_v30)) e = nrm (m ((c : Thread nD τ).loc main_arg1)) e := by
  show W10 (F := Ideal) m ρ c (Proc.devRef .tc main_v30) (ix1 e) = _
  rw [nrm_at_10 m ρ c]
  rfl

/-- The aggregate's entries. -/
theorem l2_agg_entries (i : Fin 100000) (k : Fin 64) :
    cur (W11 (F := Ideal) m ρ c (Proc.devRef .tc main_v55)) i k
      = 0 + ∑ e ∈ into (fun e : Fin 1700000 => (W10 (F := Ideal) m ρ c (Proc.devRef .tc main_v6) (ix1 e)).toInt) i,
          cur (W10 (F := Ideal) m ρ c (Proc.devRef .tc main_v49)) e k * cur1 (W10 (F := Ideal) m ρ c (Proc.devRef .tc main_v30)) e := by
  show W11 (F := Ideal) m ρ c (Proc.devRef .tc main_v55) (ix2 i k) = _
  have h1 : W11 (F := Ideal) m ρ c (Proc.devRef .tc main_v55)
      = aggT2 (W10 (F := Ideal) m ρ c (Proc.devRef .tc main_v49)) (W10 (F := Ideal) m ρ c (Proc.devRef .tc main_v6))
          (W10 (F := Ideal) m ρ c (Proc.devRef .tc main_v30)) := agg2_term (W10 (F := Ideal) m ρ c)
  rw [h1, aggT2_apply]

include hs in
/-- The aggregate is `agg` of the features and the graph data. -/
theorem l2_agg :
    cur (W11 (F := Ideal) m ρ c (Proc.devRef .tc main_v55))
      = agg (cur (W9 (F := Ideal) m ρ c (Proc.devRef .tc main_v48))) (sIdx (m ((c : Thread nD τ).loc main_arg1)))
          (dInt (m ((c : Thread nD τ).loc main_arg1))) (nrm (m ((c : Thread nD τ).loc main_arg1))) :=
  agg_of_entries _ (cur (W10 (F := Ideal) m ρ c (Proc.devRef .tc main_v49)))
    (fun e : Fin 1700000 => (W10 (F := Ideal) m ρ c (Proc.devRef .tc main_v6) (ix1 e)).toInt) (cur1 (W10 (F := Ideal) m ρ c (Proc.devRef .tc main_v30)))
    _ _ _ _ (l2_agg_entries m ρ c) (l2_dst m ρ c) (l2_nrm m ρ c) (l2_take m ρ c hs)

/-- The output's entries: the dense block computation of the aggregate, the weights and the bias. -/
theorem l2_out (i : Fin 100000) (j : Fin 64) :
    cur (W12 (F := Ideal) m ρ c (Proc.devRef .tc main_v57)) i j
      = (∑ k : Fin 64, cur (W11 (F := Ideal) m ρ c (Proc.devRef .tc main_v55)) i k
            * cur (W0 (F := Ideal) m ρ c (Proc.devRef .tc main_arg6)) k j)
          + cur1 (W0 (F := Ideal) m ρ c (Proc.devRef .tc main_arg7)) j := by
  have h1 : W12 (F := Ideal) m ρ c (Proc.devRef .tc main_v57)
      = G2 (V11 (F := Ideal) m ρ c main_v55) (V11 (F := Ideal) m ρ c main_arg6) (V11 (F := Ideal) m ρ c main_v56) :=
    (W12_arr (F := Ideal) m ρ c 3).trans (region2_value (V11 (F := Ideal) m ρ) c)
  have hb : W11 (F := Ideal) m ρ c (Proc.devRef .tc main_v56)
      = shapeCast S1x64 (W10 (F := Ideal) m ρ c (Proc.devRef .tc main_arg7)) shapeCasts_S64_S1x64 := bias2_term (W10 (F := Ideal) m ρ c)
  show W12 (F := Ideal) m ρ c (Proc.devRef .tc main_v57) (ix2 i j) = _
  rw [h1]
  show (∑ k : Fin 64, cur (W11 (F := Ideal) m ρ c (Proc.devRef .tc main_v55)) i k * cur (W11 (F := Ideal) m ρ c (Proc.devRef .tc main_arg6)) k j)
      + cur (W11 (F := Ideal) m ρ c (Proc.devRef .tc main_v56)) (0 : Fin 1) j = _
  rw [carry_main_arg6_0_11 m ρ c, hb, biasRow2_apply, carry_main_arg7_0_10 m ρ c]

include hs in
/-- THE THIRD LAYER: its output array is `kPre`. -/
theorem layer2_value :
    cur (W12 (F := Ideal) m ρ c (Proc.devRef .tc main_v57))
      = kPre (cur (W9 (F := Ideal) m ρ c (Proc.devRef .tc main_v48))) (sIdx (m ((c : Thread nD τ).loc main_arg1)))
          (dInt (m ((c : Thread nD τ).loc main_arg1))) (nrm (m ((c : Thread nD τ).loc main_arg1)))
          (cur (W0 (F := Ideal) m ρ c (Proc.devRef .tc main_arg6))) (cur1 (W0 (F := Ideal) m ρ c (Proc.devRef .tc main_arg7))) :=
  layer_of_entries _ _ _ _ _ _ _ _ (l2_out m ρ c) (l2_agg m ρ c hs)

end L2

end Cert.KernelIdeal.Hand

end
-- ==== Proof.KValue.lean ====
/-
  The kernel's result is the aggregate-first three-layer stack `kNet` of its arguments and the graph data: the three
  layers one after another, each over the one before.
-/
import proofs.«431274_j7035156431050_4_alg».proof.Proof.KLayer0
import proofs.«431274_j7035156431050_4_alg».proof.Proof.KLayer1
import proofs.«431274_j7035156431050_4_alg».proof.Proof.KLayer2

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
  Idealize.SL.Sem Idealize.ShloMosaic.StableHlo
open Cert.ReferenceIdeal.Read (val_main_v3)

variable (m : (ℓ : Loc nD τ sig) → Buf (Elt Ideal) ℓ) (ρ : Dev nD → PrngReg) (c : Dev nD)

/-! The fold starts from the launch memory: an argument's buffer holds what `m` gives it. -/
theorem W0_arg0 : W0 (F := Ideal) m ρ c (Proc.devRef .tc main_arg0) = (m ((c : Thread nD τ).loc main_arg0)) := rfl
theorem W0_arg2 : W0 (F := Ideal) m ρ c (Proc.devRef .tc main_arg2) = (m ((c : Thread nD τ).loc main_arg2)) := rfl
theorem W0_arg3 : W0 (F := Ideal) m ρ c (Proc.devRef .tc main_arg3) = (m ((c : Thread nD τ).loc main_arg3)) := rfl
theorem W0_arg4 : W0 (F := Ideal) m ρ c (Proc.devRef .tc main_arg4) = (m ((c : Thread nD τ).loc main_arg4)) := rfl
theorem W0_arg5 : W0 (F := Ideal) m ρ c (Proc.devRef .tc main_arg5) = (m ((c : Thread nD τ).loc main_arg5)) := rfl
theorem W0_arg6 : W0 (F := Ideal) m ρ c (Proc.devRef .tc main_arg6) = (m ((c : Thread nD τ).loc main_arg6)) := rfl
theorem W0_arg7 : W0 (F := Ideal) m ρ c (Proc.devRef .tc main_arg7) = (m ((c : Thread nD τ).loc main_arg7)) := rfl

/-- THE KERNEL'S VALUE: its result array is `kNet` of its arguments, given that every edge's wrapped source id names a
    node. -/
theorem kernel_value
    (hs : ∀ e : Fin 1700000, 0 ≤ (wrapW (val_main_v3 (F := Ideal) (m ((c : Thread nD τ).loc main_arg1)) (ix1 e))).toInt
      ∧ (wrapW (val_main_v3 (F := Ideal) (m ((c : Thread nD τ).loc main_arg1)) (ix1 e))).toInt ≤ 99999) :
    cur (W12 (F := Ideal) m ρ c (Proc.devRef .tc main_v57))
      = kNet (cur (m ((c : Thread nD τ).loc main_arg0))) (sIdx (m ((c : Thread nD τ).loc main_arg1))) (dInt (m ((c : Thread nD τ).loc main_arg1))) (nrm (m ((c : Thread nD τ).loc main_arg1)))
          (cur (m ((c : Thread nD τ).loc main_arg2))) (cur1 (m ((c : Thread nD τ).loc main_arg3))) (cur (m ((c : Thread nD τ).loc main_arg4))) (cur1 (m ((c : Thread nD τ).loc main_arg5)))
          (cur (m ((c : Thread nD τ).loc main_arg6))) (cur1 (m ((c : Thread nD τ).loc main_arg7))) := by
  rw [layer2_value m ρ c hs, layer1_value m ρ c hs, layer0_value m ρ c hs,
    W0_arg0, W0_arg2, W0_arg3, W0_arg4, W0_arg5, W0_arg6, W0_arg7]
  rfl

end Cert.KernelIdeal.Hand

end
-- ==== Proof.PreFacts.lean ====
/-
  What the precondition says, read back: every float input takes real values only, and every source node id (row 0 of
  the edge array) lies in `[0, 100000)`.
-/
import proofs.«431274_j7035156431050_4_alg».proof.Pre_finite_inputs
import proofs.«431274_j7035156431050_4_alg».proof.Proof.Gen.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.PreFacts

open Cert.Pre_finite_inputs Idealize.ShloMosaic Idealize.ShloMosaic.ValueIdx

/-- The scalar shape has one index: an index is a function out of the empty set of axes. -/
instance subsingleton_scalar_idx : Subsingleton S_.Idx := ⟨fun a b => funext fun d => d.elim0⟩

/-- The word `0x7F800000` (sign 0, exponent all ones, fraction 0) denotes `+∞`. -/
theorem inf_eq_top : Ideal.ofBits .f32 0x7F800000#32 = (⊤ : EReal) := by simp [Ideal.ofBits, Ideal.ieee]

/-- An extended real whose absolute value `max x (-x)` is strictly below `+∞` is a real: at `⊥` and at `⊤` the
    absolute value is `⊤`, which is not below itself. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- A conjunction of two one-bit vectors that is 1 at an index has both conjuncts 1 there. -/
theorem and_at {s : Shape} (x y : IVec s 1) (i : s.Idx) (h : andi x y i = 1#1) : x i = 1#1 ∧ y i = 1#1 :=
  IntOp.andi_eq_one.1 h

/-- `all(|x| < +∞)` over an array of any shape: if the conjunction of the mask over every axis is 1, every entry of
    `x` is a real. The mask's element at `i` compares `max (x i) (-(x i))` with the broadcast constant, which reads
    `+∞` everywhere. -/
theorem float_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant S_ .f32 0x7F800000#32))) init hr hu ix0 = 1#1)
    (i : s.Idx) : ∃ r : ℝ, x i = (r : EReal) :=
  real_of_abs_lt_inf (x i) (Host.reduce_andi_all _ init hr hu ix0 e i)

/-- `all(0 ≤ v ∧ v < 100000)` over an integer array of any shape: if the conjunction of the mask over every axis is 1,
    every entry of `v`, read signed, lies in `[0, 100000)`. -/
theorem int_all {s : Shape} {axes : List (Fin s.rank)} (v : IVec s 32)
    (hb : S_.BroadcastsInDim s (![] : Fin 0 → Fin s.rank)) (hr : s.ReducesTo axes S_) (hu : 0 < S_.numel) (init : IVec S_ 1)
    (e : Host.reduce IntOp.andi (andi (cmpi .sge v (broadcastInDim s ![] hb (constantI S_ 32 0#32)))
      (cmpi .slt v (broadcastInDim s ![] hb (constantI S_ 32 100000#32)))) init hr hu ix0 = 1#1)
    (i : s.Idx) : 0 ≤ (v i).toInt ∧ (v i).toInt < 100000 := by
  obtain ⟨h0, h1⟩ := and_at _ _ i (Host.reduce_andi_all _ init hr hu ix0 e i)
  have h0' : IntOp.cmpi .sge (v i) (0#32) = 1#1 := h0
  have h1' : IntOp.cmpi .slt (v i) (100000#32) = 1#1 := h1
  rw [IntOp.cmpi_sge] at h0'
  rw [IntOp.cmpi_slt] at h1'
  have z : (0#32 : BitVec 32).toInt = 0 := by decide
  have c : (100000#32 : BitVec 32).toInt = 100000 := by decide
  rw [z] at h0'
  rw [c] at h1'
  exact ⟨h0', h1'⟩

/-- Row 0 of the `[2, 1600000]` array, sliced out as `[1, 1600000]` and reshaped to `[1600000]`, read at `e`, is the
    array at `(0, e)`: the reshape keeps the row-major position `0 * 1600000 + e`, and the slice starts at offset `(0, 0)`. -/
theorem row0_apply (a1 : IVec S2x1600000 32) (hs : S2x1600000.Slices ![0, 0] S1x1600000) (hc : S1x1600000.ShapeCasts S1600000)
    (e : Fin 1600000) :
    shapeCast S1600000 (extractStridedSlice S1x1600000 ![0, 0] a1 hs) hc (ix1 e) = a1 (ix2 (0 : Fin 2) e) := by
  have h1 : shapeCast S1600000 (extractStridedSlice S1x1600000 ![0, 0] a1 hs) hc (ix1 e)
      = extractStridedSlice S1x1600000 ![0, 0] a1 hs (ix2 (0 : Fin 1) e) := by
    generalize extractStridedSlice S1x1600000 ![0, 0] a1 hs = y
    exact shapeCast_apply y hc (ix1 e) (ix2 (0 : Fin 1) e)
      (by rewrite [Shape.rowMajor_val_two, Shape.rowMajor_val_one]; show 0 * 1600000 + e.val = e.val; omega)
  rw [h1]
  exact extractStridedSlice_apply ![0, 0] a1 hs (ix2 (0 : Fin 1) e) (ix2 (0 : Fin 2) e) (fun a => match a with
    | ⟨0, _⟩ => by show (0 : Nat) = 0 + 0; rfl
    | ⟨1, _⟩ => by show e.val = 0 + e.val; omega)

/-- THE PRECONDITION READ BACK. -/
theorem pre_facts (a0 : FVec Ideal S100000x4 .f32) (a1 : IVec S2x1600000 32) (a2 : FVec Ideal S4x32 .f32) (a3 : FVec Ideal S32 .f32)
    (a4 : FVec Ideal S32x64 .f32) (a5 : FVec Ideal S64 .f32) (a6 : FVec Ideal S64x64 .f32) (a7 : FVec Ideal S64 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal))
    ∧ (∀ e : Fin 1600000, 0 ≤ (a1 (ix2 (0 : Fin 2) e)).toInt ∧ (a1 (ix2 (0 : Fin 2) e)).toInt < 100000) := by
  -- the printed predicate at the scalar shape's one index, its three definitions' lets opened
  have e := congrFun h ix0
  dsimp only [Cert.Pre_finite_inputs.fn, Cert.Pre_finite_inputs.fn_part1, Cert.Pre_finite_inputs.fn_part2] at e
  -- the chain of conjunctions, last conjunct first: the ids, then the float arrays 7, 6, 5, 4, 3, then 0 and 2
  obtain ⟨e, hid⟩ := and_at _ _ _ e
  obtain ⟨e, h7⟩ := and_at _ _ _ e
  obtain ⟨e, h6⟩ := and_at _ _ _ e
  obtain ⟨e, h5⟩ := and_at _ _ _ e
  obtain ⟨e, h4⟩ := and_at _ _ _ e
  obtain ⟨e, h3⟩ := and_at _ _ _ e
  obtain ⟨h0, h2⟩ := and_at _ _ _ e
  refine ⟨float_all a0 _ _ _ _ h0, float_all a2 _ _ _ _ h2, float_all a3 _ _ _ _ h3, float_all a4 _ _ _ _ h4,
    float_all a5 _ _ _ _ h5, float_all a6 _ _ _ _ h6, float_all a7 _ _ _ _ h7, fun k => ?_⟩
  -- the ids: the mask's entry at k, then the slice and the reshape read at k
  have hk := int_all _ _ _ _ _ hid (ix1 k)
  rw [row0_apply] at hk
  exact hk

end Cert.PreFacts

end
-- ==== Proof.NormReal.lean ====
/-
  The edge weights are real numbers: `norm e = dinv[src e] * dinv[dst e]` with `dinv = where(deg > 0, deg ** -0.5, 0)`,
  and a positive extended real to the power `-1/2` is real (a real power of a positive real; zero at `⊤`).
-/
import proofs.«431274_j7035156431050_4_alg».proof.Proof.GcnIdx

noncomputable section

namespace Cert.Gcn

open Cert.ReferenceIdeal Cert.ReferenceIdeal.Read Idealize.ShloMosaic Idealize.ShloMosaic.ValueIdx

/-- The exponent's bit pattern denotes `-1/2`. -/
theorem ofBits_neg_half : Ideal.ofBits .f32 0xBF000000#32 = ((-(1 / 2) : ℝ) : EReal) := by
  simp [Ideal.ofBits, Ideal.ieee, -EReal.coe_mul]; norm_num

/-- `where(y > 0, y ** -0.5, 0)` is a real number for every extended real `y`: where the test fails it is `0`; where
    it holds `y` is a real (its power by a real is real) or `⊤` (whose power by a negative number is `0`). -/
theorem dinv_real (y : EReal) :
    ∃ r : ℝ, Scalar.select (Ideal.cmp .ogt y 0) (Ideal.pow y ((-(1 / 2) : ℝ) : EReal)) (0 : EReal) = (r : EReal) := by
  by_cases hb : Ideal.cmp .ogt y 0 = 1#1
  · rw [hb, select_one]
    induction y using EReal.rec with
    | bot => exact ⟨0, by simp [Ideal.cmp] at hb⟩
    | coe r => exact ⟨Real.rpow r (-(1 / 2)), rfl⟩
    | top =>
      refine ⟨0, ?_⟩
      rw [Ideal.pow_top]
      have h1 : ¬ (0 : EReal) < ((-(1 / 2) : ℝ) : EReal) := by
        rw [not_lt, ← EReal.coe_zero, EReal.coe_le_coe_iff]; norm_num
      have h2 : ¬ ((-(1 / 2) : ℝ) : EReal) = 0 := by
        rw [← EReal.coe_zero, EReal.coe_eq_coe_iff]; norm_num
      rw [if_neg h1, if_neg h2]; rfl
  · rw [eq_zero_of_ne_one hb, select_zero]; exact ⟨0, rfl⟩

/-- Every node's `dinv` is a real number, whatever its degree (an arbitrary extended real here) is. -/
theorem v15_real (x1 : IVec S2x1600000 32) (i : S100000.Idx) :
    ∃ r : ℝ, val_main_v15 (F := Ideal) x1 i = (r : EReal) := by
  rw [val_main_v15_apply, val_main_v12_apply, val_main_v14_apply]
  generalize val_main_v10 (F := Ideal) x1 i = y
  rw [val_main_v11_apply, val_main_cst_1_apply, val_main_v13_apply, val_main_cst_2_apply,
    val_main_call0_v1_apply, val_main_call0_v0_apply, val_main_cst_3_apply,
    Ideal.cmpf_def, Ideal.hostPowf_def, Ideal.ofBits_def, Ideal.ofBits_def, Ideal.ofBits_zero_f32, ofBits_neg_half]
  exact dinv_real y

/-- Every edge's weight is a real number, whatever the edge array holds. -/
theorem nrm_real (x1 : IVec S2x1600000 32) : Real1 (nrm x1) := by
  intro e
  show ∃ r : ℝ, val_main_v30 (F := Ideal) x1 (ix1 e) = (r : EReal)
  have hf : ∀ i, ∃ r : ℝ, val_main_v15 (F := Ideal) x1 i = (r : EReal) := v15_real x1
  rw [val_main_v30_apply]
  -- each factor is `dinv` read at some node: the two gathers' index arrays play no part
  unfold val_main_v22 val_main_v29
  generalize val_main_v15 (F := Ideal) x1 = f at hf ⊢
  generalize val_main_v21 (F := Ideal) x1 = j1
  generalize val_main_v28 (F := Ideal) x1 = j2
  obtain ⟨a, ha⟩ := hf (gather_S100000_S1700000x1_S1700000_n_0_n_n_0_1_1.operandIdx (ix1 e) j1)
  obtain ⟨b, hb⟩ := hf (gather_S100000_S1700000x1_S1700000_n_0_n_n_0_1_1.operandIdx (ix1 e) j2)
  refine ⟨a * b, ?_⟩
  show f (gather_S100000_S1700000x1_S1700000_n_0_n_n_0_1_1.operandIdx (ix1 e) j1)
    * f (gather_S100000_S1700000x1_S1700000_n_0_n_n_0_1_1.operandIdx (ix1 e) j2) = _
  rw [ha, hb, EReal.coe_mul]

end Cert.Gcn

end
-- ==== Proof.SrcFacts.lean ====
/-
  Every one of the 1700000 edges reads a node: the first 1600000 source ids are row 0 of the edge array, which the
  precondition puts in `[0, 100000)`, and the last 100000 are the self-loops `0, 1, …, 99999`; on such an id the
  counting-from-the-end of a negative id changes nothing.
-/
import proofs.«431274_j7035156431050_4_alg».proof.Proof.GcnIdx
import Idealize.ShloMosaic.Lib.Affine
import Idealize.ShloMosaic.Lib.StableHlo.Predicate

noncomputable section

namespace Cert.Gcn

open Cert.ReferenceIdeal Cert.ReferenceIdeal.Read Idealize.ShloMosaic Idealize.ShloMosaic.ValueIdx

/-- Counting a negative id from the end changes nothing on a non-negative id. -/
theorem wrapW_of_nonneg (v : BitVec 32) (hv : 0 ≤ v.toInt) : wrapW v = v := by
  unfold wrapW
  have hc : ¬ IntOp.cmpi .slt v 0#32 = 1#1 := by
    rw [IntOp.cmpi_slt, BitVec.toInt_zero]; omega
  rw [eq_zero_of_ne_one hc, select_zero]

/-- The first 1600000 source ids are row 0 of the edge array. -/
theorem val_main_v3_lo (x1 : IVec S2x1600000 32) (e : Fin 1700000) (he : e.val < 1600000) :
    val_main_v3 (F := Ideal) x1 (ix1 e) = x1 (ix2 (0 : Fin 2) (⟨e.val, he⟩ : Fin 1600000)) := by
  have h1 := concatenate_pair_apply_left (0 : Fin S1700000.rank) (val_main_v2 (F := Ideal) x1)
    (val_main_v0 (F := Ideal)) Cert.ReferenceIdeal.Gen.concatenates_S1600000_S100000_S1700000_d0 (ix1 e) rfl
    (ix1 (⟨e.val, he⟩ : Fin 1600000)) (fun b => match b with | ⟨0, _⟩ => rfl)
  refine h1.trans ?_
  rw [val_main_v2_apply, val_main_v1_apply]
  refine congrArg x1 (funext fun a => ?_)
  match a with
  | ⟨0, _⟩ => exact Fin.ext rfl
  | ⟨1, _⟩ => exact Fin.ext (Nat.mod_eq_of_lt he)

/-- The last 100000 source ids are the self-loops `0, 1, …, 99999`. -/
theorem val_main_v3_hi (x1 : IVec S2x1600000 32) (e : Fin 1700000) (he : 1600000 ≤ e.val) :
    val_main_v3 (F := Ideal) x1 (ix1 e) = BitVec.ofNat 32 (e.val - 1600000) := by
  have hlt : e.val - 1600000 < 100000 := by have := e.isLt; omega
  exact concatenate_pair_apply_right (0 : Fin S1700000.rank) (val_main_v2 (F := Ideal) x1)
    (val_main_v0 (F := Ideal)) Cert.ReferenceIdeal.Gen.concatenates_S1600000_S100000_S1700000_d0 (ix1 e) rfl rfl
    (ix1 (⟨e.val - 1600000, hlt⟩ : Fin 100000))
    (fun b hb => by
      have hb1 : b.val < 1 := b.isLt
      exact absurd (Fin.ext (by show b.val = 0; omega)) hb)
    (by show (e.val - 1600000) + 1600000 = e.val; omega)

/-- With the given source ids in range, every edge's wrapped source id lies in `[0, 99999]`. -/
theorem src_facts (x1 : IVec S2x1600000 32)
    (h : ∀ e : Fin 1600000, 0 ≤ (x1 (ix2 (0 : Fin 2) e)).toInt ∧ (x1 (ix2 (0 : Fin 2) e)).toInt < 100000) :
    ∀ e : Fin 1700000, 0 ≤ (wrapW (val_main_v3 (F := Ideal) x1 (ix1 e))).toInt
      ∧ (wrapW (val_main_v3 (F := Ideal) x1 (ix1 e))).toInt ≤ 99999 := by
  intro e
  by_cases he : e.val < 1600000
  · have hx := h ⟨e.val, he⟩
    rw [val_main_v3_lo x1 e he, wrapW_of_nonneg _ hx.1]
    exact ⟨hx.1, by omega⟩
  · have hlt : e.val - 1600000 < 100000 := by have := e.isLt; omega
    have ht : (BitVec.ofNat 32 (e.val - 1600000)).toInt = ((e.val - 1600000 : ℕ) : ℤ) :=
      StableHlo.Predicate.toInt_ofNat_small _ (by omega)
    rw [val_main_v3_hi x1 e (by omega), wrapW_of_nonneg _ (by rw [ht]; omega), ht]
    constructor <;> omega

end Cert.Gcn

end
-- ==== Proof.lean ====
/- The proof of `Cert.Claim` (proofs.«431274_j7035156431050_4_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«431274_j7035156431050_4_alg».proof.Defs
import proofs.«431274_j7035156431050_4_alg».proof.Proof.Gen.Kernel
import proofs.«431274_j7035156431050_4_alg».proof.Proof.Gen.Kernel.Skeleton
import proofs.«431274_j7035156431050_4_alg».proof.Proof.Gen.Kernel.Launch
import proofs.«431274_j7035156431050_4_alg».proof.Proof.Gen.Kernel.Points
import proofs.«431274_j7035156431050_4_alg».proof.Proof.Gen.Kernel.Frame
import proofs.«431274_j7035156431050_4_alg».proof.Proof.Gen.KernelIdeal
import proofs.«431274_j7035156431050_4_alg».proof.Proof.Gen.KernelIdeal.Skeleton
import proofs.«431274_j7035156431050_4_alg».proof.Proof.Gen.KernelIdeal.Launch
import proofs.«431274_j7035156431050_4_alg».proof.Proof.Gen.KernelIdeal.Points
import proofs.«431274_j7035156431050_4_alg».proof.Proof.Gen.KernelIdeal.Frame
import proofs.«431274_j7035156431050_4_alg».proof.Proof.Gen.ReferenceIdeal
import proofs.«431274_j7035156431050_4_alg».proof.Proof.Gen.Pre_finite_inputs
import proofs.«431274_j7035156431050_4_alg».proof.Proof.RefRun
import proofs.«431274_j7035156431050_4_alg».proof.Proof.RefRead
import proofs.«431274_j7035156431050_4_alg».proof.Proof.RefValue
import proofs.«431274_j7035156431050_4_alg».proof.Proof.KRun
import proofs.«431274_j7035156431050_4_alg».proof.Proof.KValue
import proofs.«431274_j7035156431050_4_alg».proof.Proof.PreFacts
import proofs.«431274_j7035156431050_4_alg».proof.Proof.NormReal
import proofs.«431274_j7035156431050_4_alg».proof.Proof.SrcFacts
import Idealize.ShloMosaic.Adequacy
import Idealize.ShloMosaic.Init

noncomputable section

namespace Cert.Proof

open Idealize.ShloMosaic Idealize.SL.Sem Idealize.ShloMosaic.ValueIdx Cert.Gcn

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- At `Ideal`, from arguments that agree and satisfy the precondition, the two programs end with equal results.

    The kernel's result is the aggregate-first stack `kNet` of its arguments and the graph data (source rows, targets,
    edge weights) — every edge's source id names a node, by the precondition for the given edges and by construction for
    the self-loops, so its `jnp.take` fills nothing in; the reference's result is the transform-first stack `rNet` of the
    same data; and the two stacks agree because the precondition makes the inputs, weights and biases real, the edge
    weights are real whatever the graph is, and on real data a layer's two arrangements are one double sum. -/
theorem algebraic : Cert.algebraic_KernelIdeal_ReferenceIdeal := by
  intro m ρ m' ρ' hpre hagree
  refine ⟨_, Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  rw [Cert.ReferenceIdeal.Read.val_main_v83_eq, g0, g1, g2, g3, g4, g5, g6, g7]
  obtain ⟨h0, h2, h3, h4, h5, h6, h7, hsrc⟩ := Cert.PreFacts.pre_facts _ _ _ _ _ _ _ _ (hpre c)
  have hs := Cert.Gcn.src_facts _ hsrc
  have hx : Real2 (cur (m ((c.tc : Thread Cert.KernelIdeal.nD Cert.KernelIdeal.τ).loc Cert.KernelIdeal.main_arg0))) := fun p q => h0 (ix2 p q)
  have hW1 : Real2 (cur (m ((c.tc : Thread Cert.KernelIdeal.nD Cert.KernelIdeal.τ).loc Cert.KernelIdeal.main_arg2))) := fun p q => h2 (ix2 p q)
  have hb1 : Real1 (cur1 (m ((c.tc : Thread Cert.KernelIdeal.nD Cert.KernelIdeal.τ).loc Cert.KernelIdeal.main_arg3))) := fun p => h3 (ix1 p)
  have hW2 : Real2 (cur (m ((c.tc : Thread Cert.KernelIdeal.nD Cert.KernelIdeal.τ).loc Cert.KernelIdeal.main_arg4))) := fun p q => h4 (ix2 p q)
  have hb2 : Real1 (cur1 (m ((c.tc : Thread Cert.KernelIdeal.nD Cert.KernelIdeal.τ).loc Cert.KernelIdeal.main_arg5))) := fun p => h5 (ix1 p)
  have hW3 : Real2 (cur (m ((c.tc : Thread Cert.KernelIdeal.nD Cert.KernelIdeal.τ).loc Cert.KernelIdeal.main_arg6))) := fun p q => h6 (ix2 p q)
  have hn : Real1 (nrm (m ((c.tc : Thread Cert.KernelIdeal.nD Cert.KernelIdeal.τ).loc Cert.KernelIdeal.main_arg1))) := Cert.Gcn.nrm_real _
  funext idx
  obtain ⟨i, j, rfl⟩ : ∃ (i : Fin 100000) (j : Fin 64), idx = ix2 i j := ⟨idx 0, idx 1, eq_ix2 idx⟩
  have eR := Cert.ReferenceIdeal.RefValue.ref_value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) i j
  have eN := congrFun (congrFun (kNet_eq_rNet (s := sIdx (m ((c.tc : Thread Cert.KernelIdeal.nD Cert.KernelIdeal.τ).loc Cert.KernelIdeal.main_arg1))) (d := dInt (m ((c.tc : Thread Cert.KernelIdeal.nD Cert.KernelIdeal.τ).loc Cert.KernelIdeal.main_arg1)))
    (b3 := cur1 (m ((c.tc : Thread Cert.KernelIdeal.nD Cert.KernelIdeal.τ).loc Cert.KernelIdeal.main_arg7))) hx hn hW1 hb1 hW2 hb2 hW3) i) j
  have eK := congrFun (congrFun (Cert.KernelIdeal.Hand.kernel_value m ρ c hs) i) j
  exact eR.trans (eN.symm.trans eK.symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
